-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256x1 : Shape := ⟨2, ![256, 1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn_part2 {F : FTy → Type} [FloatOps F] (main_arg7 : FVec F S256x1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  main_v38

def fn_part1 {F : FTy → Type} [FloatOps F] (main_arg4 : FVec F S256x1 .f32) (main_arg5 : FVec F S256x256 .f32) (main_arg6 : FVec F S256x1 .f32) (main_arg7 : FVec F S256x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S4096x256 .f32) (main_arg1 : FVec F S4096x4096 .f32) (main_arg2 : FVec F S256x256 .f32) (main_arg3 : FVec F S256x1 .f32) (main_arg4 : FVec F S256x1 .f32) (main_arg5 : FVec F S256x256 .f32) (main_arg6 : FVec F S256x1 .f32) (main_arg7 : FVec F S256x1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_arg7 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256x1 : Shape := ⟨2, ![256, 1]⟩
abbrev S256x4096 : Shape := ⟨2, ![256, 4096]⟩
abbrev S8x4096 : Shape := ⟨2, ![8, 4096]⟩
abbrev S1x4096 : Shape := ⟨2, ![1, 4096]⟩
abbrev S256 : Shape := ⟨1, ![256]⟩

abbrev nBuf : Space → Nat
  | .hbm => 10
  | .vmem => 22
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256x1, .f32⟩
  | .hbm, ⟨4, _⟩ => ⟨S256x1, .f32⟩
  | .hbm, ⟨5, _⟩ => ⟨S256x256, .f32⟩
  | .hbm, ⟨6, _⟩ => ⟨S256x1, .f32⟩
  | .hbm, ⟨7, _⟩ => ⟨S256x1, .f32⟩
  | .hbm, ⟨8, _⟩ => ⟨S4096x256, .f32⟩
  | .hbm, ⟨9, _⟩ => ⟨S4096x256, .f32⟩
  | .local _ .vmem, ⟨0, _⟩ => ⟨S4096x256, .f32⟩
  | .local _ .vmem, ⟨1, _⟩ => ⟨S256x256, .f32⟩
  | .local _ .vmem, ⟨2, _⟩ => ⟨S256x1, .f32⟩
  | .local _ .vmem, ⟨3, _⟩ => ⟨S256x1, .f32⟩
  | .local _ .vmem, ⟨4, _⟩ => ⟨S256x4096, .f32⟩
  | .local _ .vmem, ⟨5, _⟩ => ⟨S256x4096, .f32⟩
  | .local _ .vmem, ⟨6, _⟩ => ⟨S256x256, .f32⟩
  | .local _ .vmem, ⟨7, _⟩ => ⟨S256x256, .f32⟩
  | .local _ .vmem, ⟨8, _⟩ => ⟨S4096x256, .f32⟩
  | .local _ .vmem, ⟨9, _⟩ => ⟨S4096x256, .bf16⟩
  | .local _ .vmem, ⟨10, _⟩ => ⟨S8x4096, .f32⟩
  | .local _ .vmem, ⟨11, _⟩ => ⟨S4096x256, .f32⟩
  | .local _ .vmem, ⟨12, _⟩ => ⟨S256x256, .f32⟩
  | .local _ .vmem, ⟨13, _⟩ => ⟨S256x1, .f32⟩
  | .local _ .vmem, ⟨14, _⟩ => ⟨S256x1, .f32⟩
  | .local _ .vmem, ⟨15, _⟩ => ⟨S256x4096, .f32⟩
  | .local _ .vmem, ⟨16, _⟩ => ⟨S256x4096, .f32⟩
  | .local _ .vmem, ⟨17, _⟩ => ⟨S256x256, .f32⟩
  | .local _ .vmem, ⟨18, _⟩ => ⟨S256x256, .f32⟩
  | .local _ .vmem, ⟨19, _⟩ => ⟨S4096x256, .f32⟩
  | .local _ .vmem, ⟨20, _⟩ => ⟨S4096x256, .bf16⟩
  | .local _ .vmem, ⟨21, _⟩ => ⟨S8x4096, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def k1_off1 (i : grid1.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S4096x256_S4096x256 : S4096x256.ShapeCasts S4096x256
  bitsLt_bf16_f32 : FTy.bits .bf16 < FTy.bits .f32
  packedbf16_S4096x256_S4096x256_0_0 : (Rect.unit (s := S4096x256) ![0, 0] S4096x256.size inb_S4096x256_S4096x256_0_0).PackedRows (EltTy.packing .bf16)
  inb_S256x1_S256x1_0_0 : ∀ a, (![0, 0] : Fin 2 → Nat) a + S256x1.size a ≤ S256x1.size a
  h_S256x1 : 0 < S256x1.numel
  shapeCasts_S1x4096_S1x4096 : S1x4096.ShapeCasts S1x4096
  broadcasts_S1x4096_S8x4096 : S1x4096.Broadcasts S8x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S8x4096_S1x4096_0_0 : ∀ a, (![0, 0] : Fin 2 → Nat) a + S1x4096.size a ≤ S8x4096.size a
  h_S1x4096 : 0 < S1x4096.numel
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x256 : S256x1.Broadcasts S256x256
  dot_S4096x256_S256x256_S4096x256_1_0_0_1_n_n_wf : DotDims.WF S4096x256 S256x256 S4096x256 [1] [0] [0] [1] [] []
  dot_S256x1_S4096x256_S1x4096_0_1_1_0_n_n_wf : DotDims.WF S256x1 S4096x256 S1x4096 [0] [1] [1] [0] [] []
  dot_S256x256_S256x1_S256x1_1_0_0_1_n_n_wf : DotDims.WF S256x256 S256x1 S256x1 [1] [0] [0] [1] [] []
  dot_S256x4096_S4096x256_S256x256_1_0_0_1_n_n_wf : DotDims.WF S256x4096 S4096x256 S256x256 [1] [0] [0] [1] [] []
  hrank0 : 0 < grid0.rank
  k0_off1_inb : ∀ i : grid0.Coords, ∀ a, (k0_off1 i) a + S256x256.size a ≤ S4096x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S4096x256.size a
  hwx0_5 : ∀ i : grid0.Coords, EltTy.bits .f32 = 32 ∨ (Rect.block (s := S4096x256) S256x256.size (cc0_transform_5 i) (hinb0_5 i)).WholeWords (EltTy.packing .f32)
  hrank1 : 0 < grid1.rank
  k1_off1_inb : ∀ i : grid1.Coords, ∀ a, (k1_off1 i) a + S256x256.size a ≤ S4096x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x256.size a
  hwx1_0 : ∀ i : grid1.Coords, EltTy.bits .f32 = 32 ∨ (Rect.block (s := S4096x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S4096x4096.size a
  hwx1_4 : ∀ i : grid1.Coords, EltTy.bits .f32 = 32 ∨ (Rect.block (s := S4096x4096) S256x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S4096x256.size a
  hwx1_5 : ∀ i : grid1.Coords, EltTy.bits .f32 = 32 ∨ (Rect.block (s := S4096x256) S256x256.size (cc1_transform_5 i) (hinb1_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x1_S4096x256_S1x4096_0_1_1_0_n_n : DotDims S256x1 S4096x256 S1x4096 where
  lhsContracting := [0]
  rhsContracting := [1]
  lhsNonContracting := [1]
  rhsNonContracting := [0]
  lhsBatch := []
  rhsBatch := []
  wf := dot_S256x1_S4096x256_S1x4096_0_1_1_0_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v0) S4096x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S256x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256x1 : Shape := ⟨2, ![256, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩

abbrev nBuf : Space → Nat
  | .hbm => 110
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256x1, .f32⟩
  | .hbm, ⟨4, _⟩ => ⟨S256x1, .f32⟩
  | .hbm, ⟨5, _⟩ => ⟨S256x256, .f32⟩
  | .hbm, ⟨6, _⟩ => ⟨S256x1, .f32⟩
  | .hbm, ⟨7, _⟩ => ⟨S256x1, .f32⟩
  | .hbm, ⟨8, _⟩ => ⟨S4096x256, .f32⟩
  | .hbm, ⟨9, _⟩ => ⟨S4096x1, .f32⟩
  | .hbm, ⟨10, _⟩ => ⟨S4096x1, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .i1⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .i1⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x256, .f32⟩
  | .hbm, ⟨44, _⟩ => ⟨S_, .f32⟩
  | .hbm, ⟨45, _⟩ => ⟨S4096x256, .f32⟩
  | .hbm, ⟨46, _⟩ => ⟨S4096x256, .i1⟩
  | .hbm, ⟨47, _⟩ => ⟨S_, .f32⟩
  | .hbm, ⟨48, _⟩ => ⟨S4096x256, .f32⟩
  | .hbm, ⟨49, _⟩ => ⟨S4096x256, .i1⟩
  | .hbm, ⟨50, _⟩ => ⟨S_, .f32⟩
  | .hbm, ⟨51, _⟩ => ⟨S_, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x1, .f32⟩
  | .hbm, ⟨61, _⟩ => ⟨S4096x1, .f32⟩
  | .hbm, ⟨62, _⟩ => ⟨S1x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S_, .f32⟩
  | .hbm, ⟨68, _⟩ => ⟨S4096x4096, .f32⟩
  | .hbm, ⟨69, _⟩ => ⟨S4096x4096, .i1⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .i1⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096x1, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x4096, .f32⟩
  | .hbm, ⟨93, _⟩ => ⟨S4096x4096, .f32⟩
  | .hbm, ⟨94, _⟩ => ⟨S4096x256, .f32⟩
  | .hbm, ⟨95, _⟩ => ⟨S_, .f32⟩
  | .hbm, ⟨96, _⟩ => ⟨S4096x256, .f32⟩
  | .hbm, ⟨97, _⟩ => ⟨S4096x256, .i1⟩
  | .hbm, ⟨98, _⟩ => ⟨S_, .f32⟩
  | .hbm, ⟨99, _⟩ => ⟨S4096x256, .f32⟩
  | .hbm, ⟨100, _⟩ => ⟨S4096x256, .i1⟩
  | .hbm, ⟨101, _⟩ => ⟨S_, .f32⟩
  | .hbm, ⟨102, _⟩ => ⟨S_, .f32⟩
  | .hbm, ⟨103, _⟩ => ⟨S4096x256, .f32⟩
  | .hbm, ⟨104, _⟩ => ⟨S4096x256, .f32⟩
  | .hbm, ⟨105, _⟩ => ⟨S4096x256, .f32⟩
  | .hbm, ⟨106, _⟩ => ⟨S_, .f32⟩
  | .hbm, ⟨107, _⟩ => ⟨S4096x256, .f32⟩
  | .hbm, ⟨108, _⟩ => ⟨S4096x256, .f32⟩
  | .hbm, ⟨109, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_call1_v0 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_cst_0 : Ref sig .tc := ⟨.hbm, 47, rfl⟩
abbrev main_call2_v2 : Ref sig .tc := ⟨.hbm, 48, rfl⟩
abbrev main_call2_v3 : Ref sig .tc := ⟨.hbm, 49, rfl⟩
abbrev main_call2_cst_1 : Ref sig .tc := ⟨.hbm, 50, rfl⟩
abbrev main_call2_call0_v0 : Ref sig .tc := ⟨.hbm, 51, rfl⟩
abbrev main_call2_call0_v1 : Ref sig .tc := ⟨.hbm, 52, rfl⟩
abbrev main_call2_v4 : Ref sig .tc := ⟨.hbm, 53, rfl⟩
abbrev main_call2_v5 : Ref sig .tc := ⟨.hbm, 54, rfl⟩
abbrev main_call2_cst_2 : Ref sig .tc := ⟨.hbm, 55, rfl⟩
abbrev main_call2_v6 : Ref sig .tc := ⟨.hbm, 56, rfl⟩
abbrev main_call2_v7 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_5 : Ref sig .tc := ⟨.hbm, 66, rfl⟩
abbrev main_call3_cst : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v31 : Ref sig .tc := ⟨.hbm, 73, rfl⟩
abbrev main_cst_6 : Ref sig .tc := ⟨.hbm, 74, rfl⟩
abbrev main_v32 : Ref sig .tc := ⟨.hbm, 75, rfl⟩
abbrev main_v33 : Ref sig .tc := ⟨.hbm, 76, rfl⟩
abbrev main_cst_7 : Ref sig .tc := ⟨.hbm, 77, rfl⟩
abbrev main_call4_v0 : Ref sig .tc := ⟨.hbm, 78, rfl⟩
abbrev main_v34 : Ref sig .tc := ⟨.hbm, 79, rfl⟩
abbrev main_cst_8 : Ref sig .tc := ⟨.hbm, 80, rfl⟩
abbrev main_v35 : Ref sig .tc := ⟨.hbm, 81, rfl⟩
abbrev main_cst_9 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_10 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_call5_cst : Ref sig .tc := ⟨.hbm, 95, rfl⟩
abbrev main_call5_v0 : Ref sig .tc := ⟨.hbm, 96, rfl⟩
abbrev main_call5_v1 : Ref sig .tc := ⟨.hbm, 97, rfl⟩
abbrev main_call5_cst_0 : Ref sig .tc := ⟨.hbm, 98, rfl⟩
abbrev main_call5_v2 : Ref sig .tc := ⟨.hbm, 99, rfl⟩
abbrev main_call5_v3 : Ref sig .tc := ⟨.hbm, 100, rfl⟩
abbrev main_call5_cst_1 : Ref sig .tc := ⟨.hbm, 101, rfl⟩
abbrev main_call5_call0_v0 : Ref sig .tc := ⟨.hbm, 102, rfl⟩
abbrev main_call5_call0_v1 : Ref sig .tc := ⟨.hbm, 103, rfl⟩
abbrev main_call5_v4 : Ref sig .tc := ⟨.hbm, 104, rfl⟩
abbrev main_call5_v5 : Ref sig .tc := ⟨.hbm, 105, rfl⟩
abbrev main_call5_cst_2 : Ref sig .tc := ⟨.hbm, 106, rfl⟩
abbrev main_call5_v6 : Ref sig .tc := ⟨.hbm, 107, rfl⟩
abbrev main_call5_v7 : Ref sig .tc := ⟨.hbm, 108, rfl⟩
abbrev main_v47 : Ref sig .tc := ⟨.hbm, 109, rfl⟩

abbrev nD : Nat := 1
abbrev τ : Topo := Topo.v7x

variable {F : FTy → Type} [FloatOps F]

class Facts₀ : Prop where
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.BodyLib.lean ====
/-
  Two facts about a buffer written through its whole-shape rectangle: the zero offsets of a rank-2 rectangle are the
  constant zero function, and one store through such a rectangle covers every index.
-/
import Idealize.ShloMosaic.Lib.Pipeline.FrameBody
import Idealize.ShloMosaic.Lib.Pipeline.Value

noncomputable section

namespace Cert.GatBody

open Idealize.ShloMosaic

variable {F : FTy → Type} [FloatOps F]

theorem zero2 : (![0, 0] : Fin 2 → Nat) = fun _ => 0 := by funext a; fin_cases a <;> rfl

/-- One store through the whole-shape rectangle covers the shape. -/
theorem cover_whole {S : Shape} {e : EltTy} {off : Fin S.rank → Nat} (h : off = fun _ => 0) (inb : ∀ a, off a + S.size a ≤ S.size a)
    (w : S.Idx → Elt F e) (y : S.Idx) :
    ∃ pc ∈ ([⟨Rect.unit off S.size inb, w⟩] : List (View.Piece (Elt F) S e)), y ∈ pc.1.set :=
  ⟨_, List.mem_singleton_self _, View.mem_set_unit_zero h inb y⟩

end Cert.GatBody

end
-- ==== Proof.Body0.lean ====
/-
  The first layer's kernel body as a triple, once per control case. The body keeps three scratch arrays across the grid:
  at the grid's first point it stores the feature transform `h = x W` (whole, in f32 and again in bf16) and the row of
  source scores `adstᵀ h` (broadcast to eight rows); at every point it loads the 256 rows of `h` the point owns, the
  first row of the source scores, the point's block of adjacency rows and the bf16 copy of `h`, and stores the block
  of the layer's result. `featS`, `featBS`, `dstS` are what the first point leaves in the three scratch arrays as
  functions of the staged `x`, `W`, `adst`; `outS` is the stored block as a function of the staged `asrc`, the
  adjacency block and the three scratch arrays' contents, whichever point wrote them.
-/
import proofs.«179434_g75539884802175_cont_sun_m_1234_5_alg».proof.Proof.Gen.KernelIdeal.Launch
import proofs.«179434_g75539884802175_cont_sun_m_1234_5_alg».proof.Proof.Gen.KernelIdeal.Skeleton
import proofs.«179434_g75539884802175_cont_sun_m_1234_5_alg».proof.Proof.Gen.KernelIdeal.Points
import proofs.«179434_g75539884802175_cont_sun_m_1234_5_alg».proof.Proof.BodyLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.GatBody

variable {F : FTy → Type} [FloatOps F]

local notation "𝕄" => MT nD τ sig Unit (Elt F) ℕ (UR sig nD τ) ℕ

/-- The body's one branch: taken at the grid's first point. -/
abbrev cond0 (i : grid0.Coords) : Prop := (Scalar.cmpi .ne (Scalar.extui (Scalar.cmpi .eq (BitVec.ofNat 32 (i 0).val) 0#32)) 0#32) = 1#1

/-! ## The body's accesses -/

abbrev rX0 : Rect S4096x256 := Rect.unit (s := S4096x256) ![0, 0] S4096x256.size Facts₀.inb_S4096x256_S4096x256_0_0
abbrev rW0 : Rect S256x256 := Rect.unit (s := S256x256) ![0, 0] S256x256.size Facts₀.inb_S256x256_S256x256_0_0
abbrev rC0 : Rect S256x1 := Rect.unit (s := S256x1) ![0, 0] S256x1.size Facts₀.inb_S256x1_S256x1_0_0
abbrev rJ0 : Rect S256x4096 := Rect.unit (s := S256x4096) ![0, 0] S256x4096.size Facts₀.inb_S256x4096_S256x4096_0_0
abbrev rT0 : Rect S8x4096 := Rect.unit (s := S8x4096) ![0, 0] S8x4096.size Facts₀.inb_S8x4096_S8x4096_0_0
abbrev rR0 : Rect S8x4096 := Rect.unit (s := S8x4096) ![0, 0] S1x4096.size Facts₀.inb_S8x4096_S1x4096_0_0
abbrev rH0 (i : grid0.Coords) : Rect S4096x256 := Rect.unit (s := S4096x256) (k0_off1 i) S256x256.size (Facts₀.k0_off1_inb i)

/-! ## What the body leaves -/

/-- The f32 feature transform the first point leaves in the first scratch array. -/
def featS0 (x0 : Vec F S4096x256 .f32) (x1 : Vec F S256x256 .f32) : Vec F S4096x256 .f32 :=
  View.canon [⟨rX0, k0_pay3 (View.ld x0 rX0) (View.ld x1 rW0)⟩]
/-- Its bf16 copy, in the second. -/
def featBS0 (x0 : Vec F S4096x256 .f32) (x1 : Vec F S256x256 .f32) : Vec F S4096x256 .bf16 :=
  View.canon [⟨rX0, k0_pay4 (View.ld x0 rX0) (View.ld x1 rW0)⟩]
/-- The source scores, eight equal rows, in the third. -/
def dstS0 (x0 : Vec F S4096x256 .f32) (x1 : Vec F S256x256 .f32) (x3 : Vec F S256x1 .f32) : Vec F S8x4096 .f32 :=
  View.canon [⟨rT0, k0_pay5 (View.ld x0 rX0) (View.ld x1 rW0) (View.ld x3 rC0)⟩]
/-- The block of the result a point stores, from `asrc`, its adjacency rows and the scratch arrays' contents. -/
def outS0 (i : grid0.Coords) (x2 : Vec F S256x1 .f32) (x4 : Vec F S256x4096 .f32)
    (s0 : Vec F S4096x256 .f32) (s1 : Vec F S4096x256 .bf16) (s2 : Vec F S8x4096 .f32) : Vec F S256x256 .f32 :=
  View.canon [⟨rW0, k0_pay1
    (k0_pay6 (View.ld s0 (rH0 i)) (View.ld x2 rC0) (View.ld s2 rR0) (View.ld x4 rJ0) (View.ld s1 rX0))
    (k0_pay7 (View.ld s0 (rH0 i)) (View.ld x2 rC0) (View.ld s2 rR0) (View.ld x4 rJ0) (View.ld s1 rX0))
    (k0_pay8 (View.ld s0 (rH0 i)) (View.ld x2 rC0) (View.ld s2 rR0) (View.ld x4 rJ0) (View.ld s1 rX0))⟩]

/-! ## The body's triples -/

set_option maxHeartbeats 4000000 in
/-- Off the first point the branch is skipped: the scratch arrays are read and handed back as found, the output block
    stored whole. -/
theorem sound_kernel0_B (c : Dev nD) (E : Set ℕ) (i : grid0.Coords) (hc : ¬ cond0 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S4096x256 .bf16) (harg8 : arg8.IsWhole) (arg9 : Memref sig .tc .vmem S8x4096 .f32) (harg9 : arg9.IsWhole)
    (x0 : Vec F S4096x256 .f32) (x1 : Vec F S256x256 .f32) (x2 x3 : Vec F S256x1 .f32) (x4 : Vec F S256x4096 .f32)
    (s0 : Vec F S4096x256 .f32) (s1 : Vec F S4096x256 .bf16) (s2 : Vec F S8x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s0 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outS0 i x2 x4 s0 s1 s2) ∗ owns (c : Thread nD τ) arg7 fullShare s0 ∗ owns (c : Thread nD τ) arg8 fullShare s1 ∗ owns (c : Thread nD τ) arg9 fullShare s2) -∗ K ⟨⟩))
      ⊢ wp frame (wpE (defs₀ (F := F)) Variants.none c none) E (cc0__gat_layer_kernel i arg1 harg1 arg2 harg2 arg3 harg3 arg4 harg4 arg5 harg5 arg6 harg6 arg7 harg7 arg8 harg8 arg9 harg9) K := by
  simp only [cc0__gat_layer_kernel_eq_skeleton]; unfold cc0__gat_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, ⟨%g2, %hg2, HS2⟩, Hk⟩
  subst hf0; subst hf1; subst hf2; subst hf3; subst hf4; subst hg0; subst hg1; subst hg2
  sl_exec (disch := first | exact hc)
  sl_step
  sl_unfold_words
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    exact View.read_writes_eq_canon _ _ _ (cover_whole zero2 _ _)
  isplitl [HS0]; · iexists g0; isplitr; · ipureintro; rfl
                   iexact HS0
  isplitl [HS1]; · iexists g1; isplitr; · ipureintro; rfl
                   iexact HS1
  iexists g2; isplitr; · ipureintro; rfl
  iexact HS2

set_option maxHeartbeats 4000000 in
/-- At the first point the branch is taken: the three scratch arrays are stored whole, whatever they held, then read
    back, and the output block stored whole. -/
theorem sound_kernel0_A (c : Dev nD) (E : Set ℕ) (i : grid0.Coords) (hc : cond0 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S4096x256 .bf16) (harg8 : arg8.IsWhole) (arg9 : Memref sig .tc .vmem S8x4096 .f32) (harg9 : arg9.IsWhole)
    (x0 : Vec F S4096x256 .f32) (x1 : Vec F S256x256 .f32) (x2 x3 : Vec F S256x1 .f32) (x4 : Vec F S256x4096 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outS0 i x2 x4 (featS0 x0 x1) (featBS0 x0 x1) (dstS0 x0 x1 x3))
            ∗ owns (c : Thread nD τ) arg7 fullShare (featS0 x0 x1) ∗ owns (c : Thread nD τ) arg8 fullShare (featBS0 x0 x1) ∗ owns (c : Thread nD τ) arg9 fullShare (dstS0 x0 x1 x3)) -∗ K ⟨⟩))
      ⊢ wp frame (wpE (defs₀ (F := F)) Variants.none c none) E (cc0__gat_layer_kernel i arg1 harg1 arg2 harg2 arg3 harg3 arg4 harg4 arg5 harg5 arg6 harg6 arg7 harg7 arg8 harg8 arg9 harg9) K := by
  simp only [cc0__gat_layer_kernel_eq_skeleton]; unfold cc0__gat_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%e0, %g0, -, HS0⟩, ⟨%e1, %g1, -, HS1⟩, ⟨%e2, %g2, -, HS2⟩, Hk⟩
  subst hf0; subst hf1; subst hf2; subst hf3; subst hf4
  sl_exec (disch := first | exact hc)
  sl_step
  sl_unfold_words
  have e7 : ∀ (f : arg7.view.ty.Contents (Elt F)) (w : rX0.shape.Idx → Elt F .f32),
      View.read (Elt F) arg7.view (arg7.view.writes (Elt F) f [⟨rX0, w⟩]) = View.canon [⟨rX0, w⟩] :=
    fun f w => View.read_writes_eq_canon _ _ _ (cover_whole zero2 _ _)
  have e8 : ∀ (w : rX0.shape.Idx → Elt F .bf16),
      arg8.view.readCov [⟨rX0, w⟩] rX0.toLoadRect = View.ld (View.canon [⟨rX0, w⟩]) rX0 :=
    fun w => View.readCov_eq_canon_ld _ _ _ (cover_whole zero2 _ _)
  have e9 : ∀ (w : rT0.shape.Idx → Elt F .f32),
      arg9.view.readCov [⟨rT0, w⟩] rR0.toLoadRect = View.ld (View.canon [⟨rT0, w⟩]) rR0 :=
    fun w => View.readCov_eq_canon_ld _ _ _ (cover_whole zero2 _ _)
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (cover_whole zero2 _ _)]
    simp only [View.readAt_eq_ld, e7, e8, e9]
    rfl
  isplitl [HS0]
  · iexists _; isplitr
    swap; · iexact HS0
    ipureintro; exact View.read_writes_eq_canon _ _ _ (cover_whole zero2 _ _)
  isplitl [HS1]
  · iexists _; isplitr
    swap; · iexact HS1
    ipureintro; exact View.read_writes_eq_canon _ _ _ (cover_whole zero2 _ _)
  iexists _; isplitr
  swap; · iexact HS2
  ipureintro; exact View.read_writes_eq_canon _ _ _ (cover_whole zero2 _ _)

end Cert.KernelIdeal.Hand

end
-- ==== Proof.Reg0.lean ====
/-
  The first launch's proof data: what each window's staging buffer holds after the body at each of the sixteen grid
  points, and the invariant the body keeps between points. Windows 0 to 4 (`x`, `W`, `asrc`, `adst`, the point's 256
  adjacency rows) are inputs and hold their blocks; window 5 holds the block of the result the point stored. The three
  scratch arrays are filled at the first point and only read afterwards, so between points they hold `h = x W` (f32 and
  bf16) and the source scores as computed from the blocks staged at the first point: the invariant says so after the
  first point and leaves them at any contents before it.
-/
import proofs.«179434_g75539884802175_cont_sun_m_1234_5_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch arrays' contents from the first point on. -/
def Hs0 (c : Dev nD) : Vec F S4096x256 .f32 := featS0 (iblk0 V c 0 t0_0) (iblk0 V c 1 t0_0)
def HBs0 (c : Dev nD) : Vec F S4096x256 .bf16 := featBS0 (iblk0 V c 0 t0_0) (iblk0 V c 1 t0_0)
def DTs0 (c : Dev nD) : Vec F S8x4096 .f32 := dstS0 (iblk0 V c 0 t0_0) (iblk0 V c 1 t0_0) (iblk0 V c 3 t0_0)

/-- The block of the result point `t` stores. -/
def outB0 (c : Dev nD) (t : Fin cfg0.N) : Vec F S256x256 .f32 :=
  outS0 (grid0.coords t) (iblk0 V c 2 t) (iblk0 V c 4 t) (Hs0 V c) (HBs0 V c) (DTs0 V c)

/-- The scratch operands as memrefs. -/
abbrev scM0_0 : Memref sig .tc .vmem S4096x256 .f32 := Memref.whole cc0_scratch0
abbrev scM0_1 : Memref sig .tc .vmem S4096x256 .bf16 := Memref.whole cc0_scratch1
abbrev scM0_2 : Memref sig .tc .vmem S8x4096 .f32 := Memref.whole cc0_scratch2

/-- The core's scoped buffers this launch does not touch, each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ f : Buf (Elt F) ((c : Thread nD τ).loc cc1_scratch2), ((c : Thread nD τ).loc cc1_scratch2) ↦{fullShare} f))

/-- Before the first point: every scratch array at some contents. -/
def PhiZ0 (c : Dev nD) : sProp 𝕄 :=
  iprop((∃ d, owns (c : Thread nD τ) scM0_0 fullShare d) ∗ (∃ d, owns (c : Thread nD τ) scM0_1 fullShare d)
    ∗ (∃ d, owns (c : Thread nD τ) scM0_2 fullShare d) ∗ rest0 (F := F) c ∗ ∃ r, prngReg c r)
/-- After it: the three scratch arrays at the first point's values. -/
def PhiN0 (c : Dev nD) : sProp 𝕄 :=
  iprop(owns (c : Thread nD τ) scM0_0 fullShare (Hs0 V c) ∗ owns (c : Thread nD τ) scM0_1 fullShare (HBs0 V c)
    ∗ owns (c : Thread nD τ) scM0_2 fullShare (DTs0 V c) ∗ rest0 (F := F) c ∗ ∃ r, prngReg c r)
/-- The invariant before position `n`. -/
def PhiS0 (c : Dev nD) : ℕ → sProp 𝕄
  | 0 => PhiZ0 c
  | _ + 1 => PhiN0 V c

/-- The proof data of the first launch on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outB0 V c t
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outB0 V c t := by dsimp only [dat0]

/-! ## The inputs' blocks -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- The body's branch is taken at the first point only — decided over the grid. -/
theorem hcond0 : ∀ t : Fin cfg0.N, cond0 (grid0.coords t) ↔ t.val = 0 :=
  (by decide +kernel : ∀ t : Fin grid0.N, cond0 (grid0.coords t) ↔ t.val = 0)

/-- No window is idle at any point. -/
theorem liveAt0 : ∀ (w : Fin cfg0.W) (t : Fin cfg0.N), cfg0.idle w (grid0.coords t) = false := by decide +kernel

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem Phi_castSucc0 (c : Dev nD) (t : Fin cfg0.N) : (dat0 V c).Φ t.castSucc = PhiS0 V c t.val := by
  dsimp only [dat0]; simp only [Fin.coe_castSucc]

set_option maxHeartbeats 4000000 in
/-- The body at any point. At the first point the branch is taken: the invariant hands over the scratch arrays at any
    contents and takes them back at the first point's values. At a later point it hands them over at those values and
    takes them back unchanged. The inputs' memrefs hold their blocks throughout; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = PhiN0 V c from rfl,
    show (dat0 V c).owesAt () t.succ = (dat0 V c).owesAt () t.castSucc from rfl,
    after0_0, after0_1, after0_2, after0_3, after0_4, after0_5, Phi_castSucc0]
  by_cases hz : t.val = 0
  · obtain rfl : t = t0_0 := Fin.ext hz
    rw [show PhiS0 V c (t0_0 : Fin cfg0.N).val = PhiZ0 c from rfl]
    unfold PhiZ0 PhiN0
    iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
    iapply (sound_kernel0_A c Set.univ (grid0.coords t0_0) ((hcond0 t0_0).mpr rfl) _ _ _ _ _ _ _ _ _ _ _ _ _ _ _ _ _ _
      (iblk0 V c 0 t0_0) (iblk0 V c 1 t0_0) (iblk0 V c 2 t0_0) (iblk0 V c 3 t0_0) (iblk0 V c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn⟩ : ∃ n, t.val = n + 1 := Nat.exists_eq_succ_of_ne_zero hz
    rw [hn, show PhiS0 V c (n + 1) = PhiN0 V c from rfl]
    unfold PhiN0
    iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
    iapply (sound_kernel0_B c Set.univ (grid0.coords t) (fun h => hz ((hcond0 t).mp h)) _ _ _ _ _ _ _ _ _ _ _ _ _ _ _ _ _ _
      (iblk0 V c 0 t) (iblk0 V c 1 t) (iblk0 V c 2 t) (iblk0 V c 3 t) (iblk0 V c 4 t) (Hs0 V c) (HBs0 V c) (DTs0 V c) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.Body1.lean ====
/-
  The second layer's kernel body as a triple, once per control case. The body keeps three scratch arrays across the grid:
  at the grid's first point it stores the feature transform `h = x W` (whole, in f32 and again in bf16) and the row of
  source scores `adstᵀ h` (broadcast to eight rows); at every point it loads the 256 rows of `h` the point owns, the
  first row of the source scores, the point's block of adjacency rows and the bf16 copy of `h`, and stores the block
  of the layer's result. `featS`, `featBS`, `dstS` are what the first point leaves in the three scratch arrays as
  functions of the staged `x`, `W`, `adst`; `outS` is the stored block as a function of the staged `asrc`, the
  adjacency block and the three scratch arrays' contents, whichever point wrote them.
-/
import proofs.«179434_g75539884802175_cont_sun_m_1234_5_alg».proof.Proof.Gen.KernelIdeal.Launch
import proofs.«179434_g75539884802175_cont_sun_m_1234_5_alg».proof.Proof.Gen.KernelIdeal.Skeleton
import proofs.«179434_g75539884802175_cont_sun_m_1234_5_alg».proof.Proof.Gen.KernelIdeal.Points
import proofs.«179434_g75539884802175_cont_sun_m_1234_5_alg».proof.Proof.BodyLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.GatBody

variable {F : FTy → Type} [FloatOps F]

local notation "𝕄" => MT nD τ sig Unit (Elt F) ℕ (UR sig nD τ) ℕ

/-- The body's one branch: taken at the grid's first point. -/
abbrev cond1 (i : grid1.Coords) : Prop := (Scalar.cmpi .ne (Scalar.extui (Scalar.cmpi .eq (BitVec.ofNat 32 (i 0).val) 0#32)) 0#32) = 1#1

/-! ## The body's accesses -/

abbrev rX1 : Rect S4096x256 := Rect.unit (s := S4096x256) ![0, 0] S4096x256.size Facts₀.inb_S4096x256_S4096x256_0_0
abbrev rW1 : Rect S256x256 := Rect.unit (s := S256x256) ![0, 0] S256x256.size Facts₀.inb_S256x256_S256x256_0_0
abbrev rC1 : Rect S256x1 := Rect.unit (s := S256x1) ![0, 0] S256x1.size Facts₀.inb_S256x1_S256x1_0_0
abbrev rJ1 : Rect S256x4096 := Rect.unit (s := S256x4096) ![0, 0] S256x4096.size Facts₀.inb_S256x4096_S256x4096_0_0
abbrev rT1 : Rect S8x4096 := Rect.unit (s := S8x4096) ![0, 0] S8x4096.size Facts₀.inb_S8x4096_S8x4096_0_0
abbrev rR1 : Rect S8x4096 := Rect.unit (s := S8x4096) ![0, 0] S1x4096.size Facts₀.inb_S8x4096_S1x4096_0_0
abbrev rH1 (i : grid1.Coords) : Rect S4096x256 := Rect.unit (s := S4096x256) (k1_off1 i) S256x256.size (Facts₀.k1_off1_inb i)

/-! ## What the body leaves -/

/-- The f32 feature transform the first point leaves in the first scratch array. -/
def featS1 (x0 : Vec F S4096x256 .f32) (x1 : Vec F S256x256 .f32) : Vec F S4096x256 .f32 :=
  View.canon [⟨rX1, k1_pay3 (View.ld x0 rX1) (View.ld x1 rW1)⟩]
/-- Its bf16 copy, in the second. -/
def featBS1 (x0 : Vec F S4096x256 .f32) (x1 : Vec F S256x256 .f32) : Vec F S4096x256 .bf16 :=
  View.canon [⟨rX1, k1_pay4 (View.ld x0 rX1) (View.ld x1 rW1)⟩]
/-- The source scores, eight equal rows, in the third. -/
def dstS1 (x0 : Vec F S4096x256 .f32) (x1 : Vec F S256x256 .f32) (x3 : Vec F S256x1 .f32) : Vec F S8x4096 .f32 :=
  View.canon [⟨rT1, k1_pay5 (View.ld x0 rX1) (View.ld x1 rW1) (View.ld x3 rC1)⟩]
/-- The block of the result a point stores, from `asrc`, its adjacency rows and the scratch arrays' contents. -/
def outS1 (i : grid1.Coords) (x2 : Vec F S256x1 .f32) (x4 : Vec F S256x4096 .f32)
    (s0 : Vec F S4096x256 .f32) (s1 : Vec F S4096x256 .bf16) (s2 : Vec F S8x4096 .f32) : Vec F S256x256 .f32 :=
  View.canon [⟨rW1, k1_pay1
    (k1_pay6 (View.ld s0 (rH1 i)) (View.ld x2 rC1) (View.ld s2 rR1) (View.ld x4 rJ1) (View.ld s1 rX1))
    (k1_pay7 (View.ld s0 (rH1 i)) (View.ld x2 rC1) (View.ld s2 rR1) (View.ld x4 rJ1) (View.ld s1 rX1))
    (k1_pay8 (View.ld s0 (rH1 i)) (View.ld x2 rC1) (View.ld s2 rR1) (View.ld x4 rJ1) (View.ld s1 rX1))⟩]

/-! ## The body's triples -/

set_option maxHeartbeats 4000000 in
/-- Off the first point the branch is skipped: the scratch arrays are read and handed back as found, the output block
    stored whole. -/
theorem sound_kernel1_B (c : Dev nD) (E : Set ℕ) (i : grid1.Coords) (hc : ¬ cond1 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S4096x256 .bf16) (harg8 : arg8.IsWhole) (arg9 : Memref sig .tc .vmem S8x4096 .f32) (harg9 : arg9.IsWhole)
    (x0 : Vec F S4096x256 .f32) (x1 : Vec F S256x256 .f32) (x2 x3 : Vec F S256x1 .f32) (x4 : Vec F S256x4096 .f32)
    (s0 : Vec F S4096x256 .f32) (s1 : Vec F S4096x256 .bf16) (s2 : Vec F S8x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s0 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outS1 i x2 x4 s0 s1 s2) ∗ owns (c : Thread nD τ) arg7 fullShare s0 ∗ owns (c : Thread nD τ) arg8 fullShare s1 ∗ owns (c : Thread nD τ) arg9 fullShare s2) -∗ K ⟨⟩))
      ⊢ wp frame (wpE (defs₀ (F := F)) Variants.none c none) E (cc1__gat_layer_kernel i arg1 harg1 arg2 harg2 arg3 harg3 arg4 harg4 arg5 harg5 arg6 harg6 arg7 harg7 arg8 harg8 arg9 harg9) K := by
  simp only [cc1__gat_layer_kernel_eq_skeleton]; unfold cc1__gat_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, ⟨%g2, %hg2, HS2⟩, Hk⟩
  subst hf0; subst hf1; subst hf2; subst hf3; subst hf4; subst hg0; subst hg1; subst hg2
  sl_exec (disch := first | exact hc)
  sl_step
  sl_unfold_words
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    exact View.read_writes_eq_canon _ _ _ (cover_whole zero2 _ _)
  isplitl [HS0]; · iexists g0; isplitr; · ipureintro; rfl
                   iexact HS0
  isplitl [HS1]; · iexists g1; isplitr; · ipureintro; rfl
                   iexact HS1
  iexists g2; isplitr; · ipureintro; rfl
  iexact HS2

set_option maxHeartbeats 4000000 in
/-- At the first point the branch is taken: the three scratch arrays are stored whole, whatever they held, then read
    back, and the output block stored whole. -/
theorem sound_kernel1_A (c : Dev nD) (E : Set ℕ) (i : grid1.Coords) (hc : cond1 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S4096x256 .bf16) (harg8 : arg8.IsWhole) (arg9 : Memref sig .tc .vmem S8x4096 .f32) (harg9 : arg9.IsWhole)
    (x0 : Vec F S4096x256 .f32) (x1 : Vec F S256x256 .f32) (x2 x3 : Vec F S256x1 .f32) (x4 : Vec F S256x4096 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outS1 i x2 x4 (featS1 x0 x1) (featBS1 x0 x1) (dstS1 x0 x1 x3))
            ∗ owns (c : Thread nD τ) arg7 fullShare (featS1 x0 x1) ∗ owns (c : Thread nD τ) arg8 fullShare (featBS1 x0 x1) ∗ owns (c : Thread nD τ) arg9 fullShare (dstS1 x0 x1 x3)) -∗ K ⟨⟩))
      ⊢ wp frame (wpE (defs₀ (F := F)) Variants.none c none) E (cc1__gat_layer_kernel i arg1 harg1 arg2 harg2 arg3 harg3 arg4 harg4 arg5 harg5 arg6 harg6 arg7 harg7 arg8 harg8 arg9 harg9) K := by
  simp only [cc1__gat_layer_kernel_eq_skeleton]; unfold cc1__gat_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%e0, %g0, -, HS0⟩, ⟨%e1, %g1, -, HS1⟩, ⟨%e2, %g2, -, HS2⟩, Hk⟩
  subst hf0; subst hf1; subst hf2; subst hf3; subst hf4
  sl_exec (disch := first | exact hc)
  sl_step
  sl_unfold_words
  have e7 : ∀ (f : arg7.view.ty.Contents (Elt F)) (w : rX1.shape.Idx → Elt F .f32),
      View.read (Elt F) arg7.view (arg7.view.writes (Elt F) f [⟨rX1, w⟩]) = View.canon [⟨rX1, w⟩] :=
    fun f w => View.read_writes_eq_canon _ _ _ (cover_whole zero2 _ _)
  have e8 : ∀ (w : rX1.shape.Idx → Elt F .bf16),
      arg8.view.readCov [⟨rX1, w⟩] rX1.toLoadRect = View.ld (View.canon [⟨rX1, w⟩]) rX1 :=
    fun w => View.readCov_eq_canon_ld _ _ _ (cover_whole zero2 _ _)
  have e9 : ∀ (w : rT1.shape.Idx → Elt F .f32),
      arg9.view.readCov [⟨rT1, w⟩] rR1.toLoadRect = View.ld (View.canon [⟨rT1, w⟩]) rR1 :=
    fun w => View.readCov_eq_canon_ld _ _ _ (cover_whole zero2 _ _)
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (cover_whole zero2 _ _)]
    simp only [View.readAt_eq_ld, e7, e8, e9]
    rfl
  isplitl [HS0]
  · iexists _; isplitr
    swap; · iexact HS0
    ipureintro; exact View.read_writes_eq_canon _ _ _ (cover_whole zero2 _ _)
  isplitl [HS1]
  · iexists _; isplitr
    swap; · iexact HS1
    ipureintro; exact View.read_writes_eq_canon _ _ _ (cover_whole zero2 _ _)
  iexists _; isplitr
  swap; · iexact HS2
  ipureintro; exact View.read_writes_eq_canon _ _ _ (cover_whole zero2 _ _)

end Cert.KernelIdeal.Hand

end
-- ==== Proof.Reg1.lean ====
/-
  The second launch's proof data: what each window's staging buffer holds after the body at each of the sixteen grid
  points, and the invariant the body keeps between points. Windows 0 to 4 (`x`, `W`, `asrc`, `adst`, the point's 256
  adjacency rows) are inputs and hold their blocks; window 5 holds the block of the result the point stored. The three
  scratch arrays are filled at the first point and only read afterwards, so between points they hold `h = x W` (f32 and
  bf16) and the source scores as computed from the blocks staged at the first point: the invariant says so after the
  first point and leaves them at any contents before it.
-/
import proofs.«179434_g75539884802175_cont_sun_m_1234_5_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch arrays' contents from the first point on. -/
def Hs1 (c : Dev nD) : Vec F S4096x256 .f32 := featS1 (iblk1 V c 0 t1_0) (iblk1 V c 1 t1_0)
def HBs1 (c : Dev nD) : Vec F S4096x256 .bf16 := featBS1 (iblk1 V c 0 t1_0) (iblk1 V c 1 t1_0)
def DTs1 (c : Dev nD) : Vec F S8x4096 .f32 := dstS1 (iblk1 V c 0 t1_0) (iblk1 V c 1 t1_0) (iblk1 V c 3 t1_0)

/-- The block of the result point `t` stores. -/
def outB1 (c : Dev nD) (t : Fin cfg1.N) : Vec F S256x256 .f32 :=
  outS1 (grid1.coords t) (iblk1 V c 2 t) (iblk1 V c 4 t) (Hs1 V c) (HBs1 V c) (DTs1 V c)

/-- The scratch operands as memrefs. -/
abbrev scM1_0 : Memref sig .tc .vmem S4096x256 .f32 := Memref.whole cc1_scratch0
abbrev scM1_1 : Memref sig .tc .vmem S4096x256 .bf16 := Memref.whole cc1_scratch1
abbrev scM1_2 : Memref sig .tc .vmem S8x4096 .f32 := Memref.whole cc1_scratch2

/-- The core's scoped buffers this launch does not touch, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Before the first point: every scratch array at some contents. -/
def PhiZ1 (c : Dev nD) : sProp 𝕄 :=
  iprop((∃ d, owns (c : Thread nD τ) scM1_0 fullShare d) ∗ (∃ d, owns (c : Thread nD τ) scM1_1 fullShare d)
    ∗ (∃ d, owns (c : Thread nD τ) scM1_2 fullShare d) ∗ rest1 (F := F) c ∗ ∃ r, prngReg c r)
/-- After it: the three scratch arrays at the first point's values. -/
def PhiN1 (c : Dev nD) : sProp 𝕄 :=
  iprop(owns (c : Thread nD τ) scM1_0 fullShare (Hs1 V c) ∗ owns (c : Thread nD τ) scM1_1 fullShare (HBs1 V c)
    ∗ owns (c : Thread nD τ) scM1_2 fullShare (DTs1 V c) ∗ rest1 (F := F) c ∗ ∃ r, prngReg c r)
/-- The invariant before position `n`. -/
def PhiS1 (c : Dev nD) : ℕ → sProp 𝕄
  | 0 => PhiZ1 c
  | _ + 1 => PhiN1 V c

/-- The proof data of the second launch on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outB1 V c t
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outB1 V c t := by dsimp only [dat1]

/-! ## The inputs' blocks -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- The body's branch is taken at the first point only — decided over the grid. -/
theorem hcond1 : ∀ t : Fin cfg1.N, cond1 (grid1.coords t) ↔ t.val = 0 :=
  (by decide +kernel : ∀ t : Fin grid1.N, cond1 (grid1.coords t) ↔ t.val = 0)

/-- No window is idle at any point. -/
theorem liveAt1 : ∀ (w : Fin cfg1.W) (t : Fin cfg1.N), cfg1.idle w (grid1.coords t) = false := by decide +kernel

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem Phi_castSucc1 (c : Dev nD) (t : Fin cfg1.N) : (dat1 V c).Φ t.castSucc = PhiS1 V c t.val := by
  dsimp only [dat1]; simp only [Fin.coe_castSucc]

set_option maxHeartbeats 4000000 in
/-- The body at any point. At the first point the branch is taken: the invariant hands over the scratch arrays at any
    contents and takes them back at the first point's values. At a later point it hands them over at those values and
    takes them back unchanged. The inputs' memrefs hold their blocks throughout; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = PhiN1 V c from rfl,
    show (dat1 V c).owesAt () t.succ = (dat1 V c).owesAt () t.castSucc from rfl,
    after1_0, after1_1, after1_2, after1_3, after1_4, after1_5, Phi_castSucc1]
  by_cases hz : t.val = 0
  · obtain rfl : t = t1_0 := Fin.ext hz
    rw [show PhiS1 V c (t1_0 : Fin cfg1.N).val = PhiZ1 c from rfl]
    unfold PhiZ1 PhiN1
    iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
    iapply (sound_kernel1_A c Set.univ (grid1.coords t1_0) ((hcond1 t1_0).mpr rfl) _ _ _ _ _ _ _ _ _ _ _ _ _ _ _ _ _ _
      (iblk1 V c 0 t1_0) (iblk1 V c 1 t1_0) (iblk1 V c 2 t1_0) (iblk1 V c 3 t1_0) (iblk1 V c 4 t1_0) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn⟩ : ∃ n, t.val = n + 1 := Nat.exists_eq_succ_of_ne_zero hz
    rw [hn, show PhiS1 V c (n + 1) = PhiN1 V c from rfl]
    unfold PhiN1
    iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => hz ((hcond1 t).mp h)) _ _ _ _ _ _ _ _ _ _ _ _ _ _ _ _ _ _
      (iblk1 V c 0 t) (iblk1 V c 1 t) (iblk1 V c 2 t) (iblk1 V c 3 t) (iblk1 V c 4 t) (Hs1 V c) (HBs1 V c) (DTs1 V c) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Launch.lean ====
/-
  The two launches in sequence. @main is the first layer's launch followed by the second's: each is entered with every
  unscoped buffer at the contents the segment before it left, and leaves its own arrays at what its write-backs leave
  (the inputs as entered, the output at the fold of the sixteen blocks) and every other buffer as entered. So after the
  run every unscoped buffer holds `W2`: the launch memory with `main_call0_v0` replaced by the first launch's result and
  `main_v0` by the second's, computed from the first's. No argument array is an output of either launch, so each
  argument ends as launched.
-/
import proofs.«179434_g75539884802175_cont_sun_m_1234_5_alg».proof.Proof.Reg0
import proofs.«179434_g75539884802175_cont_sun_m_1234_5_alg».proof.Proof.Reg1
import proofs.«179434_g75539884802175_cont_sun_m_1234_5_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- The same read at the TensorCore's references: what the first launch's proof data take. -/
abbrev V0 : (c : Dev nD) → (b : Ref sig .tc) → Buf (Elt F) ((c : Thread nD τ).loc b) := fun c b => W0 m c b
/-- After the first launch: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second launch, likewise over `W1`. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched -/

theorem W2_main_arg0 (c : Dev nD) : W2 m c (Proc.devRef .tc main_arg0) = m ((c : Thread nD τ).loc main_arg0) :=
  (W2_of_ne m c main_arg0 (by decide)).trans ((W1_arr m c 0).trans (((dat0 (V0 m) c).arrAt_in 0 rfl _).trans (A_eq0 (V0 m) c 0)))
theorem W2_main_arg1 (c : Dev nD) : W2 m c (Proc.devRef .tc main_arg1) = m ((c : Thread nD τ).loc main_arg1) :=
  (W2_arr m c 4).trans (((dat1 (V1 m) c).arrAt_in 4 rfl _).trans ((A_eq1 (V1 m) c 4).trans ((W1_arr m c 4).trans (((dat0 (V0 m) c).arrAt_in 4 rfl _).trans (A_eq0 (V0 m) c 4)))))
theorem W2_main_arg2 (c : Dev nD) : W2 m c (Proc.devRef .tc main_arg2) = m ((c : Thread nD τ).loc main_arg2) :=
  (W2_of_ne m c main_arg2 (by decide)).trans ((W1_arr m c 1).trans (((dat0 (V0 m) c).arrAt_in 1 rfl _).trans (A_eq0 (V0 m) c 1)))
theorem W2_main_arg3 (c : Dev nD) : W2 m c (Proc.devRef .tc main_arg3) = m ((c : Thread nD τ).loc main_arg3) :=
  (W2_of_ne m c main_arg3 (by decide)).trans ((W1_arr m c 2).trans (((dat0 (V0 m) c).arrAt_in 2 rfl _).trans (A_eq0 (V0 m) c 2)))
theorem W2_main_arg4 (c : Dev nD) : W2 m c (Proc.devRef .tc main_arg4) = m ((c : Thread nD τ).loc main_arg4) :=
  (W2_of_ne m c main_arg4 (by decide)).trans ((W1_arr m c 3).trans (((dat0 (V0 m) c).arrAt_in 3 rfl _).trans (A_eq0 (V0 m) c 3)))
theorem W2_main_arg5 (c : Dev nD) : W2 m c (Proc.devRef .tc main_arg5) = m ((c : Thread nD τ).loc main_arg5) :=
  (W2_arr m c 1).trans (((dat1 (V1 m) c).arrAt_in 1 rfl _).trans ((A_eq1 (V1 m) c 1).trans (W1_of_ne m c main_arg5 (by decide))))
theorem W2_main_arg6 (c : Dev nD) : W2 m c (Proc.devRef .tc main_arg6) = m ((c : Thread nD τ).loc main_arg6) :=
  (W2_arr m c 2).trans (((dat1 (V1 m) c).arrAt_in 2 rfl _).trans ((A_eq1 (V1 m) c 2).trans (W1_of_ne m c main_arg6 (by decide))))
theorem W2_main_arg7 (c : Dev nD) : W2 m c (Proc.devRef .tc main_arg7) = m ((c : Thread nD τ).loc main_arg7) :=
  (W2_arr m c 3).trans (((dat1 (V1 m) c).arrAt_in 3 rfl _).trans ((A_eq1 (V1 m) c 3).trans (W1_of_ne m c main_arg7 (by decide))))

/-- The result buffer ends at the second launch's output array, computed over `V1`; -/
theorem W2_main_v0 (c : Dev nD) : W2 m c (Proc.devRef .tc main_v0) = (dat1 (V1 m) c).arrAt 5 cfg1.N := W2_arr m c 5
/-- whose first operand is the first launch's output array, computed over the launch memory. -/
theorem V1_main_call0_v0 (c : Dev nD) : V1 m c main_call0_v0 = (dat0 (V0 m) c).arrAt 5 cfg0.N := W1_arr m c 5
theorem V1_main_arg1 (c : Dev nD) : V1 m c main_arg1 = m ((c : Thread nD τ).loc main_arg1) :=
  (W1_arr m c 4).trans (((dat0 (V0 m) c).arrAt_in 4 rfl _).trans (A_eq0 (V0 m) c 4))
theorem V1_main_arg5 (c : Dev nD) : V1 m c main_arg5 = m ((c : Thread nD τ).loc main_arg5) := W1_of_ne m c main_arg5 (by decide)
theorem V1_main_arg6 (c : Dev nD) : V1 m c main_arg6 = m ((c : Thread nD τ).loc main_arg6) := W1_of_ne m c main_arg6 (by decide)
theorem V1_main_arg7 (c : Dev nD) : V1 m c main_arg7 = m ((c : Thread nD τ).loc main_arg7) := W1_of_ne m c main_arg7 (by decide)

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)

/-! ## The launches as segments -/

set_option backward.isDefEq.respectTransparency.types false in
/-- LAUNCH 0 over the thread state: entered with every unscoped buffer at the contents before it, left with its arrays at
    what the write-backs leave and every other buffer as entered. The generator register and the scoped buffers go into the
    invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have e : (Pipeline.scopedRest (Ix := Unit) (Name := ℕ) (U := UR sig nD τ) (Lvl := ℕ) (Val := Elt F) (Pipeline.pin (pcfgs (F := F)) adm (0 : Fin 2)).spec c : sProp 𝕄) = _ := scopedRest0_eq c
    rw [show (pdats m 0 c).Φ 0 = PhiZ0 c from rfl, e]; unfold PhiZ0 rest0
    simp only [scM0_0, scM0_1, scM0_2, owns_whole]
    iintro ⟨Hp, -, A0, A1, A2, Hrest⟩
    isplitl [A0]; · iexact A0
    isplitl [A1]; · iexact A1
    isplitl [A2]; · iexact A2
    isplitl [Hrest]; · iexact Hrest
    iexact Hp
  hout c := by
    have e : (Pipeline.scopedRest (Ix := Unit) (Name := ℕ) (U := UR sig nD τ) (Lvl := ℕ) (Val := Elt F) (Pipeline.pin (pcfgs (F := F)) adm (0 : Fin 2)).spec c : sProp 𝕄) = _ := scopedRest0_eq c
    rw [Pipeline.ownSems0_none, show (pdats m 0 c).Φ (Fin.last _) = PhiN0 (V0 m) c from rfl, e]; unfold PhiN0 rest0
    simp only [scM0_0, scM0_1, scM0_2, owns_whole]
    iintro ⟨A0, A1, A2, Hrest, Hp⟩
    isplitl [Hp]; · iexact Hp
    isplitr; · iempintro
    isplitl [A0]; · iexists _; iexact A0
    isplitl [A1]; · iexists _; iexact A1
    isplitl [A2]; · iexists _; iexact A2
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered with every unscoped buffer at the contents before it, left with its arrays at
    what the write-backs leave and every other buffer as entered. The generator register and the scoped buffers go into the
    invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have e : (Pipeline.scopedRest (Ix := Unit) (Name := ℕ) (U := UR sig nD τ) (Lvl := ℕ) (Val := Elt F) (Pipeline.pin (pcfgs (F := F)) adm (1 : Fin 2)).spec c : sProp 𝕄) = _ := scopedRest1_eq c
    rw [show (pdats m 1 c).Φ 0 = PhiZ1 c from rfl, e]; unfold PhiZ1 rest1
    simp only [scM1_0, scM1_1, scM1_2, owns_whole]
    iintro ⟨Hp, -, B0, B1, B2, B3, B4, B5, B6, B7, B8, B9, B10, A0, A1, A2⟩
    isplitl [A0]; · iexact A0
    isplitl [A1]; · iexact A1
    isplitl [A2]; · iexact A2
    isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hp
  hout c := by
    have e : (Pipeline.scopedRest (Ix := Unit) (Name := ℕ) (U := UR sig nD τ) (Lvl := ℕ) (Val := Elt F) (Pipeline.pin (pcfgs (F := F)) adm (1 : Fin 2)).spec c : sProp 𝕄) = _ := scopedRest1_eq c
    rw [Pipeline.ownSems0_none, show (pdats m 1 c).Φ (Fin.last _) = PhiN1 (V1 m) c from rfl, e]; unfold PhiN1 rest1
    simp only [scM1_0, scM1_1, scM1_2, owns_whole]
    iintro ⟨A0, A1, A2, ⟨B0, B1, B2, B3, B4, B5, B6, B7, B8, B9, B10⟩, Hp⟩
    isplitl [Hp]; · iexact Hp
    isplitr; · iempintro
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [A0]; · iexists _; iexact A0
    isplitl [A1]; · iexists _; iexact A1
    iexists _; iexact A2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at `W2`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME and the result: every argument array ends as launched, and the result buffer at the second launch's
    output array. -/
theorem run_main (ρ : Dev nD → PrngReg) : θ_run defs (onTc (τ := τ) (main (F := F))) ⟨m, fun _ => 0, ρ⟩ (fun r => ∀ c : Dev nD,
      r.2.mem ((c.tc : Thread nD τ).loc main_v0) = (dat1 (V1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_v0 (by decide))).trans (W2_main_v0 m c),
      (h c _ (mem_uc main_arg0 (by decide))).trans (W2_main_arg0 m c),
      (h c _ (mem_uc main_arg1 (by decide))).trans (W2_main_arg1 m c),
      (h c _ (mem_uc main_arg2 (by decide))).trans (W2_main_arg2 m c),
      (h c _ (mem_uc main_arg3 (by decide))).trans (W2_main_arg3 m c),
      (h c _ (mem_uc main_arg4 (by decide))).trans (W2_main_arg4 m c),
      (h c _ (mem_uc main_arg5 (by decide))).trans (W2_main_arg5 m c),
      (h c _ (mem_uc main_arg6 (by decide))).trans (W2_main_arg6 m c),
      (h c _ (mem_uc main_arg7 (by decide))).trans (W2_main_arg7 m c)⟩) (run_all m ρ)

end Cert.KernelIdeal.Hand

end
-- ==== Proof.K.Body0.lean ====
/-
  The first layer's kernel body as a triple, once per control case. The body keeps three scratch arrays across the grid:
  at the grid's first point it stores the feature transform `h = x W` (whole, in f32 and again in bf16) and the row of
  source scores `adstᵀ h` (broadcast to eight rows); at every point it loads the 256 rows of `h` the point owns, the
  first row of the source scores, the point's block of adjacency rows and the bf16 copy of `h`, and stores the block
  of the layer's result. `featS`, `featBS`, `dstS` are what the first point leaves in the three scratch arrays as
  functions of the staged `x`, `W`, `adst`; `outS` is the stored block as a function of the staged `asrc`, the
  adjacency block and the three scratch arrays' contents, whichever point wrote them.
-/
import proofs.«179434_g75539884802175_cont_sun_m_1234_5_alg».proof.Proof.Gen.Kernel.Launch
import proofs.«179434_g75539884802175_cont_sun_m_1234_5_alg».proof.Proof.Gen.Kernel.Skeleton
import proofs.«179434_g75539884802175_cont_sun_m_1234_5_alg».proof.Proof.Gen.Kernel.Points
import proofs.«179434_g75539884802175_cont_sun_m_1234_5_alg».proof.Proof.BodyLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.GatBody

variable {F : FTy → Type} [FloatOps F]

local notation "𝕄" => MT nD τ sig Unit (Elt F) ℕ (UR sig nD τ) ℕ

/-- The body's one branch: taken at the grid's first point. -/
abbrev cond0 (i : grid0.Coords) : Prop := (Scalar.cmpi .ne (Scalar.extui (Scalar.cmpi .eq (BitVec.ofNat 32 (i 0).val) 0#32)) 0#32) = 1#1

/-! ## The body's accesses -/

abbrev rX0 : Rect S4096x256 := Rect.unit (s := S4096x256) ![0, 0] S4096x256.size Facts₀.inb_S4096x256_S4096x256_0_0
abbrev rW0 : Rect S256x256 := Rect.unit (s := S256x256) ![0, 0] S256x256.size Facts₀.inb_S256x256_S256x256_0_0
abbrev rC0 : Rect S256x1 := Rect.unit (s := S256x1) ![0, 0] S256x1.size Facts₀.inb_S256x1_S256x1_0_0
abbrev rJ0 : Rect S256x4096 := Rect.unit (s := S256x4096) ![0, 0] S256x4096.size Facts₀.inb_S256x4096_S256x4096_0_0
abbrev rT0 : Rect S8x4096 := Rect.unit (s := S8x4096) ![0, 0] S8x4096.size Facts₀.inb_S8x4096_S8x4096_0_0
abbrev rR0 : Rect S8x4096 := Rect.unit (s := S8x4096) ![0, 0] S1x4096.size Facts₀.inb_S8x4096_S1x4096_0_0
abbrev rH0 (i : grid0.Coords) : Rect S4096x256 := Rect.unit (s := S4096x256) (k0_off1 i) S256x256.size (Facts₀.k0_off1_inb i)

/-! ## What the body leaves -/

/-- The f32 feature transform the first point leaves in the first scratch array. -/
def featS0 (x0 : Vec F S4096x256 .f32) (x1 : Vec F S256x256 .f32) : Vec F S4096x256 .f32 :=
  View.canon [⟨rX0, k0_pay3 (View.ld x0 rX0) (View.ld x1 rW0)⟩]
/-- Its bf16 copy, in the second. -/
def featBS0 (x0 : Vec F S4096x256 .f32) (x1 : Vec F S256x256 .f32) : Vec F S4096x256 .bf16 :=
  View.canon [⟨rX0, k0_pay4 (View.ld x0 rX0) (View.ld x1 rW0)⟩]
/-- The source scores, eight equal rows, in the third. -/
def dstS0 (x0 : Vec F S4096x256 .f32) (x1 : Vec F S256x256 .f32) (x3 : Vec F S256x1 .f32) : Vec F S8x4096 .f32 :=
  View.canon [⟨rT0, k0_pay5 (View.ld x0 rX0) (View.ld x1 rW0) (View.ld x3 rC0)⟩]
/-- The block of the result a point stores, from `asrc`, its adjacency rows and the scratch arrays' contents. -/
def outS0 (i : grid0.Coords) (x2 : Vec F S256x1 .f32) (x4 : Vec F S256x4096 .f32)
    (s0 : Vec F S4096x256 .f32) (s1 : Vec F S4096x256 .bf16) (s2 : Vec F S8x4096 .f32) : Vec F S256x256 .f32 :=
  View.canon [⟨rW0, k0_pay1
    (k0_pay6 (View.ld s0 (rH0 i)) (View.ld x2 rC0) (View.ld s2 rR0) (View.ld x4 rJ0) (View.ld s1 rX0))
    (k0_pay7 (View.ld s0 (rH0 i)) (View.ld x2 rC0) (View.ld s2 rR0) (View.ld x4 rJ0) (View.ld s1 rX0))
    (k0_pay8 (View.ld s0 (rH0 i)) (View.ld x2 rC0) (View.ld s2 rR0) (View.ld x4 rJ0) (View.ld s1 rX0))⟩]

/-! ## The body's triples -/

set_option maxHeartbeats 4000000 in
/-- Off the first point the branch is skipped: the scratch arrays are read and handed back as found, the output block
    stored whole. -/
theorem sound_kernel0_B (c : Dev nD) (E : Set ℕ) (i : grid0.Coords) (hc : ¬ cond0 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S4096x256 .bf16) (harg8 : arg8.IsWhole) (arg9 : Memref sig .tc .vmem S8x4096 .f32) (harg9 : arg9.IsWhole)
    (x0 : Vec F S4096x256 .f32) (x1 : Vec F S256x256 .f32) (x2 x3 : Vec F S256x1 .f32) (x4 : Vec F S256x4096 .f32)
    (s0 : Vec F S4096x256 .f32) (s1 : Vec F S4096x256 .bf16) (s2 : Vec F S8x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s0 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outS0 i x2 x4 s0 s1 s2) ∗ owns (c : Thread nD τ) arg7 fullShare s0 ∗ owns (c : Thread nD τ) arg8 fullShare s1 ∗ owns (c : Thread nD τ) arg9 fullShare s2) -∗ K ⟨⟩))
      ⊢ wp frame (wpE (defs₀ (F := F)) Variants.none c none) E (cc0__gat_layer_kernel i arg1 harg1 arg2 harg2 arg3 harg3 arg4 harg4 arg5 harg5 arg6 harg6 arg7 harg7 arg8 harg8 arg9 harg9) K := by
  simp only [cc0__gat_layer_kernel_eq_skeleton]; unfold cc0__gat_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, ⟨%g2, %hg2, HS2⟩, Hk⟩
  subst hf0; subst hf1; subst hf2; subst hf3; subst hf4; subst hg0; subst hg1; subst hg2
  sl_exec (disch := first | exact hc)
  sl_step
  sl_unfold_words
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    exact View.read_writes_eq_canon _ _ _ (cover_whole zero2 _ _)
  isplitl [HS0]; · iexists g0; isplitr; · ipureintro; rfl
                   iexact HS0
  isplitl [HS1]; · iexists g1; isplitr; · ipureintro; rfl
                   iexact HS1
  iexists g2; isplitr; · ipureintro; rfl
  iexact HS2

set_option maxHeartbeats 4000000 in
/-- At the first point the branch is taken: the three scratch arrays are stored whole, whatever they held, then read
    back, and the output block stored whole. -/
theorem sound_kernel0_A (c : Dev nD) (E : Set ℕ) (i : grid0.Coords) (hc : cond0 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S4096x256 .bf16) (harg8 : arg8.IsWhole) (arg9 : Memref sig .tc .vmem S8x4096 .f32) (harg9 : arg9.IsWhole)
    (x0 : Vec F S4096x256 .f32) (x1 : Vec F S256x256 .f32) (x2 x3 : Vec F S256x1 .f32) (x4 : Vec F S256x4096 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outS0 i x2 x4 (featS0 x0 x1) (featBS0 x0 x1) (dstS0 x0 x1 x3))
            ∗ owns (c : Thread nD τ) arg7 fullShare (featS0 x0 x1) ∗ owns (c : Thread nD τ) arg8 fullShare (featBS0 x0 x1) ∗ owns (c : Thread nD τ) arg9 fullShare (dstS0 x0 x1 x3)) -∗ K ⟨⟩))
      ⊢ wp frame (wpE (defs₀ (F := F)) Variants.none c none) E (cc0__gat_layer_kernel i arg1 harg1 arg2 harg2 arg3 harg3 arg4 harg4 arg5 harg5 arg6 harg6 arg7 harg7 arg8 harg8 arg9 harg9) K := by
  simp only [cc0__gat_layer_kernel_eq_skeleton]; unfold cc0__gat_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%e0, %g0, -, HS0⟩, ⟨%e1, %g1, -, HS1⟩, ⟨%e2, %g2, -, HS2⟩, Hk⟩
  subst hf0; subst hf1; subst hf2; subst hf3; subst hf4
  sl_exec (disch := first | exact hc)
  sl_step
  sl_unfold_words
  have e7 : ∀ (f : arg7.view.ty.Contents (Elt F)) (w : rX0.shape.Idx → Elt F .f32),
      View.read (Elt F) arg7.view (arg7.view.writes (Elt F) f [⟨rX0, w⟩]) = View.canon [⟨rX0, w⟩] :=
    fun f w => View.read_writes_eq_canon _ _ _ (cover_whole zero2 _ _)
  have e8 : ∀ (w : rX0.shape.Idx → Elt F .bf16),
      arg8.view.readCov [⟨rX0, w⟩] rX0.toLoadRect = View.ld (View.canon [⟨rX0, w⟩]) rX0 :=
    fun w => View.readCov_eq_canon_ld _ _ _ (cover_whole zero2 _ _)
  have e9 : ∀ (w : rT0.shape.Idx → Elt F .f32),
      arg9.view.readCov [⟨rT0, w⟩] rR0.toLoadRect = View.ld (View.canon [⟨rT0, w⟩]) rR0 :=
    fun w => View.readCov_eq_canon_ld _ _ _ (cover_whole zero2 _ _)
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (cover_whole zero2 _ _)]
    simp only [View.readAt_eq_ld, e7, e8, e9]
    rfl
  isplitl [HS0]
  · iexists _; isplitr
    swap; · iexact HS0
    ipureintro; exact View.read_writes_eq_canon _ _ _ (cover_whole zero2 _ _)
  isplitl [HS1]
  · iexists _; isplitr
    swap; · iexact HS1
    ipureintro; exact View.read_writes_eq_canon _ _ _ (cover_whole zero2 _ _)
  iexists _; isplitr
  swap; · iexact HS2
  ipureintro; exact View.read_writes_eq_canon _ _ _ (cover_whole zero2 _ _)

end Cert.Kernel.Hand

end
-- ==== Proof.K.Reg0.lean ====
/-
  The first launch's proof data: what each window's staging buffer holds after the body at each of the sixteen grid
  points, and the invariant the body keeps between points. Windows 0 to 4 (`x`, `W`, `asrc`, `adst`, the point's 256
  adjacency rows) are inputs and hold their blocks; window 5 holds the block of the result the point stored. The three
  scratch arrays are filled at the first point and only read afterwards, so between points they hold `h = x W` (f32 and
  bf16) and the source scores as computed from the blocks staged at the first point: the invariant says so after the
  first point and leaves them at any contents before it.
-/
import proofs.«179434_g75539884802175_cont_sun_m_1234_5_alg».proof.Proof.K.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch arrays' contents from the first point on. -/
def Hs0 (c : Dev nD) : Vec F S4096x256 .f32 := featS0 (iblk0 V c 0 t0_0) (iblk0 V c 1 t0_0)
def HBs0 (c : Dev nD) : Vec F S4096x256 .bf16 := featBS0 (iblk0 V c 0 t0_0) (iblk0 V c 1 t0_0)
def DTs0 (c : Dev nD) : Vec F S8x4096 .f32 := dstS0 (iblk0 V c 0 t0_0) (iblk0 V c 1 t0_0) (iblk0 V c 3 t0_0)

/-- The block of the result point `t` stores. -/
def outB0 (c : Dev nD) (t : Fin cfg0.N) : Vec F S256x256 .f32 :=
  outS0 (grid0.coords t) (iblk0 V c 2 t) (iblk0 V c 4 t) (Hs0 V c) (HBs0 V c) (DTs0 V c)

/-- The scratch operands as memrefs. -/
abbrev scM0_0 : Memref sig .tc .vmem S4096x256 .f32 := Memref.whole cc0_scratch0
abbrev scM0_1 : Memref sig .tc .vmem S4096x256 .bf16 := Memref.whole cc0_scratch1
abbrev scM0_2 : Memref sig .tc .vmem S8x4096 .f32 := Memref.whole cc0_scratch2

/-- The core's scoped buffers this launch does not touch, each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ f : Buf (Elt F) ((c : Thread nD τ).loc cc1_scratch2), ((c : Thread nD τ).loc cc1_scratch2) ↦{fullShare} f))

/-- Before the first point: every scratch array at some contents. -/
def PhiZ0 (c : Dev nD) : sProp 𝕄 :=
  iprop((∃ d, owns (c : Thread nD τ) scM0_0 fullShare d) ∗ (∃ d, owns (c : Thread nD τ) scM0_1 fullShare d)
    ∗ (∃ d, owns (c : Thread nD τ) scM0_2 fullShare d) ∗ rest0 (F := F) c ∗ ∃ r, prngReg c r)
/-- After it: the three scratch arrays at the first point's values. -/
def PhiN0 (c : Dev nD) : sProp 𝕄 :=
  iprop(owns (c : Thread nD τ) scM0_0 fullShare (Hs0 V c) ∗ owns (c : Thread nD τ) scM0_1 fullShare (HBs0 V c)
    ∗ owns (c : Thread nD τ) scM0_2 fullShare (DTs0 V c) ∗ rest0 (F := F) c ∗ ∃ r, prngReg c r)
/-- The invariant before position `n`. -/
def PhiS0 (c : Dev nD) : ℕ → sProp 𝕄
  | 0 => PhiZ0 c
  | _ + 1 => PhiN0 V c

/-- The proof data of the first launch on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outB0 V c t
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outB0 V c t := by dsimp only [dat0]

/-! ## The inputs' blocks -/

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- The body's branch is taken at the first point only — decided over the grid. -/
theorem hcond0 : ∀ t : Fin cfg0.N, cond0 (grid0.coords t) ↔ t.val = 0 :=
  (by decide +kernel : ∀ t : Fin grid0.N, cond0 (grid0.coords t) ↔ t.val = 0)

/-- No window is idle at any point. -/
theorem liveAt0 : ∀ (w : Fin cfg0.W) (t : Fin cfg0.N), cfg0.idle w (grid0.coords t) = false := by decide +kernel

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem Phi_castSucc0 (c : Dev nD) (t : Fin cfg0.N) : (dat0 V c).Φ t.castSucc = PhiS0 V c t.val := by
  dsimp only [dat0]; simp only [Fin.coe_castSucc]

set_option maxHeartbeats 4000000 in
/-- The body at any point. At the first point the branch is taken: the invariant hands over the scratch arrays at any
    contents and takes them back at the first point's values. At a later point it hands them over at those values and
    takes them back unchanged. The inputs' memrefs hold their blocks throughout; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = PhiN0 V c from rfl,
    show (dat0 V c).owesAt () t.succ = (dat0 V c).owesAt () t.castSucc from rfl,
    after0_0, after0_1, after0_2, after0_3, after0_4, after0_5, Phi_castSucc0]
  by_cases hz : t.val = 0
  · obtain rfl : t = t0_0 := Fin.ext hz
    rw [show PhiS0 V c (t0_0 : Fin cfg0.N).val = PhiZ0 c from rfl]
    unfold PhiZ0 PhiN0
    iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
    iapply (sound_kernel0_A c Set.univ (grid0.coords t0_0) ((hcond0 t0_0).mpr rfl) _ _ _ _ _ _ _ _ _ _ _ _ _ _ _ _ _ _
      (iblk0 V c 0 t0_0) (iblk0 V c 1 t0_0) (iblk0 V c 2 t0_0) (iblk0 V c 3 t0_0) (iblk0 V c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn⟩ : ∃ n, t.val = n + 1 := Nat.exists_eq_succ_of_ne_zero hz
    rw [hn, show PhiS0 V c (n + 1) = PhiN0 V c from rfl]
    unfold PhiN0
    iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
    iapply (sound_kernel0_B c Set.univ (grid0.coords t) (fun h => hz ((hcond0 t).mp h)) _ _ _ _ _ _ _ _ _ _ _ _ _ _ _ _ _ _
      (iblk0 V c 0 t) (iblk0 V c 1 t) (iblk0 V c 2 t) (iblk0 V c 3 t) (iblk0 V c 4 t) (Hs0 V c) (HBs0 V c) (DTs0 V c) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Body1.lean ====
/-
  The second layer's kernel body as a triple, once per control case. The body keeps three scratch arrays across the grid:
  at the grid's first point it stores the feature transform `h = x W` (whole, in f32 and again in bf16) and the row of
  source scores `adstᵀ h` (broadcast to eight rows); at every point it loads the 256 rows of `h` the point owns, the
  first row of the source scores, the point's block of adjacency rows and the bf16 copy of `h`, and stores the block
  of the layer's result. `featS`, `featBS`, `dstS` are what the first point leaves in the three scratch arrays as
  functions of the staged `x`, `W`, `adst`; `outS` is the stored block as a function of the staged `asrc`, the
  adjacency block and the three scratch arrays' contents, whichever point wrote them.
-/
import proofs.«179434_g75539884802175_cont_sun_m_1234_5_alg».proof.Proof.Gen.Kernel.Launch
import proofs.«179434_g75539884802175_cont_sun_m_1234_5_alg».proof.Proof.Gen.Kernel.Skeleton
import proofs.«179434_g75539884802175_cont_sun_m_1234_5_alg».proof.Proof.Gen.Kernel.Points
import proofs.«179434_g75539884802175_cont_sun_m_1234_5_alg».proof.Proof.BodyLib
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.GatBody

variable {F : FTy → Type} [FloatOps F]

local notation "𝕄" => MT nD τ sig Unit (Elt F) ℕ (UR sig nD τ) ℕ

/-- The body's one branch: taken at the grid's first point. -/
abbrev cond1 (i : grid1.Coords) : Prop := (Scalar.cmpi .ne (Scalar.extui (Scalar.cmpi .eq (BitVec.ofNat 32 (i 0).val) 0#32)) 0#32) = 1#1

/-! ## The body's accesses -/

abbrev rX1 : Rect S4096x256 := Rect.unit (s := S4096x256) ![0, 0] S4096x256.size Facts₀.inb_S4096x256_S4096x256_0_0
abbrev rW1 : Rect S256x256 := Rect.unit (s := S256x256) ![0, 0] S256x256.size Facts₀.inb_S256x256_S256x256_0_0
abbrev rC1 : Rect S256x1 := Rect.unit (s := S256x1) ![0, 0] S256x1.size Facts₀.inb_S256x1_S256x1_0_0
abbrev rJ1 : Rect S256x4096 := Rect.unit (s := S256x4096) ![0, 0] S256x4096.size Facts₀.inb_S256x4096_S256x4096_0_0
abbrev rT1 : Rect S8x4096 := Rect.unit (s := S8x4096) ![0, 0] S8x4096.size Facts₀.inb_S8x4096_S8x4096_0_0
abbrev rR1 : Rect S8x4096 := Rect.unit (s := S8x4096) ![0, 0] S1x4096.size Facts₀.inb_S8x4096_S1x4096_0_0
abbrev rH1 (i : grid1.Coords) : Rect S4096x256 := Rect.unit (s := S4096x256) (k1_off1 i) S256x256.size (Facts₀.k1_off1_inb i)

/-! ## What the body leaves -/

/-- The f32 feature transform the first point leaves in the first scratch array. -/
def featS1 (x0 : Vec F S4096x256 .f32) (x1 : Vec F S256x256 .f32) : Vec F S4096x256 .f32 :=
  View.canon [⟨rX1, k1_pay3 (View.ld x0 rX1) (View.ld x1 rW1)⟩]
/-- Its bf16 copy, in the second. -/
def featBS1 (x0 : Vec F S4096x256 .f32) (x1 : Vec F S256x256 .f32) : Vec F S4096x256 .bf16 :=
  View.canon [⟨rX1, k1_pay4 (View.ld x0 rX1) (View.ld x1 rW1)⟩]
/-- The source scores, eight equal rows, in the third. -/
def dstS1 (x0 : Vec F S4096x256 .f32) (x1 : Vec F S256x256 .f32) (x3 : Vec F S256x1 .f32) : Vec F S8x4096 .f32 :=
  View.canon [⟨rT1, k1_pay5 (View.ld x0 rX1) (View.ld x1 rW1) (View.ld x3 rC1)⟩]
/-- The block of the result a point stores, from `asrc`, its adjacency rows and the scratch arrays' contents. -/
def outS1 (i : grid1.Coords) (x2 : Vec F S256x1 .f32) (x4 : Vec F S256x4096 .f32)
    (s0 : Vec F S4096x256 .f32) (s1 : Vec F S4096x256 .bf16) (s2 : Vec F S8x4096 .f32) : Vec F S256x256 .f32 :=
  View.canon [⟨rW1, k1_pay1
    (k1_pay6 (View.ld s0 (rH1 i)) (View.ld x2 rC1) (View.ld s2 rR1) (View.ld x4 rJ1) (View.ld s1 rX1))
    (k1_pay7 (View.ld s0 (rH1 i)) (View.ld x2 rC1) (View.ld s2 rR1) (View.ld x4 rJ1) (View.ld s1 rX1))
    (k1_pay8 (View.ld s0 (rH1 i)) (View.ld x2 rC1) (View.ld s2 rR1) (View.ld x4 rJ1) (View.ld s1 rX1))⟩]

/-! ## The body's triples -/

set_option maxHeartbeats 4000000 in
/-- Off the first point the branch is skipped: the scratch arrays are read and handed back as found, the output block
    stored whole. -/
theorem sound_kernel1_B (c : Dev nD) (E : Set ℕ) (i : grid1.Coords) (hc : ¬ cond1 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S4096x256 .bf16) (harg8 : arg8.IsWhole) (arg9 : Memref sig .tc .vmem S8x4096 .f32) (harg9 : arg9.IsWhole)
    (x0 : Vec F S4096x256 .f32) (x1 : Vec F S256x256 .f32) (x2 x3 : Vec F S256x1 .f32) (x4 : Vec F S256x4096 .f32)
    (s0 : Vec F S4096x256 .f32) (s1 : Vec F S4096x256 .bf16) (s2 : Vec F S8x4096 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s0 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outS1 i x2 x4 s0 s1 s2) ∗ owns (c : Thread nD τ) arg7 fullShare s0 ∗ owns (c : Thread nD τ) arg8 fullShare s1 ∗ owns (c : Thread nD τ) arg9 fullShare s2) -∗ K ⟨⟩))
      ⊢ wp frame (wpE (defs₀ (F := F)) Variants.none c none) E (cc1__gat_layer_kernel i arg1 harg1 arg2 harg2 arg3 harg3 arg4 harg4 arg5 harg5 arg6 harg6 arg7 harg7 arg8 harg8 arg9 harg9) K := by
  simp only [cc1__gat_layer_kernel_eq_skeleton]; unfold cc1__gat_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, ⟨%g2, %hg2, HS2⟩, Hk⟩
  subst hf0; subst hf1; subst hf2; subst hf3; subst hf4; subst hg0; subst hg1; subst hg2
  sl_exec (disch := first | exact hc)
  sl_step
  sl_unfold_words
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    exact View.read_writes_eq_canon _ _ _ (cover_whole zero2 _ _)
  isplitl [HS0]; · iexists g0; isplitr; · ipureintro; rfl
                   iexact HS0
  isplitl [HS1]; · iexists g1; isplitr; · ipureintro; rfl
                   iexact HS1
  iexists g2; isplitr; · ipureintro; rfl
  iexact HS2

set_option maxHeartbeats 4000000 in
/-- At the first point the branch is taken: the three scratch arrays are stored whole, whatever they held, then read
    back, and the output block stored whole. -/
theorem sound_kernel1_A (c : Dev nD) (E : Set ℕ) (i : grid1.Coords) (hc : cond1 i)
    (arg1 : Memref sig .tc .vmem S4096x256 .f32) (harg1 : arg1.IsWhole) (arg2 : Memref sig .tc .vmem S256x256 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x4096 .f32) (harg5 : arg5.IsWhole) (arg6 : Memref sig .tc .vmem S256x256 .f32) (harg6 : arg6.IsWhole) (arg7 : Memref sig .tc .vmem S4096x256 .f32) (harg7 : arg7.IsWhole) (arg8 : Memref sig .tc .vmem S4096x256 .bf16) (harg8 : arg8.IsWhole) (arg9 : Memref sig .tc .vmem S8x4096 .f32) (harg9 : arg9.IsWhole)
    (x0 : Vec F S4096x256 .f32) (x1 : Vec F S256x256 .f32) (x2 x3 : Vec F S256x1 .f32) (x4 : Vec F S256x4096 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (outS1 i x2 x4 (featS1 x0 x1) (featBS1 x0 x1) (dstS1 x0 x1 x3))
            ∗ owns (c : Thread nD τ) arg7 fullShare (featS1 x0 x1) ∗ owns (c : Thread nD τ) arg8 fullShare (featBS1 x0 x1) ∗ owns (c : Thread nD τ) arg9 fullShare (dstS1 x0 x1 x3)) -∗ K ⟨⟩))
      ⊢ wp frame (wpE (defs₀ (F := F)) Variants.none c none) E (cc1__gat_layer_kernel i arg1 harg1 arg2 harg2 arg3 harg3 arg4 harg4 arg5 harg5 arg6 harg6 arg7 harg7 arg8 harg8 arg9 harg9) K := by
  simp only [cc1__gat_layer_kernel_eq_skeleton]; unfold cc1__gat_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%e0, %g0, -, HS0⟩, ⟨%e1, %g1, -, HS1⟩, ⟨%e2, %g2, -, HS2⟩, Hk⟩
  subst hf0; subst hf1; subst hf2; subst hf3; subst hf4
  sl_exec (disch := first | exact hc)
  sl_step
  sl_unfold_words
  have e7 : ∀ (f : arg7.view.ty.Contents (Elt F)) (w : rX1.shape.Idx → Elt F .f32),
      View.read (Elt F) arg7.view (arg7.view.writes (Elt F) f [⟨rX1, w⟩]) = View.canon [⟨rX1, w⟩] :=
    fun f w => View.read_writes_eq_canon _ _ _ (cover_whole zero2 _ _)
  have e8 : ∀ (w : rX1.shape.Idx → Elt F .bf16),
      arg8.view.readCov [⟨rX1, w⟩] rX1.toLoadRect = View.ld (View.canon [⟨rX1, w⟩]) rX1 :=
    fun w => View.readCov_eq_canon_ld _ _ _ (cover_whole zero2 _ _)
  have e9 : ∀ (w : rT1.shape.Idx → Elt F .f32),
      arg9.view.readCov [⟨rT1, w⟩] rR1.toLoadRect = View.ld (View.canon [⟨rT1, w⟩]) rR1 :=
    fun w => View.readCov_eq_canon_ld _ _ _ (cover_whole zero2 _ _)
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [View.read_writes_eq_canon _ _ _ (cover_whole zero2 _ _)]
    simp only [View.readAt_eq_ld, e7, e8, e9]
    rfl
  isplitl [HS0]
  · iexists _; isplitr
    swap; · iexact HS0
    ipureintro; exact View.read_writes_eq_canon _ _ _ (cover_whole zero2 _ _)
  isplitl [HS1]
  · iexists _; isplitr
    swap; · iexact HS1
    ipureintro; exact View.read_writes_eq_canon _ _ _ (cover_whole zero2 _ _)
  iexists _; isplitr
  swap; · iexact HS2
  ipureintro; exact View.read_writes_eq_canon _ _ _ (cover_whole zero2 _ _)

end Cert.Kernel.Hand

end
-- ==== Proof.K.Reg1.lean ====
/-
  The second launch's proof data: what each window's staging buffer holds after the body at each of the sixteen grid
  points, and the invariant the body keeps between points. Windows 0 to 4 (`x`, `W`, `asrc`, `adst`, the point's 256
  adjacency rows) are inputs and hold their blocks; window 5 holds the block of the result the point stored. The three
  scratch arrays are filled at the first point and only read afterwards, so between points they hold `h = x W` (f32 and
  bf16) and the source scores as computed from the blocks staged at the first point: the invariant says so after the
  first point and leaves them at any contents before it.
-/
import proofs.«179434_g75539884802175_cont_sun_m_1234_5_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch arrays' contents from the first point on. -/
def Hs1 (c : Dev nD) : Vec F S4096x256 .f32 := featS1 (iblk1 V c 0 t1_0) (iblk1 V c 1 t1_0)
def HBs1 (c : Dev nD) : Vec F S4096x256 .bf16 := featBS1 (iblk1 V c 0 t1_0) (iblk1 V c 1 t1_0)
def DTs1 (c : Dev nD) : Vec F S8x4096 .f32 := dstS1 (iblk1 V c 0 t1_0) (iblk1 V c 1 t1_0) (iblk1 V c 3 t1_0)

/-- The block of the result point `t` stores. -/
def outB1 (c : Dev nD) (t : Fin cfg1.N) : Vec F S256x256 .f32 :=
  outS1 (grid1.coords t) (iblk1 V c 2 t) (iblk1 V c 4 t) (Hs1 V c) (HBs1 V c) (DTs1 V c)

/-- The scratch operands as memrefs. -/
abbrev scM1_0 : Memref sig .tc .vmem S4096x256 .f32 := Memref.whole cc1_scratch0
abbrev scM1_1 : Memref sig .tc .vmem S4096x256 .bf16 := Memref.whole cc1_scratch1
abbrev scM1_2 : Memref sig .tc .vmem S8x4096 .f32 := Memref.whole cc1_scratch2

/-- The core's scoped buffers this launch does not touch, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Before the first point: every scratch array at some contents. -/
def PhiZ1 (c : Dev nD) : sProp 𝕄 :=
  iprop((∃ d, owns (c : Thread nD τ) scM1_0 fullShare d) ∗ (∃ d, owns (c : Thread nD τ) scM1_1 fullShare d)
    ∗ (∃ d, owns (c : Thread nD τ) scM1_2 fullShare d) ∗ rest1 (F := F) c ∗ ∃ r, prngReg c r)
/-- After it: the three scratch arrays at the first point's values. -/
def PhiN1 (c : Dev nD) : sProp 𝕄 :=
  iprop(owns (c : Thread nD τ) scM1_0 fullShare (Hs1 V c) ∗ owns (c : Thread nD τ) scM1_1 fullShare (HBs1 V c)
    ∗ owns (c : Thread nD τ) scM1_2 fullShare (DTs1 V c) ∗ rest1 (F := F) c ∗ ∃ r, prngReg c r)
/-- The invariant before position `n`. -/
def PhiS1 (c : Dev nD) : ℕ → sProp 𝕄
  | 0 => PhiZ1 c
  | _ + 1 => PhiN1 V c

/-- The proof data of the second launch on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outB1 V c t
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outB1 V c t := by dsimp only [dat1]

/-! ## The inputs' blocks -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- The body's branch is taken at the first point only — decided over the grid. -/
theorem hcond1 : ∀ t : Fin cfg1.N, cond1 (grid1.coords t) ↔ t.val = 0 :=
  (by decide +kernel : ∀ t : Fin grid1.N, cond1 (grid1.coords t) ↔ t.val = 0)

/-- No window is idle at any point. -/
theorem liveAt1 : ∀ (w : Fin cfg1.W) (t : Fin cfg1.N), cfg1.idle w (grid1.coords t) = false := by decide +kernel

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem Phi_castSucc1 (c : Dev nD) (t : Fin cfg1.N) : (dat1 V c).Φ t.castSucc = PhiS1 V c t.val := by
  dsimp only [dat1]; simp only [Fin.coe_castSucc]

set_option maxHeartbeats 4000000 in
/-- The body at any point. At the first point the branch is taken: the invariant hands over the scratch arrays at any
    contents and takes them back at the first point's values. At a later point it hands them over at those values and
    takes them back unchanged. The inputs' memrefs hold their blocks throughout; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = PhiN1 V c from rfl,
    show (dat1 V c).owesAt () t.succ = (dat1 V c).owesAt () t.castSucc from rfl,
    after1_0, after1_1, after1_2, after1_3, after1_4, after1_5, Phi_castSucc1]
  by_cases hz : t.val = 0
  · obtain rfl : t = t1_0 := Fin.ext hz
    rw [show PhiS1 V c (t1_0 : Fin cfg1.N).val = PhiZ1 c from rfl]
    unfold PhiZ1 PhiN1
    iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
    iapply (sound_kernel1_A c Set.univ (grid1.coords t1_0) ((hcond1 t1_0).mpr rfl) _ _ _ _ _ _ _ _ _ _ _ _ _ _ _ _ _ _
      (iblk1 V c 0 t1_0) (iblk1 V c 1 t1_0) (iblk1 V c 2 t1_0) (iblk1 V c 3 t1_0) (iblk1 V c 4 t1_0) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · obtain ⟨n, hn⟩ : ∃ n, t.val = n + 1 := Nat.exists_eq_succ_of_ne_zero hz
    rw [hn, show PhiS1 V c (n + 1) = PhiN1 V c from rfl]
    unfold PhiN1
    iintro ⟨⟨HS0, HS1, HS2, Hrest, Hg⟩, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => hz ((hcond1 t).mp h)) _ _ _ _ _ _ _ _ _ _ _ _ _ _ _ _ _ _
      (iblk1 V c 0 t) (iblk1 V c 1 t) (iblk1 V c 2 t) (iblk1 V c 3 t) (iblk1 V c 4 t) (Hs1 V c) (HBs1 V c) (DTs1 V c) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hrest Hg]
    · isplitl [HS0]; · iexact HS0
      isplitl [HS1]; · iexact HS1
      isplitl [HS2]; · iexact HS2
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Launch.lean ====
/-
  The two launches in sequence. @main is the first layer's launch followed by the second's: each is entered with every
  unscoped buffer at the contents the segment before it left, and leaves its own arrays at what its write-backs leave
  (the inputs as entered, the output at the fold of the sixteen blocks) and every other buffer as entered. So after the
  run every unscoped buffer holds `W2`: the launch memory with `main_call0_v0` replaced by the first launch's result and
  `main_v0` by the second's, computed from the first's. No argument array is an output of either launch, so each
  argument ends as launched.
-/
import proofs.«179434_g75539884802175_cont_sun_m_1234_5_alg».proof.Proof.K.Reg0
import proofs.«179434_g75539884802175_cont_sun_m_1234_5_alg».proof.Proof.K.Reg1
import proofs.«179434_g75539884802175_cont_sun_m_1234_5_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- The same read at the TensorCore's references: what the first launch's proof data take. -/
abbrev V0 : (c : Dev nD) → (b : Ref sig .tc) → Buf (Elt F) ((c : Thread nD τ).loc b) := fun c b => W0 m c b
/-- After the first launch: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second launch, likewise over `W1`. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched -/

theorem W2_main_arg0 (c : Dev nD) : W2 m c (Proc.devRef .tc main_arg0) = m ((c : Thread nD τ).loc main_arg0) :=
  (W2_of_ne m c main_arg0 (by decide)).trans ((W1_arr m c 0).trans (((dat0 (V0 m) c).arrAt_in 0 rfl _).trans (A_eq0 (V0 m) c 0)))
theorem W2_main_arg1 (c : Dev nD) : W2 m c (Proc.devRef .tc main_arg1) = m ((c : Thread nD τ).loc main_arg1) :=
  (W2_arr m c 4).trans (((dat1 (V1 m) c).arrAt_in 4 rfl _).trans ((A_eq1 (V1 m) c 4).trans ((W1_arr m c 4).trans (((dat0 (V0 m) c).arrAt_in 4 rfl _).trans (A_eq0 (V0 m) c 4)))))
theorem W2_main_arg2 (c : Dev nD) : W2 m c (Proc.devRef .tc main_arg2) = m ((c : Thread nD τ).loc main_arg2) :=
  (W2_of_ne m c main_arg2 (by decide)).trans ((W1_arr m c 1).trans (((dat0 (V0 m) c).arrAt_in 1 rfl _).trans (A_eq0 (V0 m) c 1)))
theorem W2_main_arg3 (c : Dev nD) : W2 m c (Proc.devRef .tc main_arg3) = m ((c : Thread nD τ).loc main_arg3) :=
  (W2_of_ne m c main_arg3 (by decide)).trans ((W1_arr m c 2).trans (((dat0 (V0 m) c).arrAt_in 2 rfl _).trans (A_eq0 (V0 m) c 2)))
theorem W2_main_arg4 (c : Dev nD) : W2 m c (Proc.devRef .tc main_arg4) = m ((c : Thread nD τ).loc main_arg4) :=
  (W2_of_ne m c main_arg4 (by decide)).trans ((W1_arr m c 3).trans (((dat0 (V0 m) c).arrAt_in 3 rfl _).trans (A_eq0 (V0 m) c 3)))
theorem W2_main_arg5 (c : Dev nD) : W2 m c (Proc.devRef .tc main_arg5) = m ((c : Thread nD τ).loc main_arg5) :=
  (W2_arr m c 1).trans (((dat1 (V1 m) c).arrAt_in 1 rfl _).trans ((A_eq1 (V1 m) c 1).trans (W1_of_ne m c main_arg5 (by decide))))
theorem W2_main_arg6 (c : Dev nD) : W2 m c (Proc.devRef .tc main_arg6) = m ((c : Thread nD τ).loc main_arg6) :=
  (W2_arr m c 2).trans (((dat1 (V1 m) c).arrAt_in 2 rfl _).trans ((A_eq1 (V1 m) c 2).trans (W1_of_ne m c main_arg6 (by decide))))
theorem W2_main_arg7 (c : Dev nD) : W2 m c (Proc.devRef .tc main_arg7) = m ((c : Thread nD τ).loc main_arg7) :=
  (W2_arr m c 3).trans (((dat1 (V1 m) c).arrAt_in 3 rfl _).trans ((A_eq1 (V1 m) c 3).trans (W1_of_ne m c main_arg7 (by decide))))

/-- The result buffer ends at the second launch's output array, computed over `V1`; -/
theorem W2_main_v0 (c : Dev nD) : W2 m c (Proc.devRef .tc main_v0) = (dat1 (V1 m) c).arrAt 5 cfg1.N := W2_arr m c 5
/-- whose first operand is the first launch's output array, computed over the launch memory. -/
theorem V1_main_call0_v0 (c : Dev nD) : V1 m c main_call0_v0 = (dat0 (V0 m) c).arrAt 5 cfg0.N := W1_arr m c 5
theorem V1_main_arg1 (c : Dev nD) : V1 m c main_arg1 = m ((c : Thread nD τ).loc main_arg1) :=
  (W1_arr m c 4).trans (((dat0 (V0 m) c).arrAt_in 4 rfl _).trans (A_eq0 (V0 m) c 4))
theorem V1_main_arg5 (c : Dev nD) : V1 m c main_arg5 = m ((c : Thread nD τ).loc main_arg5) := W1_of_ne m c main_arg5 (by decide)
theorem V1_main_arg6 (c : Dev nD) : V1 m c main_arg6 = m ((c : Thread nD τ).loc main_arg6) := W1_of_ne m c main_arg6 (by decide)
theorem V1_main_arg7 (c : Dev nD) : V1 m c main_arg7 = m ((c : Thread nD τ).loc main_arg7) := W1_of_ne m c main_arg7 (by decide)

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)

/-! ## The launches as segments -/

set_option backward.isDefEq.respectTransparency.types false in
/-- LAUNCH 0 over the thread state: entered with every unscoped buffer at the contents before it, left with its arrays at
    what the write-backs leave and every other buffer as entered. The generator register and the scoped buffers go into the
    invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have e : (Pipeline.scopedRest (Ix := Unit) (Name := ℕ) (U := UR sig nD τ) (Lvl := ℕ) (Val := Elt F) (Pipeline.pin (pcfgs (F := F)) adm (0 : Fin 2)).spec c : sProp 𝕄) = _ := scopedRest0_eq c
    rw [show (pdats m 0 c).Φ 0 = PhiZ0 c from rfl, e]; unfold PhiZ0 rest0
    simp only [scM0_0, scM0_1, scM0_2, owns_whole]
    iintro ⟨Hp, -, A0, A1, A2, Hrest⟩
    isplitl [A0]; · iexact A0
    isplitl [A1]; · iexact A1
    isplitl [A2]; · iexact A2
    isplitl [Hrest]; · iexact Hrest
    iexact Hp
  hout c := by
    have e : (Pipeline.scopedRest (Ix := Unit) (Name := ℕ) (U := UR sig nD τ) (Lvl := ℕ) (Val := Elt F) (Pipeline.pin (pcfgs (F := F)) adm (0 : Fin 2)).spec c : sProp 𝕄) = _ := scopedRest0_eq c
    rw [Pipeline.ownSems0_none, show (pdats m 0 c).Φ (Fin.last _) = PhiN0 (V0 m) c from rfl, e]; unfold PhiN0 rest0
    simp only [scM0_0, scM0_1, scM0_2, owns_whole]
    iintro ⟨A0, A1, A2, Hrest, Hp⟩
    isplitl [Hp]; · iexact Hp
    isplitr; · iempintro
    isplitl [A0]; · iexists _; iexact A0
    isplitl [A1]; · iexists _; iexact A1
    isplitl [A2]; · iexists _; iexact A2
    iexact Hrest
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 over the thread state: entered with every unscoped buffer at the contents before it, left with its arrays at
    what the write-backs leave and every other buffer as entered. The generator register and the scoped buffers go into the
    invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have e : (Pipeline.scopedRest (Ix := Unit) (Name := ℕ) (U := UR sig nD τ) (Lvl := ℕ) (Val := Elt F) (Pipeline.pin (pcfgs (F := F)) adm (1 : Fin 2)).spec c : sProp 𝕄) = _ := scopedRest1_eq c
    rw [show (pdats m 1 c).Φ 0 = PhiZ1 c from rfl, e]; unfold PhiZ1 rest1
    simp only [scM1_0, scM1_1, scM1_2, owns_whole]
    iintro ⟨Hp, -, B0, B1, B2, B3, B4, B5, B6, B7, B8, B9, B10, A0, A1, A2⟩
    isplitl [A0]; · iexact A0
    isplitl [A1]; · iexact A1
    isplitl [A2]; · iexact A2
    isplitl [B0 B1 B2 B3 B4 B5 B6 B7 B8 B9 B10]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    iexact Hp
  hout c := by
    have e : (Pipeline.scopedRest (Ix := Unit) (Name := ℕ) (U := UR sig nD τ) (Lvl := ℕ) (Val := Elt F) (Pipeline.pin (pcfgs (F := F)) adm (1 : Fin 2)).spec c : sProp 𝕄) = _ := scopedRest1_eq c
    rw [Pipeline.ownSems0_none, show (pdats m 1 c).Φ (Fin.last _) = PhiN1 (V1 m) c from rfl, e]; unfold PhiN1 rest1
    simp only [scM1_0, scM1_1, scM1_2, owns_whole]
    iintro ⟨A0, A1, A2, ⟨B0, B1, B2, B3, B4, B5, B6, B7, B8, B9, B10⟩, Hp⟩
    isplitl [Hp]; · iexact Hp
    isplitr; · iempintro
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [A0]; · iexists _; iexact A0
    isplitl [A1]; · iexists _; iexact A1
    iexists _; iexact A2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at `W2`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME and the result: every argument array ends as launched, and the result buffer at the second launch's
    output array. -/
theorem run_main (ρ : Dev nD → PrngReg) : θ_run defs (onTc (τ := τ) (main (F := F))) ⟨m, fun _ => 0, ρ⟩ (fun r => ∀ c : Dev nD,
      r.2.mem ((c.tc : Thread nD τ).loc main_v0) = (dat1 (V1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_v0 (by decide))).trans (W2_main_v0 m c),
      (h c _ (mem_uc main_arg0 (by decide))).trans (W2_main_arg0 m c),
      (h c _ (mem_uc main_arg1 (by decide))).trans (W2_main_arg1 m c),
      (h c _ (mem_uc main_arg2 (by decide))).trans (W2_main_arg2 m c),
      (h c _ (mem_uc main_arg3 (by decide))).trans (W2_main_arg3 m c),
      (h c _ (mem_uc main_arg4 (by decide))).trans (W2_main_arg4 m c),
      (h c _ (mem_uc main_arg5 (by decide))).trans (W2_main_arg5 m c),
      (h c _ (mem_uc main_arg6 (by decide))).trans (W2_main_arg6 m c),
      (h c _ (mem_uc main_arg7 (by decide))).trans (W2_main_arg7 m c)⟩) (run_all m ρ)

end Cert.Kernel.Hand

end
-- ==== Proof.Spec.lean ====
/-
  The mathematics of one dense graph-attention layer, on the extended reals, index by index.

  For node features `x` (4096 x 256), adjacency `adj` (4096 x 4096), weights `W` (256 x 256) and the two
  attention vectors `asrc`, `adst` (256 each):
    h        = x W                                      (`feat`)
    e i j    = (h asrc) i + (h adst) j                  (`srcScore`, `dstScore`)
    l        = e where 0 <= e, else c02 * e             (`leaky`)
    g i j    = l i j where 0 < adj i j, else cneg       (`masked`)
    m i      = max_j g i j                              (`rowMax`)
    p i j    = exp (g i j - m i),  z i = sum_j p i j    (`weight`, `norm`)
  and the layer's value is elu of the attention-weighted mean of `h`. Two arrangements of it are stated:
  `layerK` divides the aggregated sum by `z` once (sum_j p h / z), `layerR` normalises the weights first
  (sum_j (p / z) h) and takes the dst score with its factors in the other order; `eluK` is exp a - 1 on the
  non-positive side, `eluR` is 1 * (exp (a where not 0 < a, else 0) - 1) there. On finite inputs the row maximum is
  finite, every weight is a positive real, so `z` is a positive real and division by it distributes over the
  finite sum: the two arrangements are one function (`layerR_eq_layerK`), whose values are again finite
  (`layerK_real`), so the two-layer network agrees too (`netR_eq_netK`).
-/
import Idealize.ShloMosaic.PureOps.Ideal
import Mathlib.Data.EReal.Operations
import Mathlib.Data.EReal.Inv
import Mathlib.Algebra.BigOperators.Group.Finset.Basic

noncomputable section

namespace Cert.GatSpec

open Idealize.ShloMosaic
open scoped BigOperators

/-- An extended real that is a real number. -/
def IsReal (v : EReal) : Prop := ∃ r : ℝ, v = (r : EReal)

/-- The feature transform: row `i` of `x` against column `k` of `W`. -/
def feat (x : Fin 4096 → Fin 256 → EReal) (W : Fin 256 → Fin 256 → EReal) (i : Fin 4096) (k : Fin 256) : EReal :=
  ∑ a : Fin 256, x i a * W a k

/-- A node's score as an attention target: its features against `asrc`. -/
def srcScore (h : Fin 4096 → Fin 256 → EReal) (asrc : Fin 256 → EReal) (i : Fin 4096) : EReal :=
  ∑ k : Fin 256, h i k * asrc k

/-- A node's score as an attention source, `adst` the left factor. -/
def dstScoreK (h : Fin 4096 → Fin 256 → EReal) (adst : Fin 256 → EReal) (j : Fin 4096) : EReal :=
  ∑ k : Fin 256, adst k * h j k

/-- The same with `adst` the right factor. -/
def dstScoreR (h : Fin 4096 → Fin 256 → EReal) (adst : Fin 256 → EReal) (j : Fin 4096) : EReal :=
  ∑ k : Fin 256, h j k * adst k

/-- Leaky rectification with slope `c02` on the negative side. -/
def leaky (c02 e : EReal) : EReal := if 0 ≤ e then e else c02 * e

/-- The logit kept on an edge (`0 < a`), the constant `cneg` off it. -/
def masked (cneg a l : EReal) : EReal := if 0 < a then l else cneg

/-- Row `i` of masked logits from the two scores. -/
def logits (c02 cneg : EReal) (adj : Fin 4096 → Fin 4096 → EReal) (s d : Fin 4096 → EReal) (i j : Fin 4096) : EReal :=
  masked cneg (adj i j) (leaky c02 (s i + d j))

/-- The maximum of a row (the fold of `max` from the bottom element). -/
def rowMax (g : Fin 4096 → EReal) : EReal := (Finset.univ : Finset (Fin 4096)).fold max ⊥ g

/-- An unnormalised attention weight. -/
def weight (g : Fin 4096 → EReal) (j : Fin 4096) : EReal := Ideal.exp (g j - rowMax g)

/-- The normaliser of a row. -/
def norm (g : Fin 4096 → EReal) : EReal := ∑ j : Fin 4096, weight g j

/-- Aggregate, then divide once. -/
def aggK (g : Fin 4096 → EReal) (h : Fin 4096 → Fin 256 → EReal) (k : Fin 256) : EReal :=
  Ideal.div (∑ j : Fin 4096, weight g j * h j k) (norm g)

/-- Normalise the weights, then aggregate. -/
def aggR (g : Fin 4096 → EReal) (h : Fin 4096 → Fin 256 → EReal) (k : Fin 256) : EReal :=
  ∑ j : Fin 4096, Ideal.div (weight g j) (norm g) * h j k

/-- Exponential linear unit, `exp a - 1` on the non-positive side. -/
def eluK (a : EReal) : EReal := if 0 < a then a else Ideal.exp a - 1

/-- The same through a guarded argument and a unit factor. -/
def eluR (a : EReal) : EReal := if 0 < a then a else 1 * (Ideal.exp (if 0 < a then 0 else a) - 1)

/-- One layer, aggregate-then-divide. -/
def layerK (c02 cneg : EReal) (x : Fin 4096 → Fin 256 → EReal) (adj : Fin 4096 → Fin 4096 → EReal)
    (W : Fin 256 → Fin 256 → EReal) (asrc adst : Fin 256 → EReal) (i : Fin 4096) (k : Fin 256) : EReal :=
  eluK (aggK (logits c02 cneg adj (srcScore (feat x W) asrc) (dstScoreK (feat x W) adst) i) (feat x W) k)

/-- One layer, normalise-then-aggregate. -/
def layerR (c02 cneg : EReal) (x : Fin 4096 → Fin 256 → EReal) (adj : Fin 4096 → Fin 4096 → EReal)
    (W : Fin 256 → Fin 256 → EReal) (asrc adst : Fin 256 → EReal) (i : Fin 4096) (k : Fin 256) : EReal :=
  eluR (aggR (logits c02 cneg adj (srcScore (feat x W) asrc) (dstScoreR (feat x W) adst) i) (feat x W) k)

/-- Two stacked layers over one adjacency. -/
def netK (c02 cneg : EReal) (x : Fin 4096 → Fin 256 → EReal) (adj : Fin 4096 → Fin 4096 → EReal)
    (W1 : Fin 256 → Fin 256 → EReal) (s1 d1 : Fin 256 → EReal) (W2 : Fin 256 → Fin 256 → EReal) (s2 d2 : Fin 256 → EReal) :
    Fin 4096 → Fin 256 → EReal :=
  layerK c02 cneg (layerK c02 cneg x adj W1 s1 d1) adj W2 s2 d2

def netR (c02 cneg : EReal) (x : Fin 4096 → Fin 256 → EReal) (adj : Fin 4096 → Fin 4096 → EReal)
    (W1 : Fin 256 → Fin 256 → EReal) (s1 d1 : Fin 256 → EReal) (W2 : Fin 256 → Fin 256 → EReal) (s2 d2 : Fin 256 → EReal) :
    Fin 4096 → Fin 256 → EReal :=
  layerR c02 cneg (layerR c02 cneg x adj W1 s1 d1) adj W2 s2 d2

/-! ### Real values are closed under the layer's arithmetic -/

theorem IsReal.coe (r : ℝ) : IsReal (r : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- An extended real that is a positive real number. -/
def IsPos (v : EReal) : Prop := ∃ r : ℝ, 0 < r ∧ v = (r : EReal)

theorem IsPos.add {a b : EReal} (ha : IsPos a) (hb : IsPos b) : IsPos (a + b) := by
  obtain ⟨r, hr, rfl⟩ := ha
  obtain ⟨s, hs, rfl⟩ := hb
  exact ⟨r + s, add_pos hr hs, (EReal.coe_add r s).symm⟩

/-- A finite sum of positive reals over a nonempty index set is a positive real. -/
theorem IsPos.sum {ι : Type} (s : Finset ι) (hs : s.Nonempty) (f : ι → EReal) (h : ∀ i ∈ s, IsPos (f i)) :
    IsPos (∑ i ∈ s, f i) := by
  classical
  induction hs using Finset.Nonempty.cons_induction with
  | singleton a => simpa using h a (Finset.mem_singleton_self a)
  | cons a s ha hs ih =>
    rw [Finset.sum_cons]
    exact (h a (Finset.mem_cons_self a s)).add (ih fun i hi => h i (Finset.mem_cons_of_mem hi))

/-! ### The scores and logits of real inputs are real -/

theorem feat_real {x : Fin 4096 → Fin 256 → EReal} {W : Fin 256 → Fin 256 → EReal}
    (hx : ∀ i a, IsReal (x i a)) (hW : ∀ a k, IsReal (W a k)) (i : Fin 4096) (k : Fin 256) :
    IsReal (feat x W i k) :=
  IsReal.sum _ _ fun a _ => (hx i a).mul (hW a k)

theorem srcScore_real {h : Fin 4096 → Fin 256 → EReal} {asrc : Fin 256 → EReal}
    (hh : ∀ i k, IsReal (h i k)) (hs : ∀ k, IsReal (asrc k)) (i : Fin 4096) : IsReal (srcScore h asrc i) :=
  IsReal.sum _ _ fun k _ => (hh i k).mul (hs k)

theorem dstScoreK_real {h : Fin 4096 → Fin 256 → EReal} {adst : Fin 256 → EReal}
    (hh : ∀ i k, IsReal (h i k)) (hd : ∀ k, IsReal (adst k)) (j : Fin 4096) : IsReal (dstScoreK h adst j) :=
  IsReal.sum _ _ fun k _ => (hd k).mul (hh j k)

/-- The two orders of the factors give one dst score (multiplication of extended reals commutes). -/
theorem dstScoreR_eq_dstScoreK (h : Fin 4096 → Fin 256 → EReal) (adst : Fin 256 → EReal) :
    dstScoreR h adst = dstScoreK h adst := by
  funext j
  unfold dstScoreR dstScoreK
  exact Finset.sum_congr rfl fun k _ => mul_comm _ _

theorem leaky_real {c02 e : EReal} (hc : IsReal c02) (he : IsReal e) : IsReal (leaky c02 e) := by
  unfold leaky
  split
  · exact he
  · exact hc.mul he

theorem masked_real {cneg l : EReal} (a : EReal) (hn : IsReal cneg) (hl : IsReal l) : IsReal (masked cneg a l) := by
  unfold masked
  split
  · exact hl
  · exact hn

theorem logits_real {c02 cneg : EReal} (hc : IsReal c02) (hn : IsReal cneg) (adj : Fin 4096 → Fin 4096 → EReal)
    {s d : Fin 4096 → EReal} (hs : ∀ i, IsReal (s i)) (hd : ∀ j, IsReal (d j)) (i j : Fin 4096) :
    IsReal (logits c02 cneg adj s d i j) :=
  masked_real _ hn (leaky_real hc ((hs i).add (hd j)))

/-! ### The row maximum, the weights and the normaliser of a real row -/

/-- The fold of `max` from the bottom element over a nonempty finite set is one of the entries. -/
theorem fold_max_mem {ι : Type} (g : ι → EReal) (s : Finset ι) (hs : s.Nonempty) :
    ∃ j ∈ s, s.fold max ⊥ g = g j := by
  classical
  induction hs using Finset.Nonempty.cons_induction with
  | singleton a => exact ⟨a, Finset.mem_singleton_self a, by simp⟩
  | cons a s ha hs ih =>
    obtain ⟨j, hj, e⟩ := ih
    rw [Finset.fold_cons, e]
    rcases max_choice (g a) (g j) with h | h
    · exact ⟨a, Finset.mem_cons_self a s, h⟩
    · exact ⟨j, Finset.mem_cons_of_mem hj, h⟩

theorem rowMax_real {g : Fin 4096 → EReal} (hg : ∀ j, IsReal (g j)) : IsReal (rowMax g) := by
  obtain ⟨j, _, e⟩ := fold_max_mem g Finset.univ ⟨0, Finset.mem_univ _⟩
  unfold rowMax
  rw [e]
  exact hg j

theorem weight_pos {g : Fin 4096 → EReal} (hg : ∀ j, IsReal (g j)) (j : Fin 4096) : IsPos (weight g j) := by
  obtain ⟨r, hr⟩ := (hg j).sub (rowMax_real hg)
  unfold weight
  rw [hr, Ideal.exp_coe]
  exact ⟨Real.exp r, Real.exp_pos r, rfl⟩

theorem IsPos.isReal {v : EReal} (h : IsPos v) : IsReal v := by
  obtain ⟨r, _, e⟩ := h
  exact ⟨r, e⟩

theorem norm_pos {g : Fin 4096 → EReal} (hg : ∀ j, IsReal (g j)) : IsPos (norm g) :=
  IsPos.sum _ ⟨0, Finset.mem_univ _⟩ _ fun j _ => weight_pos hg j

/-! ### Dividing by a positive real normaliser distributes over the sum -/

/-- Multiplication by a non-negative real distributes over a finite sum of arbitrary extended reals. -/
theorem sum_mul_coe {ι : Type} (s : Finset ι) (f : ι → EReal) {t : ℝ} (ht : 0 ≤ t) :
    (∑ i ∈ s, f i) * (t : EReal) = ∑ i ∈ s, f i * (t : EReal) := by
  classical
  induction s using Finset.induction_on with
  | empty => simp
  | insert a s ha ih =>
    rw [Finset.sum_insert ha, Finset.sum_insert ha, ← ih]
    exact EReal.right_distrib_of_nonneg_of_ne_top (EReal.coe_nonneg.mpr ht) (EReal.coe_ne_top t) _ _

theorem aggR_eq_aggK {g : Fin 4096 → EReal} (hg : ∀ j, IsReal (g j)) (h : Fin 4096 → Fin 256 → EReal) (k : Fin 256) :
    aggR g h k = aggK g h k := by
  obtain ⟨r, hr, e⟩ := norm_pos hg
  unfold aggR aggK
  rw [e, Ideal.div_coe hr.ne', sum_mul_coe _ _ (one_div_pos.mpr hr).le]
  refine Finset.sum_congr rfl fun j _ => ?_
  rw [Ideal.div_coe hr.ne', mul_right_comm]

theorem aggK_real {g : Fin 4096 → EReal} (hg : ∀ j, IsReal (g j)) {h : Fin 4096 → Fin 256 → EReal}
    (hh : ∀ j k, IsReal (h j k)) (k : Fin 256) : IsReal (aggK g h k) := by
  obtain ⟨r, hr, e⟩ := norm_pos hg
  unfold aggK
  rw [e, Ideal.div_coe hr.ne']
  exact (IsReal.sum _ _ fun j _ => (weight_pos hg j).isReal.mul (hh j k)).mul (IsReal.coe _)

/-! ### The two forms of the exponential linear unit -/

theorem eluR_eq_eluK (a : EReal) : eluR a = eluK a := by
  unfold eluR eluK
  by_cases h : 0 < a
  · rw [if_pos h, if_pos h]
  · rw [if_neg h, if_neg h, if_neg h, one_mul]

theorem eluK_real {a : EReal} (ha : IsReal a) : IsReal (eluK a) := by
  unfold eluK
  split
  · exact ha
  · obtain ⟨r, rfl⟩ := ha
    rw [Ideal.exp_coe]
    exact (IsReal.coe _).sub ⟨1, EReal.coe_one.symm⟩

/-- The masked logits of a layer on real inputs are real. -/
theorem layer_logits_real {c02 cneg : EReal} (hc : IsReal c02) (hn : IsReal cneg)
    {x : Fin 4096 → Fin 256 → EReal} (adj : Fin 4096 → Fin 4096 → EReal) {W : Fin 256 → Fin 256 → EReal}
    {asrc adst : Fin 256 → EReal}
    (hx : ∀ i a, IsReal (x i a)) (hW : ∀ a k, IsReal (W a k)) (hs : ∀ k, IsReal (asrc k)) (hd : ∀ k, IsReal (adst k))
    (i j : Fin 4096) :
    IsReal (logits c02 cneg adj (srcScore (feat x W) asrc) (dstScoreK (feat x W) adst) i j) :=
  logits_real hc hn adj (srcScore_real (feat_real hx hW) hs) (dstScoreK_real (feat_real hx hW) hd) i j

/-- On finite inputs the layer's values are finite. -/
theorem layerK_real (c02 cneg : EReal) (hc : IsReal c02) (hn : IsReal cneg)
    (x : Fin 4096 → Fin 256 → EReal) (adj : Fin 4096 → Fin 4096 → EReal) (W : Fin 256 → Fin 256 → EReal) (asrc adst : Fin 256 → EReal)
    (hx : ∀ i a, IsReal (x i a)) (hW : ∀ a k, IsReal (W a k)) (hs : ∀ k, IsReal (asrc k)) (hd : ∀ k, IsReal (adst k))
    (i : Fin 4096) (k : Fin 256) : IsReal (layerK c02 cneg x adj W asrc adst i k) :=
  eluK_real (aggK_real (layer_logits_real hc hn adj hx hW hs hd i) (feat_real hx hW) k)

/-- On finite inputs the two arrangements of a layer are one function. -/
theorem layerR_eq_layerK (c02 cneg : EReal) (hc : IsReal c02) (hn : IsReal cneg)
    (x : Fin 4096 → Fin 256 → EReal) (adj : Fin 4096 → Fin 4096 → EReal) (W : Fin 256 → Fin 256 → EReal) (asrc adst : Fin 256 → EReal)
    (hx : ∀ i a, IsReal (x i a)) (hW : ∀ a k, IsReal (W a k)) (hs : ∀ k, IsReal (asrc k)) (hd : ∀ k, IsReal (adst k)) :
    layerR c02 cneg x adj W asrc adst = layerK c02 cneg x adj W asrc adst := by
  funext i k
  unfold layerR layerK
  rw [dstScoreR_eq_dstScoreK, eluR_eq_eluK, aggR_eq_aggK (layer_logits_real hc hn adj hx hW hs hd i)]

/-- So are the two arrangements of the two-layer network. -/
theorem netR_eq_netK (c02 cneg : EReal) (hc : IsReal c02) (hn : IsReal cneg)
    (x : Fin 4096 → Fin 256 → EReal) (adj : Fin 4096 → Fin 4096 → EReal)
    (W1 : Fin 256 → Fin 256 → EReal) (s1 d1 : Fin 256 → EReal) (W2 : Fin 256 → Fin 256 → EReal) (s2 d2 : Fin 256 → EReal)
    (hx : ∀ i a, IsReal (x i a)) (hW1 : ∀ a k, IsReal (W1 a k)) (hs1 : ∀ k, IsReal (s1 k)) (hd1 : ∀ k, IsReal (d1 k))
    (hW2 : ∀ a k, IsReal (W2 a k)) (hs2 : ∀ k, IsReal (s2 k)) (hd2 : ∀ k, IsReal (d2 k)) :
    netR c02 cneg x adj W1 s1 d1 W2 s2 d2 = netK c02 cneg x adj W1 s1 d1 W2 s2 d2 := by
  unfold netR netK
  rw [layerR_eq_layerK c02 cneg hc hn x adj W1 s1 d1 hx hW1 hs1 hd1]
  exact layerR_eq_layerK c02 cneg hc hn _ adj W2 s2 d2 (layerK_real c02 cneg hc hn x adj W1 s1 d1 hx hW1 hs1 hd1) hW2 hs2 hd2

/-- A 32-bit pattern whose exponent field is not all ones denotes a real number (a subnormal or a normal). -/
theorem ofBits_f32_real (b : BitVec 32) (h : (b.extractLsb' 23 8).toNat ≠ 2 ^ 8 - 1) :
    IsReal (Ideal.ofBits .f32 b) := by
  unfold Ideal.ofBits Ideal.ieee
  simp only []
  rw [if_neg h]
  split
  · exact ⟨_, rfl⟩
  · exact ⟨_, rfl⟩

/-- The two float literals of the layer denote real numbers. -/
theorem c02_real : IsReal (Ideal.ofBits .f32 0x3E4CCCCD#32) :=
  ofBits_f32_real _ (by decide)
theorem cneg_real : IsReal (Ideal.ofBits .f32 0xCE6E6B28#32) :=
  ofBits_f32_real _ (by decide)

end Cert.GatSpec

end
-- ==== Proof.Arr.lean ====
/-
  Arrays read as functions of their coordinates: a rank-2 array as a function of a row and a column, a one-column
  array as a function of its row; and the layer's two float literals as the extended reals they denote.
-/
import Idealize.ShloMosaic.PureOps.Ideal
import Idealize.ShloMosaic.Lib.ValueIdx

noncomputable section

namespace Cert.GatArr

open Idealize.ShloMosaic Idealize.ShloMosaic.ValueIdx

/-- A rank-2 array of extended reals as a function of row and column. -/
abbrev m2 {n0 n1 : Nat} (v : (⟨2, ![n0, n1]⟩ : Shape).Idx → EReal) : Fin n0 → Fin n1 → EReal := fun a b => v (ix2 a b)

/-- A one-column array as a function of its row. -/
abbrev col {n : Nat} (v : (⟨2, ![n, 1]⟩ : Shape).Idx → EReal) : Fin n → EReal := fun a => v (ix2 a 0)

/-- The slope literal (the f32 nearest 0.2) and the mask literal (-1e9), as extended reals. -/
abbrev c02 : EReal := Ideal.ofBits .f32 0x3E4CCCCD#32
abbrev cneg : EReal := Ideal.ofBits .f32 0xCE6E6B28#32

/-- Row `p` of the `t`-th block of 256 rows, as a row of the whole 4096-row array. -/
def rowOf (t : Fin 16) (p : Fin 256) : Fin 4096 := ⟨256 * t.val + p.val, by omega⟩

theorem rowOf_val (t : Fin 16) (p : Fin 256) : (rowOf t p).val = 256 * t.val + p.val := rfl

end Cert.GatArr

end
-- ==== Proof.KerValue.lean ====
/-
  The kernel's stored values read at an index, at the ideal values (a float an extended real, every operation exact,
  a change of format the identity).

  Each launch of the layer kernel computes, on its first grid step, the feature product `h = x W` (stored twice, once
  through a narrowing that is the identity here) and the row of target scores `adstᵀ h` (stored in eight equal rows);
  and on every grid step `t`, for the block of rows `256 t … 256 t + 255`: the source scores `s = h_blk asrc`, the scores
  `e = s + d`, their leaky rectification, the mask by adjacency, the row maxima `m`, the weights `p = exp (g - m)`,
  their row sums `z`, the quotient `(p h) / z` and its exponential linear unit.

  Read at one index these are the specification's functions: `feat`, `dstScoreK`, and
  `eluK (aggK (logits …) h k)`. The non-pointwise steps are read by one lemma each: a matrix product as the sum over
  its one contracted coordinate, a lane sum as the sum of the row, a lane maximum as the fold of `max` from the bottom
  element (the specification's `rowMax`), the keepdims casts and broadcasts as the coordinate they keep. The block's
  arithmetic is named as three vector terms (`logitBlk`, `aggBlk`, `eluBlk`), which the two launches share.
-/
import proofs.«179434_g75539884802175_cont_sun_m_1234_5_alg».proof.Proof.Gen.KernelIdeal.Skeleton
import proofs.«179434_g75539884802175_cont_sun_m_1234_5_alg».proof.Proof.Spec
import proofs.«179434_g75539884802175_cont_sun_m_1234_5_alg».proof.Proof.Arr
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen Cert.GatArr Cert.GatSpec
open scoped BigOperators

/-! ## The feature product

The product `x W` read at `(i, k)` is the sum over the contracted axis of `x i a * W a k`: the four coordinate facts of
the operand indices, then the sum re-indexed by the one contracted coordinate. -/
theorem lhs_feat_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem lhs_feat_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_feat_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_feat_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

theorem matmul_feat_apply {φ₁ φ₂ : FTy} (l : FVec Ideal S4096x256 φ₁) (r : FVec Ideal S256x256 φ₂) (i : Fin 4096) (k : Fin 256) :
    matmul dot_S4096x256_S256x256_S4096x256_1_0_0_1_n_n none l r (constant (F := Ideal) S4096x256 .f32 0x00000000#32) (ix2 i k)
      = ∑ a : Fin 256, l (ix2 i a) * r (ix2 a k) := by
  show FloatOps.matmul dot_S4096x256_S256x256_S4096x256_1_0_0_1_n_n none l r (constant (F := Ideal) S4096x256 .f32 0x00000000#32) (ix2 i k) = _
  rw [Ideal.matmul_constant_zero_apply, ← Equiv.sum_comp (contrEquiv1 dot_S4096x256_S256x256_S4096x256_1_0_0_1_n_n 256 rfl rfl).symm]
  refine Finset.sum_congr rfl fun a _ => ?_
  have hk := contrEquiv1_symm_val dot_S4096x256_S256x256_S4096x256_1_0_0_1_n_n 256 rfl rfl a
  have el : dot_S4096x256_S256x256_S4096x256_1_0_0_1_n_n.lhsIdx (ix2 i k) ((contrEquiv1 dot_S4096x256_S256x256_S4096x256_1_0_0_1_n_n 256 rfl rfl).symm a) = ix2 i a :=
    funext fun x => Fin.ext (by
      match x with
      | ⟨0, _⟩ => exact lhs_feat_0 _ _
      | ⟨1, _⟩ => exact (lhs_feat_1 _ _).trans hk)
  have er : dot_S4096x256_S256x256_S4096x256_1_0_0_1_n_n.rhsIdx (ix2 i k) ((contrEquiv1 dot_S4096x256_S256x256_S4096x256_1_0_0_1_n_n 256 rfl rfl).symm a) = ix2 a k :=
    funext fun x => Fin.ext (by
      match x with
      | ⟨0, _⟩ => exact (rhs_feat_0 _ _).trans hk
      | ⟨1, _⟩ => exact rhs_feat_1 _ _)
  rw [el, er]

/-! ## The target scores as one row

The row `adstᵀ h` contracts axis 0 of the column `adst` with axis 1 of `h`: at `(0, j)` it is the sum of
`adst a * h j a`, the column's entry the left factor. -/
theorem lhs_dst_0 (i : S1x4096.Idx) (q : dot_S256x1_S4096x256_S1x4096_0_1_1_0_n_n.contr.Idx) :
    (dot_S256x1_S4096x256_S1x4096_0_1_1_0_n_n.lhsIdx i q 0).val = (q ⟨0, by decide⟩).val :=
  dot_S256x1_S4096x256_S1x4096_0_1_1_0_n_n.lhsIdx_val_of_single rfl i q
theorem lhs_dst_1 (i : S1x4096.Idx) (q : dot_S256x1_S4096x256_S1x4096_0_1_1_0_n_n.contr.Idx) :
    (dot_S256x1_S4096x256_S1x4096_0_1_1_0_n_n.lhsIdx i q 1).val = (i 0).val := by
  unfold DotDims.lhsIdx
  rw [dif_neg (show ¬(1 : Fin S256x1.rank) ∈ dot_S256x1_S4096x256_S1x4096_0_1_1_0_n_n.lhsBatch by decide),
    dif_pos (show (1 : Fin S256x1.rank) ∈ dot_S256x1_S4096x256_S1x4096_0_1_1_0_n_n.lhsNonContracting by decide)]
  rfl
theorem rhs_dst_0 (i : S1x4096.Idx) (q : dot_S256x1_S4096x256_S1x4096_0_1_1_0_n_n.contr.Idx) :
    (dot_S256x1_S4096x256_S1x4096_0_1_1_0_n_n.rhsIdx i q 0).val = (i 1).val := by
  unfold DotDims.rhsIdx
  rw [dif_neg (show ¬(0 : Fin S4096x256.rank) ∈ dot_S256x1_S4096x256_S1x4096_0_1_1_0_n_n.rhsBatch by decide),
    dif_pos (show (0 : Fin S4096x256.rank) ∈ dot_S256x1_S4096x256_S1x4096_0_1_1_0_n_n.rhsNonContracting by decide)]
  rfl
theorem rhs_dst_1 (i : S1x4096.Idx) (q : dot_S256x1_S4096x256_S1x4096_0_1_1_0_n_n.contr.Idx) :
    (dot_S256x1_S4096x256_S1x4096_0_1_1_0_n_n.rhsIdx i q 1).val = (q ⟨0, by decide⟩).val :=
  dot_S256x1_S4096x256_S1x4096_0_1_1_0_n_n.rhsIdx_val_of_single rfl i q

theorem matmul_dst_apply {φ₁ φ₂ : FTy} (l : FVec Ideal S256x1 φ₁) (r : FVec Ideal S4096x256 φ₂) (j : Fin 4096) :
    matmul dot_S256x1_S4096x256_S1x4096_0_1_1_0_n_n none l r (constant (F := Ideal) S1x4096 .f32 0x00000000#32) (ix2 (0 : Fin 1) j)
      = ∑ a : Fin 256, l (ix2 a (0 : Fin 1)) * r (ix2 j a) := by
  show FloatOps.matmul dot_S256x1_S4096x256_S1x4096_0_1_1_0_n_n none l r (constant (F := Ideal) S1x4096 .f32 0x00000000#32) (ix2 (0 : Fin 1) j) = _
  rw [Ideal.matmul_constant_zero_apply, ← Equiv.sum_comp (contrEquiv1 dot_S256x1_S4096x256_S1x4096_0_1_1_0_n_n 256 rfl rfl).symm]
  refine Finset.sum_congr rfl fun a _ => ?_
  have hk := contrEquiv1_symm_val dot_S256x1_S4096x256_S1x4096_0_1_1_0_n_n 256 rfl rfl a
  have el : dot_S256x1_S4096x256_S1x4096_0_1_1_0_n_n.lhsIdx (ix2 (0 : Fin 1) j) ((contrEquiv1 dot_S256x1_S4096x256_S1x4096_0_1_1_0_n_n 256 rfl rfl).symm a) = ix2 a (0 : Fin 1) :=
    funext fun x => Fin.ext (by
      match x with
      | ⟨0, _⟩ => exact (lhs_dst_0 _ _).trans hk
      | ⟨1, _⟩ => exact lhs_dst_1 _ _)
  have er : dot_S256x1_S4096x256_S1x4096_0_1_1_0_n_n.rhsIdx (ix2 (0 : Fin 1) j) ((contrEquiv1 dot_S256x1_S4096x256_S1x4096_0_1_1_0_n_n 256 rfl rfl).symm a) = ix2 j a :=
    funext fun x => Fin.ext (by
      match x with
      | ⟨0, _⟩ => exact rhs_dst_0 _ _
      | ⟨1, _⟩ => exact (rhs_dst_1 _ _).trans hk)
  rw [el, er]

/-! ## Two keepdims layout forms, and the lane reductions of a block -/

/-- A column `[a, 1]` spread along the lanes to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a lane reduction of a `[256, 4096]` block reads at row `p` and lane `j`. -/
theorem lift_row (p : Fin 256) (j : Fin 4096) : reduces_S256x4096_S256.lift (ix1 p) j = ix2 p j :=
  funext fun a => match a with | ⟨0, _⟩ => rfl | ⟨1, _⟩ => rfl

/-- The sum along the lanes of a block, at row `p`: the sum of the row. -/
theorem laneSum_apply (src : FVec Ideal S256x4096 .f32) (hφ : FKind.Formats .f32)
    (hacc : (0x00000000#32 : BitVec 32) = FKind.add.neutral .f32 hφ) (p : Fin 256) :
    multiReduction (F := Ideal) .add [1] S256 src 0x00000000#32 reduces_S256x4096_S256 hφ hacc (ix1 p)
      = ∑ j : Fin 4096, src (ix2 p j) := by
  refine (Ideal.multiReduction_add_single src _ reduces_S256x4096_S256 hφ hacc (ix1 p)).trans ?_
  show ∑ j : Fin 4096, src (reduces_S256x4096_S256.lift (ix1 p) j) = _
  exact Finset.sum_congr rfl fun j _ => congrArg src (lift_row p j)

/-- The f32 word of minus infinity is the bottom extended real. -/
theorem ofBits_neg_inf_f32 : Ideal.ofBits .f32 0xFF800000#32 = ⊥ := by simp [Ideal.ofBits, Ideal.ieee]

/-- The maximum along the lanes of a block, at row `p`: the row's maximum, folded from the bottom element. -/
theorem laneMax_apply (src : FVec Ideal S256x4096 .f32) (hφ : FKind.Formats .f32)
    (hacc : (0xFF800000#32 : BitVec 32) = FKind.maximumf.neutral .f32 hφ) (p : Fin 256) :
    multiReduction (F := Ideal) .maximumf [1] S256 src 0xFF800000#32 reduces_S256x4096_S256 hφ hacc (ix1 p)
      = rowMax (fun j => src (ix2 p j)) := by
  refine (Ideal.multiReduction_maximumf_single src _ reduces_S256x4096_S256 hφ hacc (ix1 p)).trans ?_
  have hf : (src ∘ reduces_S256x4096_S256.lift (ix1 p)) = fun j : Fin 4096 => src (ix2 p j) :=
    funext fun j => congrArg src (lift_row p j)
  rw [hf]
  show (Finset.univ : Finset (Fin 4096)).fold max (Ideal.ofBits .f32 0xFF800000#32) (fun j => src (ix2 p j)) = _
  rw [ofBits_neg_inf_f32]
  rfl

/-! ## Comparisons against zero, and the unit literal -/

/-- A select on `0 ≤ e` (the ordered `oge` against the zero word) is the `if` on the order. -/
theorem select_oge_zero (e a b : EReal) :
    Scalar.select (FloatOps.cmpf (F := Ideal) (φ := .f32) .oge e (Scalar.ofBits .f32 0x00000000#32)) a b
      = if 0 ≤ e then a else b := by
  rw [Ideal.cmpf_def]
  show Scalar.select (Ideal.cmp .oge e (Ideal.ofBits .f32 0x00000000#32)) a b = _
  rw [Ideal.ofBits_zero_f32]
  by_cases h : (0 : EReal) ≤ e <;> simp [Scalar.select, Ideal.cmp, h]

/-- A select on `0 < e` (the ordered `ogt` against the zero word) is the `if` on the order. -/
theorem select_ogt_zero (e a b : EReal) :
    Scalar.select (FloatOps.cmpf (F := Ideal) (φ := .f32) .ogt e (Scalar.ofBits .f32 0x00000000#32)) a b
      = if 0 < e then a else b := by
  rw [Ideal.cmpf_def]
  show Scalar.select (Ideal.cmp .ogt e (Ideal.ofBits .f32 0x00000000#32)) a b = _
  rw [Ideal.ofBits_zero_f32]
  by_cases h : (0 : EReal) < e <;> simp [Scalar.select, Ideal.cmp, h]

/-- The f32 word `0x3F800000` is the extended real one. -/
theorem ofBits_one_f32' : Ideal.ofBits .f32 0x3F800000#32 = 1 := by
  rw [show (1 : EReal) = ((1 : ℝ) : EReal) by norm_cast]
  simp [Ideal.ofBits, Ideal.ieee, -EReal.coe_mul]; norm_num

/-! ## The block's source scores and the aggregation product -/
theorem lhs_src_0 (i : S256x1.Idx) (q : dot_S256x256_S256x1_S256x1_1_0_0_1_n_n.contr.Idx) :
    (dot_S256x256_S256x1_S256x1_1_0_0_1_n_n.lhsIdx i q 0).val = (i 0).val := by
  unfold DotDims.lhsIdx
  rw [dif_neg (show ¬(0 : Fin S256x256.rank) ∈ dot_S256x256_S256x1_S256x1_1_0_0_1_n_n.lhsBatch by decide),
    dif_pos (show (0 : Fin S256x256.rank) ∈ dot_S256x256_S256x1_S256x1_1_0_0_1_n_n.lhsNonContracting by decide)]
  rfl
theorem lhs_src_1 (i : S256x1.Idx) (q : dot_S256x256_S256x1_S256x1_1_0_0_1_n_n.contr.Idx) :
    (dot_S256x256_S256x1_S256x1_1_0_0_1_n_n.lhsIdx i q 1).val = (q ⟨0, by decide⟩).val :=
  dot_S256x256_S256x1_S256x1_1_0_0_1_n_n.lhsIdx_val_of_single rfl i q
theorem rhs_src_0 (i : S256x1.Idx) (q : dot_S256x256_S256x1_S256x1_1_0_0_1_n_n.contr.Idx) :
    (dot_S256x256_S256x1_S256x1_1_0_0_1_n_n.rhsIdx i q 0).val = (q ⟨0, by decide⟩).val :=
  dot_S256x256_S256x1_S256x1_1_0_0_1_n_n.rhsIdx_val_of_single rfl i q
theorem rhs_src_1 (i : S256x1.Idx) (q : dot_S256x256_S256x1_S256x1_1_0_0_1_n_n.contr.Idx) :
    (dot_S256x256_S256x1_S256x1_1_0_0_1_n_n.rhsIdx i q 1).val = (i 1).val := by
  unfold DotDims.rhsIdx
  rw [dif_neg (show ¬(1 : Fin S256x1.rank) ∈ dot_S256x256_S256x1_S256x1_1_0_0_1_n_n.rhsBatch by decide),
    dif_pos (show (1 : Fin S256x1.rank) ∈ dot_S256x256_S256x1_S256x1_1_0_0_1_n_n.rhsNonContracting by decide)]
  rfl

theorem matmul_src_apply {φ₁ φ₂ : FTy} (l : FVec Ideal S256x256 φ₁) (r : FVec Ideal S256x1 φ₂) (p : Fin 256) :
    matmul dot_S256x256_S256x1_S256x1_1_0_0_1_n_n none l r (constant (F := Ideal) S256x1 .f32 0x00000000#32) (ix2 p (0 : Fin 1))
      = ∑ a : Fin 256, l (ix2 p a) * r (ix2 a (0 : Fin 1)) := by
  show FloatOps.matmul dot_S256x256_S256x1_S256x1_1_0_0_1_n_n none l r (constant (F := Ideal) S256x1 .f32 0x00000000#32) (ix2 p (0 : Fin 1)) = _
  rw [Ideal.matmul_constant_zero_apply, ← Equiv.sum_comp (contrEquiv1 dot_S256x256_S256x1_S256x1_1_0_0_1_n_n 256 rfl rfl).symm]
  refine Finset.sum_congr rfl fun a _ => ?_
  have hk := contrEquiv1_symm_val dot_S256x256_S256x1_S256x1_1_0_0_1_n_n 256 rfl rfl a
  have el : dot_S256x256_S256x1_S256x1_1_0_0_1_n_n.lhsIdx (ix2 p (0 : Fin 1)) ((contrEquiv1 dot_S256x256_S256x1_S256x1_1_0_0_1_n_n 256 rfl rfl).symm a) = ix2 p a :=
    funext fun x => Fin.ext (by
      match x with
      | ⟨0, _⟩ => exact lhs_src_0 _ _
      | ⟨1, _⟩ => exact (lhs_src_1 _ _).trans hk)
  have er : dot_S256x256_S256x1_S256x1_1_0_0_1_n_n.rhsIdx (ix2 p (0 : Fin 1)) ((contrEquiv1 dot_S256x256_S256x1_S256x1_1_0_0_1_n_n 256 rfl rfl).symm a) = ix2 a (0 : Fin 1) :=
    funext fun x => Fin.ext (by
      match x with
      | ⟨0, _⟩ => exact (rhs_src_0 _ _).trans hk
      | ⟨1, _⟩ => exact rhs_src_1 _ _)
  rw [el, er]

theorem lhs_agg_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide),
    dif_pos (show (0 : Fin S256x4096.rank) ∈ dot_S256x4096_S4096x256_S256x256_1_0_0_1_n_n.lhsNonContracting by decide)]
  rfl
theorem lhs_agg_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_agg_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_agg_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide),
    dif_pos (show (1 : Fin S4096x256.rank) ∈ dot_S256x4096_S4096x256_S256x256_1_0_0_1_n_n.rhsNonContracting by decide)]
  rfl

theorem matmul_agg_apply {φ₁ φ₂ : FTy} (l : FVec Ideal S256x4096 φ₁) (r : FVec Ideal S4096x256 φ₂) (p : Fin 256) (k : Fin 256) :
    matmul dot_S256x4096_S4096x256_S256x256_1_0_0_1_n_n none l r (constant (F := Ideal) S256x256 .f32 0x00000000#32) (ix2 p k)
      = ∑ a : Fin 4096, l (ix2 p a) * r (ix2 a k) := by
  show FloatOps.matmul dot_S256x4096_S4096x256_S256x256_1_0_0_1_n_n none l r (constant (F := Ideal) S256x256 .f32 0x00000000#32) (ix2 p k) = _
  rw [Ideal.matmul_constant_zero_apply, ← Equiv.sum_comp (contrEquiv1 dot_S256x4096_S4096x256_S256x256_1_0_0_1_n_n 4096 rfl rfl).symm]
  refine Finset.sum_congr rfl fun a _ => ?_
  have hk := contrEquiv1_symm_val dot_S256x4096_S4096x256_S256x256_1_0_0_1_n_n 4096 rfl rfl a
  have el : dot_S256x4096_S4096x256_S256x256_1_0_0_1_n_n.lhsIdx (ix2 p k) ((contrEquiv1 dot_S256x4096_S4096x256_S256x256_1_0_0_1_n_n 4096 rfl rfl).symm a) = ix2 p a :=
    funext fun x => Fin.ext (by
      match x with
      | ⟨0, _⟩ => exact lhs_agg_0 _ _
      | ⟨1, _⟩ => exact (lhs_agg_1 _ _).trans hk)
  have er : dot_S256x4096_S4096x256_S256x256_1_0_0_1_n_n.rhsIdx (ix2 p k) ((contrEquiv1 dot_S256x4096_S4096x256_S256x256_1_0_0_1_n_n 4096 rfl rfl).symm a) = ix2 a k :=
    funext fun x => Fin.ext (by
      match x with
      | ⟨0, _⟩ => exact (rhs_agg_0 _ _).trans hk
      | ⟨1, _⟩ => exact rhs_agg_1 _ _)
  rw [el, er]

/-! ## The block's arithmetic as three vector terms

The kernel's block computation read as: the scores `e = s + d`, the masked leaky logits `g`, and from a logit block
`g` the shifted exponentials, their lane sums, and the aggregated product divided by the sums. -/

/-- The raw scores of the block: the rows' source scores spread along the lanes plus the row of target scores. -/
def scoreBlk (v5 : FVec Ideal S256x256 .f32) (As : FVec Ideal S256x1 .f32) (v8 : FVec Ideal S1x4096 .f32) :
    FVec Ideal S256x4096 .f32 :=
  addf (broadcastTo S256x4096 (matmul dot_S256x256_S256x1_S256x1_1_0_0_1_n_n none v5 As (constant (F := Ideal) S256x1 .f32 0x00000000#32))
      broadcasts_S256x1_S256x4096)
    (broadcastTo S256x4096 v8 broadcasts_S1x4096_S256x4096)

/-- The masked logits of the block. -/
def logitBlk (v5 : FVec Ideal S256x256 .f32) (As : FVec Ideal S256x1 .f32) (v8 : FVec Ideal S1x4096 .f32)
    (v17 : FVec Ideal S256x4096 .f32) : FVec Ideal S256x4096 .f32 :=
  select (cmpf .ogt v17 (broadcast S256x4096 (Scalar.ofBits (F := Ideal) .f32 0x00000000#32)))
    (select (cmpf .oge (scoreBlk v5 As v8) (broadcast S256x4096 (Scalar.ofBits (F := Ideal) .f32 0x00000000#32)))
      (scoreBlk v5 As v8)
      (mulf (broadcast S256x4096 (Scalar.ofBits (F := Ideal) .f32 0x3E4CCCCD#32)) (scoreBlk v5 As v8)))
    (broadcast S256x4096 (Scalar.ofBits (F := Ideal) .f32 0xCE6E6B28#32))

/-- The exponentials of a logit block shifted by its row maxima. -/
def expBlk (g : FVec Ideal S256x4096 .f32) : FVec Ideal S256x4096 .f32 :=
  exp (subf g (broadcastTo S256x4096
    (shapeCast S256x1 (multiReduction (F := Ideal) .maximumf [1] S256 g 0xFF800000#32 reduces_S256x4096_S256 (.inl rfl) rfl)
      shapeCasts_S256_S256x1) broadcasts_S256x1_S256x4096))

/-- The aggregated features of a logit block: the exponentials against `h`, divided by the exponentials' row sums. -/
def aggBlk (g : FVec Ideal S256x4096 .f32) (v30 : FVec Ideal S4096x256 .bf16) : FVec Ideal S256x256 .f32 :=
  divf (matmul dot_S256x4096_S4096x256_S256x256_1_0_0_1_n_n none (truncf .bf16 (expBlk g) bitsLt_bf16_f32) v30
      (constant (F := Ideal) S256x256 .f32 0x00000000#32))
    (broadcastTo S256x256
      (shapeCast S256x1 (multiReduction (F := Ideal) .add [1] S256 (expBlk g) 0x00000000#32 reduces_S256x4096_S256 (.inl rfl) rfl)
        shapeCasts_S256_S256x1) broadcasts_S256x1_S256x256)

/-- The exponential linear unit of a block. -/
def eluBlk (a : FVec Ideal S256x256 .f32) : FVec Ideal S256x256 .f32 :=
  select (cmpf .ogt a (broadcast S256x256 (Scalar.ofBits (F := Ideal) .f32 0x00000000#32))) a
    (subf (exp a) (broadcast S256x256 (Scalar.ofBits (F := Ideal) .f32 0x3F800000#32)))

theorem scoreBlk_apply (v5 : FVec Ideal S256x256 .f32) (As : FVec Ideal S256x1 .f32) (v8 : FVec Ideal S1x4096 .f32)
    (p : Fin 256) (j : Fin 4096) :
    scoreBlk v5 As v8 (ix2 p j)
      = (∑ a : Fin 256, v5 (ix2 p a) * As (ix2 a (0 : Fin 1))) + v8 (ix2 (0 : Fin 1) j) := by
  unfold scoreBlk
  rw [addf_apply, broadcastTo_a1_ab_apply, broadcastTo_1b_ab_apply, matmul_src_apply]

theorem logitBlk_apply (v5 : FVec Ideal S256x256 .f32) (As : FVec Ideal S256x1 .f32) (v8 : FVec Ideal S1x4096 .f32)
    (v17 : FVec Ideal S256x4096 .f32) (p : Fin 256) (j : Fin 4096) :
    logitBlk v5 As v8 v17 (ix2 p j) = masked cneg (v17 (ix2 p j)) (leaky c02 (scoreBlk v5 As v8 (ix2 p j))) := by
  unfold logitBlk masked leaky
  rw [select_apply, select_apply, cmpf_apply, cmpf_apply, mulf_apply]
  simp only [broadcast_apply]
  rw [select_ogt_zero, select_oge_zero]
  rfl

/-- Row `p` of the block's logits is the specification's logit row of node `256 t + p`. -/
theorem logitBlk_row (h : Fin 4096 → Fin 256 → EReal) (d : Fin 4096 → EReal) (adj : Fin 4096 → Fin 4096 → EReal)
    (As : FVec Ideal S256x1 .f32) (t : Fin 16)
    (v5 : FVec Ideal S256x256 .f32) (v8 : FVec Ideal S1x4096 .f32) (v17 : FVec Ideal S256x4096 .f32)
    (h5 : ∀ (p : Fin 256) (a : Fin 256), v5 (ix2 p a) = h (rowOf t p) a) (h8 : ∀ j : Fin 4096, v8 (ix2 0 j) = d j)
    (h17 : ∀ (p : Fin 256) (j : Fin 4096), v17 (ix2 p j) = adj (rowOf t p) j) (p : Fin 256) :
    (fun j : Fin 4096 => logitBlk v5 As v8 v17 (ix2 p j))
      = logits c02 cneg adj (srcScore h (col As)) d (rowOf t p) := by
  funext j
  rw [logitBlk_apply, scoreBlk_apply, h17, h8]
  unfold logits srcScore
  simp only [h5]

theorem expBlk_apply (g : FVec Ideal S256x4096 .f32) (p : Fin 256) (j : Fin 4096) :
    expBlk g (ix2 p j) = weight (fun j => g (ix2 p j)) j := by
  unfold expBlk weight
  show Ideal.exp (g (ix2 p j) - broadcastTo S256x4096 _ broadcasts_S256x1_S256x4096 (ix2 p j)) = _
  rw [broadcastTo_a1_ab_apply, shapeCast_a_a1_apply]
  exact congrArg (fun m => Ideal.exp (g (ix2 p j) - m)) (laneMax_apply g _ _ p)

theorem aggBlk_apply (g : FVec Ideal S256x4096 .f32) (v30 : FVec Ideal S4096x256 .bf16) (p : Fin 256) (k : Fin 256) :
    aggBlk g v30 (ix2 p k) = aggK (fun j => g (ix2 p j)) (fun j k => v30 (ix2 j k)) k := by
  unfold aggBlk aggK Cert.GatSpec.norm
  rw [divf_apply, matmul_agg_apply, broadcastTo_a1_ab_apply, shapeCast_a_a1_apply]
  refine congrArg₂ Ideal.div ?_ ((laneSum_apply (expBlk g) _ _ p).trans ?_)
  · exact Finset.sum_congr rfl fun j _ => congrArg (· * v30 (ix2 j k)) (expBlk_apply g p j)
  · exact Finset.sum_congr rfl fun j _ => expBlk_apply g p j

theorem eluBlk_apply (a : FVec Ideal S256x256 .f32) (p : Fin 256) (k : Fin 256) :
    eluBlk a (ix2 p k) = eluK (a (ix2 p k)) := by
  unfold eluBlk eluK
  rw [select_apply, cmpf_apply, subf_apply]
  simp only [broadcast_apply]
  rw [select_ogt_zero]
  show (if 0 < a (ix2 p k) then a (ix2 p k) else Ideal.exp (a (ix2 p k)) - Ideal.ofBits .f32 0x3F800000#32) = _
  rw [ofBits_one_f32']

/-- The layer's value on a block, from the three vector terms. -/
theorem layerBlk_apply (h : Fin 4096 → Fin 256 → EReal) (d : Fin 4096 → EReal) (adj : Fin 4096 → Fin 4096 → EReal)
    (As : FVec Ideal S256x1 .f32) (t : Fin 16)
    (v5 : FVec Ideal S256x256 .f32) (v8 : FVec Ideal S1x4096 .f32) (v17 : FVec Ideal S256x4096 .f32)
    (v30 : FVec Ideal S4096x256 .bf16)
    (h5 : ∀ (p : Fin 256) (a : Fin 256), v5 (ix2 p a) = h (rowOf t p) a) (h8 : ∀ j : Fin 4096, v8 (ix2 0 j) = d j)
    (h17 : ∀ (p : Fin 256) (j : Fin 4096), v17 (ix2 p j) = adj (rowOf t p) j)
    (h30 : ∀ (j : Fin 4096) (k : Fin 256), v30 (ix2 j k) = h j k) (p : Fin 256) (k : Fin 256) :
    eluBlk (aggBlk (logitBlk v5 As v8 v17) v30) (ix2 p k)
      = eluK (aggK (logits c02 cneg adj (srcScore h (col As)) d (rowOf t p)) h k) := by
  have hh : (fun (j : Fin 4096) (k : Fin 256) => v30 (ix2 j k)) = h := funext fun j => funext fun k => h30 j k
  rw [eluBlk_apply, aggBlk_apply, logitBlk_row h d adj As t v5 v8 v17 h5 h8 h17 p, hh]

/-! ## The first launch -/

/-- The feature product of launch 0 at `(i, k)`. -/
theorem pay2_0_apply (X : Vec Ideal S4096x256 .f32) (Wm : Vec Ideal S256x256 .f32) (i : Fin 4096) (k : Fin 256) :
    k0_pay2 (F := Ideal) X Wm (ix2 i k) = feat (m2 X) (m2 Wm) i k := by
  unfold k0_pay2
  exact matmul_feat_apply X Wm i k

theorem feat0_apply (X : Vec Ideal S4096x256 .f32) (Wm : Vec Ideal S256x256 .f32) (i : Fin 4096) (k : Fin 256) :
    k0_pay3 (F := Ideal) X Wm (ix2 i k) = feat (m2 X) (m2 Wm) i k := by
  unfold k0_pay3
  show shapeCast S4096x256 (k0_pay2 (F := Ideal) X Wm) shapeCasts_S4096x256_S4096x256 (ix2 i k) = _
  rw [shapeCast_self]
  exact pay2_0_apply X Wm i k

theorem featb0_apply (X : Vec Ideal S4096x256 .f32) (Wm : Vec Ideal S256x256 .f32) (i : Fin 4096) (k : Fin 256) :
    k0_pay4 (F := Ideal) X Wm (ix2 i k) = feat (m2 X) (m2 Wm) i k := by
  unfold k0_pay4
  show shapeCast S4096x256 (truncf .bf16 (k0_pay2 (F := Ideal) X Wm) bitsLt_bf16_f32) shapeCasts_S4096x256_S4096x256 (ix2 i k) = _
  rw [shapeCast_self]
  exact pay2_0_apply X Wm i k

theorem dst0_apply (X : Vec Ideal S4096x256 .f32) (Wm : Vec Ideal S256x256 .f32) (Ad : Vec Ideal S256x1 .f32) (r : Fin 8) (j : Fin 4096) :
    k0_pay5 (F := Ideal) X Wm Ad (ix2 r j) = dstScoreK (feat (m2 X) (m2 Wm)) (col Ad) j := by
  unfold k0_pay5
  show shapeCast S8x4096 (broadcastTo S8x4096 (shapeCast S1x4096
      (matmul dot_S256x1_S4096x256_S1x4096_0_1_1_0_n_n none Ad (k0_pay2 (F := Ideal) X Wm) (constant (F := Ideal) S1x4096 .f32 0x00000000#32))
      shapeCasts_S1x4096_S1x4096) broadcasts_S1x4096_S8x4096) shapeCasts_S8x4096_S8x4096 (ix2 r j) = _
  rw [shapeCast_self, shapeCast_self, broadcastTo_1b_ab_apply, matmul_dst_apply]
  unfold dstScoreK
  exact Finset.sum_congr rfl fun a _ => congrArg (Ad (ix2 a (0 : Fin 1)) * ·) (pay2_0_apply X Wm j a)

theorem out0_apply (h : Fin 4096 → Fin 256 → EReal) (d : Fin 4096 → EReal) (adj : Fin 4096 → Fin 4096 → EReal)
    (As : Vec Ideal S256x1 .f32) (t : Fin 16)
    (v5 : Vec Ideal S256x256 .f32) (v8 : Vec Ideal S1x4096 .f32) (v17 : Vec Ideal S256x4096 .f32)
    (v30 : Vec Ideal S4096x256 .bf16)
    (h5 : ∀ (p : Fin 256) (a : Fin 256), v5 (ix2 p a) = h (rowOf t p) a) (h8 : ∀ j : Fin 4096, v8 (ix2 0 j) = d j)
    (h17 : ∀ (p : Fin 256) (j : Fin 4096), v17 (ix2 p j) = adj (rowOf t p) j)
    (h30 : ∀ (j : Fin 4096) (k : Fin 256), v30 (ix2 j k) = h j k)
    (p : Fin 256) (k : Fin 256) :
    k0_pay1 (F := Ideal) (k0_pay6 v5 As v8 v17 v30) (k0_pay7 v5 As v8 v17 v30) (k0_pay8 v5 As v8 v17 v30) (ix2 p k)
      = eluK (aggK (logits c02 cneg adj (srcScore h (col As)) d (rowOf t p)) h k) := by
  have e : k0_pay1 (F := Ideal) (k0_pay6 v5 As v8 v17 v30) (k0_pay7 v5 As v8 v17 v30) (k0_pay8 v5 As v8 v17 v30)
      = eluBlk (aggBlk (logitBlk v5 As v8 v17) v30) := rfl
  rw [e]
  exact layerBlk_apply h d adj As t v5 v8 v17 v30 h5 h8 h17 h30 p k

/-! ## The second launch

The same arithmetic; its feature product casts the left operand to its own shape first, which is the identity. -/

/-- The feature product of launch 1 at `(i, k)`. -/
theorem pay2_1_apply (X : Vec Ideal S4096x256 .f32) (Wm : Vec Ideal S256x256 .f32) (i : Fin 4096) (k : Fin 256) :
    k1_pay2 (F := Ideal) X Wm (ix2 i k) = feat (m2 X) (m2 Wm) i k := by
  unfold k1_pay2
  show matmul dot_S4096x256_S256x256_S4096x256_1_0_0_1_n_n none (shapeCast S4096x256 X shapeCasts_S4096x256_S4096x256) Wm
      (constant (F := Ideal) S4096x256 .f32 0x00000000#32) (ix2 i k) = _
  rw [shapeCast_self]
  exact matmul_feat_apply X Wm i k

theorem feat1_apply (X : Vec Ideal S4096x256 .f32) (Wm : Vec Ideal S256x256 .f32) (i : Fin 4096) (k : Fin 256) :
    k1_pay3 (F := Ideal) X Wm (ix2 i k) = feat (m2 X) (m2 Wm) i k := by
  unfold k1_pay3
  show shapeCast S4096x256 (k1_pay2 (F := Ideal) X Wm) shapeCasts_S4096x256_S4096x256 (ix2 i k) = _
  rw [shapeCast_self]
  exact pay2_1_apply X Wm i k

theorem featb1_apply (X : Vec Ideal S4096x256 .f32) (Wm : Vec Ideal S256x256 .f32) (i : Fin 4096) (k : Fin 256) :
    k1_pay4 (F := Ideal) X Wm (ix2 i k) = feat (m2 X) (m2 Wm) i k := by
  unfold k1_pay4
  show shapeCast S4096x256 (truncf .bf16 (k1_pay2 (F := Ideal) X Wm) bitsLt_bf16_f32) shapeCasts_S4096x256_S4096x256 (ix2 i k) = _
  rw [shapeCast_self]
  exact pay2_1_apply X Wm i k

theorem dst1_apply (X : Vec Ideal S4096x256 .f32) (Wm : Vec Ideal S256x256 .f32) (Ad : Vec Ideal S256x1 .f32) (r : Fin 8) (j : Fin 4096) :
    k1_pay5 (F := Ideal) X Wm Ad (ix2 r j) = dstScoreK (feat (m2 X) (m2 Wm)) (col Ad) j := by
  unfold k1_pay5
  show shapeCast S8x4096 (broadcastTo S8x4096 (shapeCast S1x4096
      (matmul dot_S256x1_S4096x256_S1x4096_0_1_1_0_n_n none Ad (k1_pay2 (F := Ideal) X Wm) (constant (F := Ideal) S1x4096 .f32 0x00000000#32))
      shapeCasts_S1x4096_S1x4096) broadcasts_S1x4096_S8x4096) shapeCasts_S8x4096_S8x4096 (ix2 r j) = _
  rw [shapeCast_self, shapeCast_self, broadcastTo_1b_ab_apply, matmul_dst_apply]
  unfold dstScoreK
  exact Finset.sum_congr rfl fun a _ => congrArg (Ad (ix2 a (0 : Fin 1)) * ·) (pay2_1_apply X Wm j a)

theorem out1_apply (h : Fin 4096 → Fin 256 → EReal) (d : Fin 4096 → EReal) (adj : Fin 4096 → Fin 4096 → EReal)
    (As : Vec Ideal S256x1 .f32) (t : Fin 16)
    (v5 : Vec Ideal S256x256 .f32) (v8 : Vec Ideal S1x4096 .f32) (v17 : Vec Ideal S256x4096 .f32)
    (v30 : Vec Ideal S4096x256 .bf16)
    (h5 : ∀ (p : Fin 256) (a : Fin 256), v5 (ix2 p a) = h (rowOf t p) a) (h8 : ∀ j : Fin 4096, v8 (ix2 0 j) = d j)
    (h17 : ∀ (p : Fin 256) (j : Fin 4096), v17 (ix2 p j) = adj (rowOf t p) j)
    (h30 : ∀ (j : Fin 4096) (k : Fin 256), v30 (ix2 j k) = h j k)
    (p : Fin 256) (k : Fin 256) :
    k1_pay1 (F := Ideal) (k1_pay6 v5 As v8 v17 v30) (k1_pay7 v5 As v8 v17 v30) (k1_pay8 v5 As v8 v17 v30) (ix2 p k)
      = eluK (aggK (logits c02 cneg adj (srcScore h (col As)) d (rowOf t p)) h k) := by
  have e : k1_pay1 (F := Ideal) (k1_pay6 v5 As v8 v17 v30) (k1_pay7 v5 As v8 v17 v30) (k1_pay8 v5 As v8 v17 v30)
      = eluBlk (aggBlk (logitBlk v5 As v8 v17) v30) := rfl
  rw [e]
  exact layerBlk_apply h d adj As t v5 v8 v17 v30 h5 h8 h17 h30 p k

end Cert.KernelIdeal.Hand

end
-- ==== Proof.KerArr.lean ====
/-
  From the blocks to the array, at the ideal values: after each launch of the layer kernel the result array holds the
  layer `layerK` of the arrays the launch found, index by index.

  A launch runs over sixteen points. Its first four windows (`x`, `W`, `asrc`, `adst`) hold their whole arrays at every
  point; the adjacency window holds rows `256 t … 256 t + 255` at point `t`; the result window's block at point `t` is
  rows `256 t … 256 t + 255` of the result. The three scratch arrays hold, from the first point on, the features
  `h = x W` (twice) and the target scores `adstᵀ h` in each of eight rows. So the block point `t` stores, read at
  `(p, k)`, is the layer's value at row `256 t + p` and column `k`; what the point writes back is block `t` of the
  one whole-array function; and the sixteen blocks cover the array (row `r` lies in the block of point `r / 256`).
-/
import proofs.«179434_g75539884802175_cont_sun_m_1234_5_alg».proof.Proof.Reg0
import proofs.«179434_g75539884802175_cont_sun_m_1234_5_alg».proof.Proof.Reg1
import proofs.«179434_g75539884802175_cont_sun_m_1234_5_alg».proof.Proof.KerValue
import proofs.«179434_g75539884802175_cont_sun_m_1234_5_alg».proof.Proof.Spec
import proofs.«179434_g75539884802175_cont_sun_m_1234_5_alg».proof.Proof.Arr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.GatBody Cert.GatArr Cert.GatSpec

/-! ## The first launch -/

section Launch0
variable (V : (c : Dev nD) → (b : Ref sig .tc) → Buf (Elt Ideal) ((c : Thread nD τ).loc b))

/-- The printed index maps over the grid: the four whole-array windows sit at block (0, 0) at every point, the
    adjacency window and the result window at block (t, 0); and the grid coordinate of point `t` is `t`. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ (grid0.coords t 0).val = t.val :=
  (by decide +kernel : ∀ t : Fin grid0.N, _)

/-- Window 0's block is its whole array at every point. -/
theorem iblk0_0_eq (c : Dev nD) (t : Fin cfg0.N) :
    (iblk0 (F := Ideal) V c 0 t : S4096x256.Idx → EReal) = (V c main_arg0 : S4096x256.Idx → EReal) := by
  obtain ⟨e00, e01, e10, e11, e20, e21, e30, e31, -⟩ := idx_facts0 t
  funext y
  unfold iblk0
  rw [View.read_apply]
  show (V c main_arg0 : S4096x256.Idx → EReal) (((cfg0.win 0).blk t).view.emb y) = (V c main_arg0 : S4096x256.Idx → EReal) y
  refine congrArg _ (funext fun a => Fin.ext ?_)
  match a with
  | ⟨0, _⟩ => show win0_0.index t (0 : Fin 2) * 4096 + 1 * (y 0).val = (y 0).val; omega
  | ⟨1, _⟩ => show win0_0.index t (1 : Fin 2) * 256 + 1 * (y 1).val = (y 1).val; omega

/-- Window 1's block is its whole array at every point. -/
theorem iblk0_1_eq (c : Dev nD) (t : Fin cfg0.N) :
    (iblk0 (F := Ideal) V c 1 t : S256x256.Idx → EReal) = (V c main_arg2 : S256x256.Idx → EReal) := by
  obtain ⟨e00, e01, e10, e11, e20, e21, e30, e31, -⟩ := idx_facts0 t
  funext y
  unfold iblk0
  rw [View.read_apply]
  show (V c main_arg2 : S256x256.Idx → EReal) (((cfg0.win 1).blk t).view.emb y) = (V c main_arg2 : S256x256.Idx → EReal) y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- Window 2's block is its whole array at every point. -/
theorem iblk0_2_eq (c : Dev nD) (t : Fin cfg0.N) :
    (iblk0 (F := Ideal) V c 2 t : S256x1.Idx → EReal) = (V c main_arg3 : S256x1.Idx → EReal) := by
  obtain ⟨e00, e01, e10, e11, e20, e21, e30, e31, -⟩ := idx_facts0 t
  funext y
  unfold iblk0
  rw [View.read_apply]
  show (V c main_arg3 : S256x1.Idx → EReal) (((cfg0.win 2).blk t).view.emb y) = (V c main_arg3 : S256x1.Idx → EReal) y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 1 + 1 * (y 1).val = (y 1).val; omega

/-- Window 3's block is its whole array at every point. -/
theorem iblk0_3_eq (c : Dev nD) (t : Fin cfg0.N) :
    (iblk0 (F := Ideal) V c 3 t : S256x1.Idx → EReal) = (V c main_arg4 : S256x1.Idx → EReal) := by
  obtain ⟨e00, e01, e10, e11, e20, e21, e30, e31, -⟩ := idx_facts0 t
  funext y
  unfold iblk0
  rw [View.read_apply]
  show (V c main_arg4 : S256x1.Idx → EReal) (((cfg0.win 3).blk t).view.emb y) = (V c main_arg4 : S256x1.Idx → EReal) y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 1 + 1 * (y 1).val = (y 1).val; omega

/-- The adjacency window's block at point `t` is rows `256 t … 256 t + 255` of the adjacency. -/
theorem iblk0_4_apply (c : Dev nD) (t : Fin cfg0.N) (p : Fin 256) (j : Fin 4096) :
    (iblk0 (F := Ideal) V c 4 t : S256x4096.Idx → EReal) (ix2 p j) = (V c main_arg1 : S4096x4096.Idx → EReal) (ix2 (rowOf (Fin.cast N_0 t) p) j) := by
  obtain ⟨-, -, -, -, -, -, -, -, e40, e41, -⟩ := idx_facts0 t
  unfold iblk0
  rw [View.read_apply]
  show (V c main_arg1 : S4096x4096.Idx → EReal) (((cfg0.win 4).blk t).view.emb (ix2 p j)) = (V c main_arg1 : S4096x4096.Idx → EReal) (ix2 (rowOf (Fin.cast N_0 t) p) j)
  refine congrArg _ (funext fun a => Fin.ext ?_)
  match a with
  | ⟨0, _⟩ => show win0_4.index t (0 : Fin 2) * 256 + 1 * p.val = 256 * t.val + p.val; omega
  | ⟨1, _⟩ => show win0_4.index t (1 : Fin 2) * 4096 + 1 * j.val = j.val; omega

/-! ### What the first point leaves in the three scratch arrays, read at an index -/

theorem featS0_apply (x0 : Vec Ideal S4096x256 .f32) (x1 : Vec Ideal S256x256 .f32) (i : Fin 4096) (k : Fin 256) :
    featS0 x0 x1 (ix2 i k) = feat (m2 x0) (m2 x1) i k := by
  unfold featS0
  rw [View.canon_unit_zero zero2, View.ld_unit_zero zero2, View.ld_unit_zero zero2]
  exact feat0_apply x0 x1 i k

theorem featBS0_apply (x0 : Vec Ideal S4096x256 .f32) (x1 : Vec Ideal S256x256 .f32) (i : Fin 4096) (k : Fin 256) :
    featBS0 x0 x1 (ix2 i k) = feat (m2 x0) (m2 x1) i k := by
  unfold featBS0
  rw [View.canon_unit_zero zero2, View.ld_unit_zero zero2, View.ld_unit_zero zero2]
  exact featb0_apply x0 x1 i k

theorem dstS0_apply (x0 : Vec Ideal S4096x256 .f32) (x1 : Vec Ideal S256x256 .f32) (x3 : Vec Ideal S256x1 .f32)
    (r : Fin 8) (j : Fin 4096) :
    dstS0 x0 x1 x3 (ix2 r j) = dstScoreK (feat (m2 x0) (m2 x1)) (col x3) j := by
  unfold dstS0
  rw [View.canon_unit_zero zero2, View.ld_unit_zero zero2, View.ld_unit_zero zero2, View.ld_unit_zero zero2]
  exact dst0_apply x0 x1 x3 r j

/-- The first scratch array holds the features of the launch's `x` and `W`. -/
theorem Hs0_apply (c : Dev nD) (i : Fin 4096) (k : Fin 256) :
    Hs0 (F := Ideal) V c (ix2 i k) = (feat (m2 (V c main_arg0 : S4096x256.Idx → EReal)) (m2 (V c main_arg2 : S256x256.Idx → EReal))) i k := by
  unfold Hs0
  exact (congrArg₂ (fun (a : S4096x256.Idx → EReal) (b : S256x256.Idx → EReal) => featS0 (F := Ideal) a b (ix2 i k))
    (iblk0_0_eq V c t0_0) (iblk0_1_eq V c t0_0)).trans (featS0_apply _ _ i k)

/-- So does the second. -/
theorem HBs0_apply (c : Dev nD) (i : Fin 4096) (k : Fin 256) :
    HBs0 (F := Ideal) V c (ix2 i k) = (feat (m2 (V c main_arg0 : S4096x256.Idx → EReal)) (m2 (V c main_arg2 : S256x256.Idx → EReal))) i k := by
  unfold HBs0
  exact (congrArg₂ (fun (a : S4096x256.Idx → EReal) (b : S256x256.Idx → EReal) => featBS0 (F := Ideal) a b (ix2 i k))
    (iblk0_0_eq V c t0_0) (iblk0_1_eq V c t0_0)).trans (featBS0_apply _ _ i k)

/-- Every row of the third holds the target scores. -/
theorem DTs0_apply (c : Dev nD) (r : Fin 8) (j : Fin 4096) :
    DTs0 (F := Ideal) V c (ix2 r j) = dstScoreK (feat (m2 (V c main_arg0 : S4096x256.Idx → EReal)) (m2 (V c main_arg2 : S256x256.Idx → EReal))) (col (V c main_arg4 : S256x1.Idx → EReal)) j := by
  unfold DTs0
  have e := iblk0_3_eq V c t0_0
  exact ((congrArg₂ (fun (a : S4096x256.Idx → EReal) (b : S256x256.Idx → EReal) =>
      dstS0 (F := Ideal) a b (iblk0 V c 3 t0_0) (ix2 r j)) (iblk0_0_eq V c t0_0) (iblk0_1_eq V c t0_0)).trans
    (congrArg (fun (a : S256x1.Idx → EReal) => dstS0 (F := Ideal) (V c main_arg0 : S4096x256.Idx → EReal) (V c main_arg2 : S256x256.Idx → EReal) a (ix2 r j)) e)).trans
    (dstS0_apply _ _ _ r j)

/-! ### The two partial loads of a point -/

/-- The 256 rows of the first scratch array a point loads are rows `256 t … 256 t + 255`. -/
theorem ld_rows0 (s0 : Vec Ideal S4096x256 .f32) (i : grid0.Coords) (tt : Fin 16) (hi : (i 0).val = tt.val)
    (p a : Fin 256) : View.ld s0 (rH0 i) (ix2 p a) = s0 (ix2 (rowOf tt p) a) := by
  show s0 ((rH0 i).idx (ix2 p a)) = _
  refine congrArg s0 (funext fun x => Fin.ext ?_)
  match x with
  | ⟨0, _⟩ =>
    show k0_off1 i 0 + 1 * p.val = 256 * tt.val + p.val
    rw [k0_off1_eq i]
    show 256 * (i 0).val + 1 * p.val = 256 * tt.val + p.val
    omega
  | ⟨1, _⟩ =>
    show k0_off1 i 1 + 1 * a.val = a.val
    rw [k0_off1_eq i]
    show 0 + 1 * a.val = a.val
    omega

/-- The one row of the third scratch array a point loads is its row 0. -/
theorem ld_row0 (s2 : Vec Ideal S8x4096 .f32) (j : Fin 4096) :
    View.ld s2 rR0 (ix2 (0 : Fin 1) j) = s2 (ix2 (0 : Fin 8) j) := by
  show s2 (rR0.idx (ix2 (0 : Fin 1) j)) = _
  refine congrArg s2 (funext fun x => Fin.ext ?_)
  match x with
  | ⟨0, _⟩ => rfl
  | ⟨1, _⟩ => show 0 + 1 * j.val = j.val; omega

/-! ### The block a point stores -/

/-- The stored block at `(p, k)`, from what the point's operands hold: the layer's value at row `256 t + p`. -/
theorem outS0_apply (h : Fin 4096 → Fin 256 → EReal) (d : Fin 4096 → EReal) (adj : Fin 4096 → Fin 4096 → EReal)
    (i : grid0.Coords) (tt : Fin 16) (hi : (i 0).val = tt.val)
    (x2 : Vec Ideal S256x1 .f32) (x4 : Vec Ideal S256x4096 .f32)
    (s0 : Vec Ideal S4096x256 .f32) (s1 : Vec Ideal S4096x256 .bf16) (s2 : Vec Ideal S8x4096 .f32)
    (hs0 : ∀ (i : Fin 4096) (k : Fin 256), s0 (ix2 i k) = h i k)
    (hs1 : ∀ (j : Fin 4096) (k : Fin 256), s1 (ix2 j k) = h j k)
    (hs2 : ∀ j : Fin 4096, s2 (ix2 (0 : Fin 8) j) = d j)
    (hx4 : ∀ (p : Fin 256) (j : Fin 4096), x4 (ix2 p j) = adj (rowOf tt p) j) (p k : Fin 256) :
    outS0 i x2 x4 s0 s1 s2 (ix2 p k)
      = eluK (aggK (logits c02 cneg adj (srcScore h (col x2)) d (rowOf tt p)) h k) := by
  unfold outS0
  rw [View.canon_unit_zero zero2]
  simp only [View.ld_unit_zero (S := S256x1) zero2, View.ld_unit_zero (S := S256x4096) zero2,
    View.ld_unit_zero (S := S4096x256) zero2]
  exact out0_apply h d adj x2 tt (View.ld s0 (rH0 i)) (View.ld s2 rR0) x4 s1
    (fun p a => (ld_rows0 s0 i tt hi p a).trans (hs0 _ _)) (fun j => (ld_row0 s2 j).trans (hs2 j)) hx4 hs1 p k

/-- The launch's result as one function of the arrays it found. -/
def layerArr0 (c : Dev nD) : S4096x256.Idx → EReal := fun idx =>
  layerK c02 cneg (m2 (V c main_arg0 : S4096x256.Idx → EReal)) (m2 (V c main_arg1 : S4096x4096.Idx → EReal)) (m2 (V c main_arg2 : S256x256.Idx → EReal)) (col (V c main_arg3 : S256x1.Idx → EReal)) (col (V c main_arg4 : S256x1.Idx → EReal)) (idx 0) (idx 1)

/-- Point `t`'s stored block at `(p, k)` is the layer at row `256 t + p`. -/
theorem outB0_apply (c : Dev nD) (t : Fin cfg0.N) (p k : Fin 256) :
    outB0 (F := Ideal) V c t (ix2 p k)
      = layerK c02 cneg (m2 (V c main_arg0 : S4096x256.Idx → EReal)) (m2 (V c main_arg1 : S4096x4096.Idx → EReal)) (m2 (V c main_arg2 : S256x256.Idx → EReal)) (col (V c main_arg3 : S256x1.Idx → EReal)) (col (V c main_arg4 : S256x1.Idx → EReal)) (rowOf (Fin.cast N_0 t) p) k := by
  unfold outB0 layerK
  refine (congrArg (fun (a : S256x1.Idx → EReal) =>
    outS0 (F := Ideal) (grid0.coords t) a (iblk0 V c 4 t) (Hs0 V c) (HBs0 V c) (DTs0 V c) (ix2 p k)) (iblk0_2_eq V c t)).trans ?_
  exact outS0_apply (feat (m2 (V c main_arg0 : S4096x256.Idx → EReal)) (m2 (V c main_arg2 : S256x256.Idx → EReal))) (dstScoreK (feat (m2 (V c main_arg0 : S4096x256.Idx → EReal)) (m2 (V c main_arg2 : S256x256.Idx → EReal))) (col (V c main_arg4 : S256x1.Idx → EReal))) (m2 (V c main_arg1 : S4096x4096.Idx → EReal)) (grid0.coords t) (Fin.cast N_0 t)
    (idx_facts0 t).2.2.2.2.2.2.2.2.2.2.2.2 (V c main_arg3 : S256x1.Idx → EReal) (iblk0 V c 4 t) (Hs0 V c) (HBs0 V c) (DTs0 V c)
    (Hs0_apply V c) (HBs0_apply V c) (fun j => DTs0_apply V c 0 j) (iblk0_4_apply V c t) p k

/-- The same at an index `y` of the block and the array index `z` under it. -/
theorem outB0_read (c : Dev nD) (t : Fin cfg0.N) (y : S256x256.Idx) (z : S4096x256.Idx)
    (hz0 : (z 0).val = 256 * t.val + (y 0).val) (hz1 : (z 1).val = (y 1).val) :
    outB0 (F := Ideal) V c t y = layerArr0 V c z := by
  obtain ⟨p, k, rfl⟩ : ∃ (p : Fin 256) (k : Fin 256), y = ix2 p k := ⟨y 0, y 1, eq_ix2 y⟩
  rw [outB0_apply]
  unfold layerArr0
  have h0 : rowOf (Fin.cast N_0 t) p = z 0 := Fin.ext (by rw [rowOf_val]; exact hz0.symm)
  have h1 : k = z 1 := Fin.ext hz1.symm
  rw [h0, h1]

/-! ### From the blocks to the array -/

/-- What point `t` writes back is block `t` of the layer's array. -/
theorem flushed0_eq (c : Dev nD) (t : Fin cfg0.N) :
    (dat0 (F := Ideal) V c).flushed 5 t = ((cfg0.win 5).blk t).view.read (Elt Ideal) (layerArr0 V c) := by
  obtain ⟨-, -, -, -, -, -, -, -, -, -, e50, e51, -⟩ := idx_facts0 t
  show (cfg0.win 5).cut (grid0.coords t) ((dat0 V c).after 5 t) = _
  rw [after0_5]
  funext y
  rw [View.read_apply]
  show outB0 V c t y = layerArr0 V c (((cfg0.win 5).blk t).view.emb y)
  refine outB0_read V c t y _ ?_ ?_
  · show win0_5.index t (0 : Fin 2) * 256 + 1 * (y 0).val = 256 * t.val + (y 0).val; omega
  · show win0_5.index t (1 : Fin 2) * 256 + 1 * (y 1).val = (y 1).val; omega

/-- An index of the array is in point `t`'s block iff each coordinate is in the block's range on its axis. -/
theorem mem_blk0 (t : Fin cfg0.N) (i : S4096x256.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_call0_v0).slice (win0_5.rect t)).set ↔ _
  rw [View.set_slice_whole, Rect.mem_set_unit]
  exact Iff.rfl

/-- Row `r` of the array is in the block of point `r / 256`. -/
theorem cover0 (i : S4096x256.Idx) :
    ∃ t : Fin cfg0.N, (cfg0.win 5).flush t = true ∧ i ∈ ((cfg0.win 5).blk t).view.set := by
  have hi0 : (i 0).val < 4096 := (i 0).isLt
  have hi1 : (i 1).val < 256 := (i 1).isLt
  have hN : grid0.N = 16 := N_0
  obtain ⟨t, ht⟩ : ∃ t : Fin cfg0.N, t.val = (i 0).val / 256 := ⟨⟨(i 0).val / 256, by show _ < grid0.N; omega⟩, rfl⟩
  obtain ⟨-, -, -, -, -, -, -, -, -, -, e50, e51, -⟩ := idx_facts0 t
  refine ⟨t, flush0_5 t, ?_⟩
  rw [mem_blk0]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 256 ≤ (i 1).val ∧ (i 1).val < win0_5.index t (1 : Fin 2) * 256 + 256
    omega

/-- The result array after the launch: the layer of the arrays the launch found. -/
theorem final0 (c : Dev nD) :
    (dat0 (F := Ideal) V c).arrAt 5 cfg0.N = fun idx : S4096x256.Idx =>
      Cert.GatSpec.layerK c02 cneg (m2 (V c main_arg0 : S4096x256.Idx → EReal)) (m2 (V c main_arg1 : S4096x4096.Idx → EReal)) (m2 (V c main_arg2 : S256x256.Idx → EReal)) (col (V c main_arg3 : S256x1.Idx → EReal)) (col (V c main_arg4 : S256x1.Idx → EReal)) (idx 0) (idx 1) :=
  (dat0 V c).arrAt_eq_of_cover 5 (layerArr0 V c) (fun t _ => flushed0_eq V c t) (cover0)

end Launch0

/-! ## The second launch

The same reading, over the second launch's windows: its `x` is the first launch's result array. -/

section Launch1
variable (V : (c : Dev nD) → (b : Ref sig .tc) → Buf (Elt Ideal) ((c : Thread nD τ).loc b))

/-- The printed index maps over the grid: the four whole-array windows sit at block (0, 0) at every point, the
    adjacency window and the result window at block (t, 0); and the grid coordinate of point `t` is `t`. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ (grid1.coords t 0).val = t.val :=
  (by decide +kernel : ∀ t : Fin grid1.N, _)

/-- Window 0's block is its whole array at every point. -/
theorem iblk1_0_eq (c : Dev nD) (t : Fin cfg1.N) :
    (iblk1 (F := Ideal) V c 0 t : S4096x256.Idx → EReal) = (V c main_call0_v0 : S4096x256.Idx → EReal) := by
  obtain ⟨e00, e01, e10, e11, e20, e21, e30, e31, -⟩ := idx_facts1 t
  funext y
  unfold iblk1
  rw [View.read_apply]
  show (V c main_call0_v0 : S4096x256.Idx → EReal) (((cfg1.win 0).blk t).view.emb y) = (V c main_call0_v0 : S4096x256.Idx → EReal) y
  refine congrArg _ (funext fun a => Fin.ext ?_)
  match a with
  | ⟨0, _⟩ => show win1_0.index t (0 : Fin 2) * 4096 + 1 * (y 0).val = (y 0).val; omega
  | ⟨1, _⟩ => show win1_0.index t (1 : Fin 2) * 256 + 1 * (y 1).val = (y 1).val; omega

/-- Window 1's block is its whole array at every point. -/
theorem iblk1_1_eq (c : Dev nD) (t : Fin cfg1.N) :
    (iblk1 (F := Ideal) V c 1 t : S256x256.Idx → EReal) = (V c main_arg5 : S256x256.Idx → EReal) := by
  obtain ⟨e00, e01, e10, e11, e20, e21, e30, e31, -⟩ := idx_facts1 t
  funext y
  unfold iblk1
  rw [View.read_apply]
  show (V c main_arg5 : S256x256.Idx → EReal) (((cfg1.win 1).blk t).view.emb y) = (V c main_arg5 : S256x256.Idx → EReal) y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- Window 2's block is its whole array at every point. -/
theorem iblk1_2_eq (c : Dev nD) (t : Fin cfg1.N) :
    (iblk1 (F := Ideal) V c 2 t : S256x1.Idx → EReal) = (V c main_arg6 : S256x1.Idx → EReal) := by
  obtain ⟨e00, e01, e10, e11, e20, e21, e30, e31, -⟩ := idx_facts1 t
  funext y
  unfold iblk1
  rw [View.read_apply]
  show (V c main_arg6 : S256x1.Idx → EReal) (((cfg1.win 2).blk t).view.emb y) = (V c main_arg6 : S256x1.Idx → EReal) y
  refine congrArg _ (funext fun a => Fin.ext ?_)
  match a with
  | ⟨0, _⟩ => show win1_2.index t (0 : Fin 2) * 256 + 1 * (y 0).val = (y 0).val; omega
  | ⟨1, _⟩ => show win1_2.index t (1 : Fin 2) * 1 + 1 * (y 1).val = (y 1).val; omega

/-- Window 3's block is its whole array at every point. -/
theorem iblk1_3_eq (c : Dev nD) (t : Fin cfg1.N) :
    (iblk1 (F := Ideal) V c 3 t : S256x1.Idx → EReal) = (V c main_arg7 : S256x1.Idx → EReal) := by
  obtain ⟨e00, e01, e10, e11, e20, e21, e30, e31, -⟩ := idx_facts1 t
  funext y
  unfold iblk1
  rw [View.read_apply]
  show (V c main_arg7 : S256x1.Idx → EReal) (((cfg1.win 3).blk t).view.emb y) = (V c main_arg7 : S256x1.Idx → EReal) y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 1 + 1 * (y 1).val = (y 1).val; omega

/-- The adjacency window's block at point `t` is rows `256 t … 256 t + 255` of the adjacency. -/
theorem iblk1_4_apply (c : Dev nD) (t : Fin cfg1.N) (p : Fin 256) (j : Fin 4096) :
    (iblk1 (F := Ideal) V c 4 t : S256x4096.Idx → EReal) (ix2 p j) = (V c main_arg1 : S4096x4096.Idx → EReal) (ix2 (rowOf (Fin.cast N_1 t) p) j) := by
  obtain ⟨-, -, -, -, -, -, -, -, e40, e41, -⟩ := idx_facts1 t
  unfold iblk1
  rw [View.read_apply]
  show (V c main_arg1 : S4096x4096.Idx → EReal) (((cfg1.win 4).blk t).view.emb (ix2 p j)) = (V c main_arg1 : S4096x4096.Idx → EReal) (ix2 (rowOf (Fin.cast N_1 t) p) j)
  refine congrArg _ (funext fun a => Fin.ext ?_)
  match a with
  | ⟨0, _⟩ => show win1_4.index t (0 : Fin 2) * 256 + 1 * p.val = 256 * t.val + p.val; omega
  | ⟨1, _⟩ => show win1_4.index t (1 : Fin 2) * 4096 + 1 * j.val = j.val; omega

/-! ### What the first point leaves in the three scratch arrays, read at an index -/

theorem featS1_apply (x0 : Vec Ideal S4096x256 .f32) (x1 : Vec Ideal S256x256 .f32) (i : Fin 4096) (k : Fin 256) :
    featS1 x0 x1 (ix2 i k) = feat (m2 x0) (m2 x1) i k := by
  unfold featS1
  rw [View.canon_unit_zero zero2, View.ld_unit_zero zero2, View.ld_unit_zero zero2]
  exact feat1_apply x0 x1 i k

theorem featBS1_apply (x0 : Vec Ideal S4096x256 .f32) (x1 : Vec Ideal S256x256 .f32) (i : Fin 4096) (k : Fin 256) :
    featBS1 x0 x1 (ix2 i k) = feat (m2 x0) (m2 x1) i k := by
  unfold featBS1
  rw [View.canon_unit_zero zero2, View.ld_unit_zero zero2, View.ld_unit_zero zero2]
  exact featb1_apply x0 x1 i k

theorem dstS1_apply (x0 : Vec Ideal S4096x256 .f32) (x1 : Vec Ideal S256x256 .f32) (x3 : Vec Ideal S256x1 .f32)
    (r : Fin 8) (j : Fin 4096) :
    dstS1 x0 x1 x3 (ix2 r j) = dstScoreK (feat (m2 x0) (m2 x1)) (col x3) j := by
  unfold dstS1
  rw [View.canon_unit_zero zero2, View.ld_unit_zero zero2, View.ld_unit_zero zero2, View.ld_unit_zero zero2]
  exact dst1_apply x0 x1 x3 r j

/-- The first scratch array holds the features of the launch's `x` and `W`. -/
theorem Hs1_apply (c : Dev nD) (i : Fin 4096) (k : Fin 256) :
    Hs1 (F := Ideal) V c (ix2 i k) = (feat (m2 (V c main_call0_v0 : S4096x256.Idx → EReal)) (m2 (V c main_arg5 : S256x256.Idx → EReal))) i k := by
  unfold Hs1
  exact (congrArg₂ (fun (a : S4096x256.Idx → EReal) (b : S256x256.Idx → EReal) => featS1 (F := Ideal) a b (ix2 i k))
    (iblk1_0_eq V c t1_0) (iblk1_1_eq V c t1_0)).trans (featS1_apply _ _ i k)

/-- So does the second. -/
theorem HBs1_apply (c : Dev nD) (i : Fin 4096) (k : Fin 256) :
    HBs1 (F := Ideal) V c (ix2 i k) = (feat (m2 (V c main_call0_v0 : S4096x256.Idx → EReal)) (m2 (V c main_arg5 : S256x256.Idx → EReal))) i k := by
  unfold HBs1
  exact (congrArg₂ (fun (a : S4096x256.Idx → EReal) (b : S256x256.Idx → EReal) => featBS1 (F := Ideal) a b (ix2 i k))
    (iblk1_0_eq V c t1_0) (iblk1_1_eq V c t1_0)).trans (featBS1_apply _ _ i k)

/-- Every row of the third holds the target scores. -/
theorem DTs1_apply (c : Dev nD) (r : Fin 8) (j : Fin 4096) :
    DTs1 (F := Ideal) V c (ix2 r j) = dstScoreK (feat (m2 (V c main_call0_v0 : S4096x256.Idx → EReal)) (m2 (V c main_arg5 : S256x256.Idx → EReal))) (col (V c main_arg7 : S256x1.Idx → EReal)) j := by
  unfold DTs1
  have e := iblk1_3_eq V c t1_0
  exact ((congrArg₂ (fun (a : S4096x256.Idx → EReal) (b : S256x256.Idx → EReal) =>
      dstS1 (F := Ideal) a b (iblk1 V c 3 t1_0) (ix2 r j)) (iblk1_0_eq V c t1_0) (iblk1_1_eq V c t1_0)).trans
    (congrArg (fun (a : S256x1.Idx → EReal) => dstS1 (F := Ideal) (V c main_call0_v0 : S4096x256.Idx → EReal) (V c main_arg5 : S256x256.Idx → EReal) a (ix2 r j)) e)).trans
    (dstS1_apply _ _ _ r j)

/-! ### The two partial loads of a point -/

/-- The 256 rows of the first scratch array a point loads are rows `256 t … 256 t + 255`. -/
theorem ld_rows1 (s0 : Vec Ideal S4096x256 .f32) (i : grid1.Coords) (tt : Fin 16) (hi : (i 0).val = tt.val)
    (p a : Fin 256) : View.ld s0 (rH1 i) (ix2 p a) = s0 (ix2 (rowOf tt p) a) := by
  show s0 ((rH1 i).idx (ix2 p a)) = _
  refine congrArg s0 (funext fun x => Fin.ext ?_)
  match x with
  | ⟨0, _⟩ =>
    show k1_off1 i 0 + 1 * p.val = 256 * tt.val + p.val
    rw [k1_off1_eq i]
    show 256 * (i 0).val + 1 * p.val = 256 * tt.val + p.val
    omega
  | ⟨1, _⟩ =>
    show k1_off1 i 1 + 1 * a.val = a.val
    rw [k1_off1_eq i]
    show 0 + 1 * a.val = a.val
    omega

/-- The one row of the third scratch array a point loads is its row 0. -/
theorem ld_row1 (s2 : Vec Ideal S8x4096 .f32) (j : Fin 4096) :
    View.ld s2 rR1 (ix2 (0 : Fin 1) j) = s2 (ix2 (0 : Fin 8) j) := by
  show s2 (rR1.idx (ix2 (0 : Fin 1) j)) = _
  refine congrArg s2 (funext fun x => Fin.ext ?_)
  match x with
  | ⟨0, _⟩ => rfl
  | ⟨1, _⟩ => show 0 + 1 * j.val = j.val; omega

/-! ### The block a point stores -/

/-- The stored block at `(p, k)`, from what the point's operands hold: the layer's value at row `256 t + p`. -/
theorem outS1_apply (h : Fin 4096 → Fin 256 → EReal) (d : Fin 4096 → EReal) (adj : Fin 4096 → Fin 4096 → EReal)
    (i : grid1.Coords) (tt : Fin 16) (hi : (i 0).val = tt.val)
    (x2 : Vec Ideal S256x1 .f32) (x4 : Vec Ideal S256x4096 .f32)
    (s0 : Vec Ideal S4096x256 .f32) (s1 : Vec Ideal S4096x256 .bf16) (s2 : Vec Ideal S8x4096 .f32)
    (hs0 : ∀ (i : Fin 4096) (k : Fin 256), s0 (ix2 i k) = h i k)
    (hs1 : ∀ (j : Fin 4096) (k : Fin 256), s1 (ix2 j k) = h j k)
    (hs2 : ∀ j : Fin 4096, s2 (ix2 (0 : Fin 8) j) = d j)
    (hx4 : ∀ (p : Fin 256) (j : Fin 4096), x4 (ix2 p j) = adj (rowOf tt p) j) (p k : Fin 256) :
    outS1 i x2 x4 s0 s1 s2 (ix2 p k)
      = eluK (aggK (logits c02 cneg adj (srcScore h (col x2)) d (rowOf tt p)) h k) := by
  unfold outS1
  rw [View.canon_unit_zero zero2]
  simp only [View.ld_unit_zero (S := S256x1) zero2, View.ld_unit_zero (S := S256x4096) zero2,
    View.ld_unit_zero (S := S4096x256) zero2]
  exact out1_apply h d adj x2 tt (View.ld s0 (rH1 i)) (View.ld s2 rR1) x4 s1
    (fun p a => (ld_rows1 s0 i tt hi p a).trans (hs0 _ _)) (fun j => (ld_row1 s2 j).trans (hs2 j)) hx4 hs1 p k

/-- The launch's result as one function of the arrays it found. -/
def layerArr1 (c : Dev nD) : S4096x256.Idx → EReal := fun idx =>
  layerK c02 cneg (m2 (V c main_call0_v0 : S4096x256.Idx → EReal)) (m2 (V c main_arg1 : S4096x4096.Idx → EReal)) (m2 (V c main_arg5 : S256x256.Idx → EReal)) (col (V c main_arg6 : S256x1.Idx → EReal)) (col (V c main_arg7 : S256x1.Idx → EReal)) (idx 0) (idx 1)

/-- Point `t`'s stored block at `(p, k)` is the layer at row `256 t + p`. -/
theorem outB1_apply (c : Dev nD) (t : Fin cfg1.N) (p k : Fin 256) :
    outB1 (F := Ideal) V c t (ix2 p k)
      = layerK c02 cneg (m2 (V c main_call0_v0 : S4096x256.Idx → EReal)) (m2 (V c main_arg1 : S4096x4096.Idx → EReal)) (m2 (V c main_arg5 : S256x256.Idx → EReal)) (col (V c main_arg6 : S256x1.Idx → EReal)) (col (V c main_arg7 : S256x1.Idx → EReal)) (rowOf (Fin.cast N_1 t) p) k := by
  unfold outB1 layerK
  refine (congrArg (fun (a : S256x1.Idx → EReal) =>
    outS1 (F := Ideal) (grid1.coords t) a (iblk1 V c 4 t) (Hs1 V c) (HBs1 V c) (DTs1 V c) (ix2 p k)) (iblk1_2_eq V c t)).trans ?_
  exact outS1_apply (feat (m2 (V c main_call0_v0 : S4096x256.Idx → EReal)) (m2 (V c main_arg5 : S256x256.Idx → EReal))) (dstScoreK (feat (m2 (V c main_call0_v0 : S4096x256.Idx → EReal)) (m2 (V c main_arg5 : S256x256.Idx → EReal))) (col (V c main_arg7 : S256x1.Idx → EReal))) (m2 (V c main_arg1 : S4096x4096.Idx → EReal)) (grid1.coords t) (Fin.cast N_1 t)
    (idx_facts1 t).2.2.2.2.2.2.2.2.2.2.2.2 (V c main_arg6 : S256x1.Idx → EReal) (iblk1 V c 4 t) (Hs1 V c) (HBs1 V c) (DTs1 V c)
    (Hs1_apply V c) (HBs1_apply V c) (fun j => DTs1_apply V c 0 j) (iblk1_4_apply V c t) p k

/-- The same at an index `y` of the block and the array index `z` under it. -/
theorem outB1_read (c : Dev nD) (t : Fin cfg1.N) (y : S256x256.Idx) (z : S4096x256.Idx)
    (hz0 : (z 0).val = 256 * t.val + (y 0).val) (hz1 : (z 1).val = (y 1).val) :
    outB1 (F := Ideal) V c t y = layerArr1 V c z := by
  obtain ⟨p, k, rfl⟩ : ∃ (p : Fin 256) (k : Fin 256), y = ix2 p k := ⟨y 0, y 1, eq_ix2 y⟩
  rw [outB1_apply]
  unfold layerArr1
  have h0 : rowOf (Fin.cast N_1 t) p = z 0 := Fin.ext (by rw [rowOf_val]; exact hz0.symm)
  have h1 : k = z 1 := Fin.ext hz1.symm
  rw [h0, h1]

/-! ### From the blocks to the array -/

/-- What point `t` writes back is block `t` of the layer's array. -/
theorem flushed1_eq (c : Dev nD) (t : Fin cfg1.N) :
    (dat1 (F := Ideal) V c).flushed 5 t = ((cfg1.win 5).blk t).view.read (Elt Ideal) (layerArr1 V c) := by
  obtain ⟨-, -, -, -, -, -, -, -, -, -, e50, e51, -⟩ := idx_facts1 t
  show (cfg1.win 5).cut (grid1.coords t) ((dat1 V c).after 5 t) = _
  rw [after1_5]
  funext y
  rw [View.read_apply]
  show outB1 V c t y = layerArr1 V c (((cfg1.win 5).blk t).view.emb y)
  refine outB1_read V c t y _ ?_ ?_
  · show win1_5.index t (0 : Fin 2) * 256 + 1 * (y 0).val = 256 * t.val + (y 0).val; omega
  · show win1_5.index t (1 : Fin 2) * 256 + 1 * (y 1).val = (y 1).val; omega

/-- An index of the array is in point `t`'s block iff each coordinate is in the block's range on its axis. -/
theorem mem_blk1 (t : Fin cfg1.N) (i : S4096x256.Idx) :
    i ∈ ((cfg1.win 5).blk t).view.set ↔ ∀ a : Fin 2, win1_5.index t a * S256x256.size a ≤ (i a).val
      ∧ (i a).val < win1_5.index t a * S256x256.size a + S256x256.size a := by
  show i ∈ ((View.whole main_v0).slice (win1_5.rect t)).set ↔ _
  rw [View.set_slice_whole, Rect.mem_set_unit]
  exact Iff.rfl

/-- Row `r` of the array is in the block of point `r / 256`. -/
theorem cover1 (i : S4096x256.Idx) :
    ∃ t : Fin cfg1.N, (cfg1.win 5).flush t = true ∧ i ∈ ((cfg1.win 5).blk t).view.set := by
  have hi0 : (i 0).val < 4096 := (i 0).isLt
  have hi1 : (i 1).val < 256 := (i 1).isLt
  have hN : grid1.N = 16 := N_1
  obtain ⟨t, ht⟩ : ∃ t : Fin cfg1.N, t.val = (i 0).val / 256 := ⟨⟨(i 0).val / 256, by show _ < grid1.N; omega⟩, rfl⟩
  obtain ⟨-, -, -, -, -, -, -, -, -, -, e50, e51, -⟩ := idx_facts1 t
  refine ⟨t, flush1_5 t, ?_⟩
  rw [mem_blk1]
  intro a
  match a with
  | ⟨0, _⟩ =>
    show win1_5.index t (0 : Fin 2) * 256 ≤ (i 0).val ∧ (i 0).val < win1_5.index t (0 : Fin 2) * 256 + 256
    omega
  | ⟨1, _⟩ =>
    show win1_5.index t (1 : Fin 2) * 256 ≤ (i 1).val ∧ (i 1).val < win1_5.index t (1 : Fin 2) * 256 + 256
    omega

/-- The result array after the launch: the layer of the arrays the launch found. -/
theorem final1 (c : Dev nD) :
    (dat1 (F := Ideal) V c).arrAt 5 cfg1.N = fun idx : S4096x256.Idx =>
      Cert.GatSpec.layerK c02 cneg (m2 (V c main_call0_v0 : S4096x256.Idx → EReal)) (m2 (V c main_arg1 : S4096x4096.Idx → EReal)) (m2 (V c main_arg5 : S256x256.Idx → EReal)) (col (V c main_arg6 : S256x1.Idx → EReal)) (col (V c main_arg7 : S256x1.Idx → EReal)) (idx 0) (idx 1) :=
  (dat1 V c).arrAt_eq_of_cover 5 (layerArr1 V c) (fun t _ => flushed1_eq V c t) (cover1)

end Launch1

end Cert.KernelIdeal.Hand

end
-- ==== Proof.RefTerm.lean ====
/-
  The reference's @main as ONE pure function of its argument arrays: a graph-attention layer written with the host's
  whole-array operations exactly as @main and the functions it calls apply them, one `let` per StableHLO value, and the
  network as two such layers over one adjacency. The run of @main ends with its result buffer at `refNet` of the
  arguments; a value proof reads `refLayer` at an index.
-/
import proofs.«179434_g75539884802175_cont_sun_m_1234_5_alg».proof.ReferenceIdeal

noncomputable section

namespace Cert.ReferenceIdeal.Hand

open Idealize.ShloMosaic Cert.ReferenceIdeal Cert.ReferenceIdeal.Facts₀

variable {F : FTy → Type} [FloatOps F] [Facts]

/-- One layer: `h = x W`; logits `(h asrc) + (h adst)ᵀ`; leaky rectification; the adjacency mask; the row softmax
    (maximum, shifted exponential, row sum, quotient); the weighted mean of `h`; the exponential linear unit. -/
def refLayer (x : FVec F S4096x256 .f32) (adj : FVec F S4096x4096 .f32) (W : FVec F S256x256 .f32)
    (asrc adst : FVec F S256x1 .f32) : FVec F S4096x256 .f32 :=
  let v0 : FVec F S4096x256 .f32 := Host.dotGeneral dot_S4096x256_S256x256_S4096x256_1_0_0_1_n_n none x W
  let v1 : FVec F S4096x1 .f32 := Host.dotGeneral dot_S4096x256_S256x1_S4096x1_1_0_0_1_n_n none v0 asrc
  let v2 : FVec F S4096x1 .f32 := Host.dotGeneral dot_S4096x256_S256x1_S4096x1_1_0_0_1_n_n none v0 adst
  let v3 : FVec F S1x4096 .f32 := transpose S1x4096 [1, 0] v2 transposes_S4096x1_S1x4096_1_0
  let v4 : FVec F S4096x4096 .f32 := broadcastInDim S4096x4096 ![0, 1] bcast_S4096x1_S4096x4096_0_1 v1
  let v5 : FVec F S4096x4096 .f32 := broadcastInDim S4096x4096 ![0, 1] bcast_S1x4096_S4096x4096_0_1 v3
  let v6 : FVec F S4096x4096 .f32 := addf v4 v5
  let cst : FVec F S_ .f32 := constant S_ .f32 0x3E4CCCCD#32
  -- leaky_relu
  let l_cst : FVec F S_ .f32 := constant S_ .f32 0x00000000#32
  let l_v0 : FVec F S4096x4096 .f32 := broadcastInDim S4096x4096 ![] bcast_S_S4096x4096 l_cst
  let l_v1 : IVec S4096x4096 1 := cmpf .oge v6 l_v0
  let l_v2 : FVec F S_ .f32 := id cst
  let l_v3 : FVec F S4096x4096 .f32 := broadcastInDim S4096x4096 ![] bcast_S_S4096x4096 l_v2
  let l_v4 : FVec F S4096x4096 .f32 := mulf l_v3 v6
  let v7 : FVec F S4096x4096 .f32 := select l_v1 v6 l_v4
  let cst_0 : FVec F S_ .f32 := constant S_ .f32 0x00000000#32
  let v8 : FVec F S4096x4096 .f32 := broadcastInDim S4096x4096 ![] bcast_S_S4096x4096 cst_0
  let v9 : IVec S4096x4096 1 := cmpf .ogt adj v8
  let cst_1 : FVec F S_ .f32 := constant S_ .f32 0xCE6E6B28#32
  -- where
  let w_v0 : FVec F S4096x4096 .f32 := broadcastInDim S4096x4096 ![] bcast_S_S4096x4096 cst_1
  let v10 : FVec F S4096x4096 .f32 := select v9 v7 w_v0
  let cst_2 : FVec F S_ .f32 := constant S_ .f32 0xFF800000#32
  let v11 : FVec F S4096 .f32 := Host.reduce FloatOps.maximumf v10 cst_2 reducesTo_S4096x4096_S4096_d1 h_S_
  let cst_3 : FVec F S_ .f32 := constant S_ .f32 0xFF800000#32
  let v12 : FVec F S4096 .f32 := broadcastInDim S4096 ![] bcast_S_S4096 cst_3
  let v13 : FVec F S4096 .f32 := maximumf v12 v11
  let v14 : FVec F S4096x1 .f32 := broadcastInDim S4096x1 ![0] bcast_S4096_S4096x1_0 v13
  let v15 : FVec F S4096x4096 .f32 := broadcastInDim S4096x4096 ![0, 1] bcast_S4096x1_S4096x4096_0_1 v14
  let v16 : FVec F S4096x4096 .f32 := subf v10 v15
  let v17 : FVec F S4096x4096 .f32 := Host.exp v16
  let cst_4 : FVec F S_ .f32 := constant S_ .f32 0x00000000#32
  let v18 : FVec F S4096 .f32 := Host.reduceAdd v17 cst_4 reducesTo_S4096x4096_S4096_d1 h_S_
  let v19 : FVec F S4096x1 .f32 := broadcastInDim S4096x1 ![0] bcast_S4096_S4096x1_0 v18
  let v20 : FVec F S4096x4096 .f32 := broadcastInDim S4096x4096 ![0, 1] bcast_S4096x1_S4096x4096_0_1 v19
  let v21 : FVec F S4096x4096 .f32 := Host.divf v17 v20
  let v22 : FVec F S4096x256 .f32 := Host.dotGeneral dot_S4096x4096_S4096x256_S4096x256_1_0_0_1_n_n none v21 v0
  -- elu
  let e_cst : FVec F S_ .f32 := constant S_ .f32 0x00000000#32
  let e_v0 : FVec F S4096x256 .f32 := broadcastInDim S4096x256 ![] bcast_S_S4096x256 e_cst
  let e_v1 : IVec S4096x256 1 := cmpf .ogt v22 e_v0
  let e_cst_0 : FVec F S_ .f32 := constant S_ .f32 0x00000000#32
  let e_v2 : FVec F S4096x256 .f32 := broadcastInDim S4096x256 ![] bcast_S_S4096x256 e_cst_0
  let e_v3 : IVec S4096x256 1 := cmpf .ogt v22 e_v2
  let e_cst_1 : FVec F S_ .f32 := constant S_ .f32 0x00000000#32
  let ew_v0 : FVec F S_ .f32 := id e_cst_1
  let ew_v1 : FVec F S4096x256 .f32 := broadcastInDim S4096x256 ![] bcast_S_S4096x256 ew_v0
  let e_v4 : FVec F S4096x256 .f32 := select e_v3 ew_v1 v22
  let e_v5 : FVec F S4096x256 .f32 := Host.expm1 e_v4
  let e_cst_2 : FVec F S_ .f32 := constant S_ .f32 0x3F800000#32
  let e_v6 : FVec F S4096x256 .f32 := broadcastInDim S4096x256 ![] bcast_S_S4096x256 e_cst_2
  let e_v7 : FVec F S4096x256 .f32 := mulf e_v6 e_v5
  select e_v1 v22 e_v7

/-- The network: two layers over one adjacency, the second on the first's result. -/
def refNet (x : FVec F S4096x256 .f32) (adj : FVec F S4096x4096 .f32) (W1 : FVec F S256x256 .f32)
    (s1 d1 : FVec F S256x1 .f32) (W2 : FVec F S256x256 .f32) (s2 d2 : FVec F S256x1 .f32) : FVec F S4096x256 .f32 :=
  refLayer (refLayer x adj W1 s1 d1) adj W2 s2 d2

end Cert.ReferenceIdeal.Hand

end
-- ==== Proof.RefRun.lean ====
/-
  The run of the reference's @main, read back: @main with the functions it calls unfolded at their calls is one
  straight line of 102 whole-array operations, two graph-attention layers of 51 each. Every weakly fair execution
  terminates with the result buffer at `refNet` of the arguments' launch contents and the arguments unchanged.
-/
import proofs.«179434_g75539884802175_cont_sun_m_1234_5_alg».proof.Proof.Gen.ReferenceIdeal
import proofs.«179434_g75539884802175_cont_sun_m_1234_5_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-! ## @main as a list of operations

The first layer's 51 operations, then the second's. Each layer: @main's own eight (the feature product, the two score
products, the transpose, the two broadcasts, the sum, the slope), `leaky_relu`'s seven into its call's buffers (the
zero, its broadcast, the comparison, the slope converted and broadcast, the product, `_where`'s select), four of
@main's (the zero, its broadcast, the adjacency's comparison, the mask value), `_where_0`'s two (the broadcast, the
select), the row softmax's fourteen and the weighted mean, then `elu`'s fifteen (the zero broadcast and compared twice,
the third zero, `_where_1`'s convert, broadcast and select, the exponential less one, the one and its broadcast, the
product, `_where_2`'s select). -/

/-- The first layer: `%0 … %23`. -/
abbrev ops1 : List (HloOp τ sig (Elt F)) :=
  [ binary main_arg0 main_arg2 main_v0 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    binary main_v0 main_arg3 main_v1 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    binary main_v0 main_arg4 main_v2 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_v2 main_v3 ((transpose S1x4096 [1, 0] · transposes_S4096x1_S1x4096_1_0) : (⟨S4096x1, .f32⟩ : BufTy).Contents (Elt F) → (⟨S1x4096, .f32⟩ : BufTy).Contents (Elt F)),
    unary main_v1 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S4096x4096 ![] bcast_S_S4096x4096),
    TRef.binary (.of main_v6 : TRef sig ⟨S4096x4096, .f32⟩) main_call0.v0 main_call0.v1 (cmpf .oge),
    TRef.unary (.of main_cst : TRef sig ⟨S_, .f32⟩) main_call0.v2 id,
    TRef.unary main_call0.v2 main_call0.v3 (broadcastInDim S4096x4096 ![] bcast_S_S4096x4096),
    TRef.binary main_call0.v3 (.of main_v6 : TRef sig ⟨S4096x4096, .f32⟩) main_call0.v4 mulf,
    TRef.ternary main_call0.v1 (.of main_v6 : TRef sig ⟨S4096x4096, .f32⟩) main_call0.v4 main_call0.call0.v0 select,
    nullary main_cst_0 (constant S_ .f32 0x00000000#32),
    unary main_cst_0 main_v8 (broadcastInDim S4096x4096 ![] bcast_S_S4096x4096 : (⟨S_, .f32⟩ : BufTy).Contents (Elt F) → (⟨S4096x4096, .f32⟩ : BufTy).Contents (Elt F)),
    binary main_arg1 main_v8 main_v9 (cmpf .ogt : (⟨S4096x4096, .f32⟩ : BufTy).Contents (Elt F) → (⟨S4096x4096, .f32⟩ : BufTy).Contents (Elt F) → (⟨S4096x4096, .i1⟩ : BufTy).Contents (Elt F)),
    nullary main_cst_1 (constant S_ .f32 0xCE6E6B28#32),
    TRef.unary (.of main_cst_1 : TRef sig ⟨S_, .f32⟩) main_call1.v0 (broadcastInDim S4096x4096 ![] bcast_S_S4096x4096),
    TRef.ternary (.of main_v9 : TRef sig ⟨S4096x4096, .i1⟩) (.of main_v7 : TRef sig ⟨S4096x4096, .f32⟩) main_call1.v0 main_call1.v1 select,
    nullary main_cst_2 (constant S_ .f32 0xFF800000#32),
    binary main_v10 main_cst_2 main_v11 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v12 (broadcastInDim S4096 ![] bcast_S_S4096 : (⟨S_, .f32⟩ : BufTy).Contents (Elt F) → (⟨S4096, .f32⟩ : BufTy).Contents (Elt F)),
    binary main_v12 main_v11 main_v13 (maximumf : (⟨S4096, .f32⟩ : BufTy).Contents (Elt F) → (⟨S4096, .f32⟩ : BufTy).Contents (Elt F) → (⟨S4096, .f32⟩ : BufTy).Contents (Elt F)),
    unary main_v13 main_v14 (broadcastInDim S4096x1 ![0] bcast_S4096_S4096x1_0 : (⟨S4096, .f32⟩ : BufTy).Contents (Elt F) → (⟨S4096x1, .f32⟩ : BufTy).Contents (Elt F)),
    unary main_v14 main_v15 (broadcastInDim S4096x4096 ![0, 1] bcast_S4096x1_S4096x4096_0_1 : (⟨S4096x1, .f32⟩ : BufTy).Contents (Elt F) → (⟨S4096x4096, .f32⟩ : BufTy).Contents (Elt F)),
    binary main_v10 main_v15 main_v16 (subf : (⟨S4096x4096, .f32⟩ : BufTy).Contents (Elt F) → (⟨S4096x4096, .f32⟩ : BufTy).Contents (Elt F) → (⟨S4096x4096, .f32⟩ : BufTy).Contents (Elt F)),
    unary main_v16 main_v17 (Host.exp : (⟨S4096x4096, .f32⟩ : BufTy).Contents (Elt F) → (⟨S4096x4096, .f32⟩ : BufTy).Contents (Elt F)),
    nullary main_cst_4 (constant S_ .f32 0x00000000#32),
    binary main_v17 main_cst_4 main_v18 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v18 main_v19 (broadcastInDim S4096x1 ![0] bcast_S4096_S4096x1_0 : (⟨S4096, .f32⟩ : BufTy).Contents (Elt F) → (⟨S4096x1, .f32⟩ : BufTy).Contents (Elt F)),
    unary main_v19 main_v20 (broadcastInDim S4096x4096 ![0, 1] bcast_S4096x1_S4096x4096_0_1 : (⟨S4096x1, .f32⟩ : BufTy).Contents (Elt F) → (⟨S4096x4096, .f32⟩ : BufTy).Contents (Elt F)),
    binary main_v17 main_v20 main_v21 (Host.divf : (⟨S4096x4096, .f32⟩ : BufTy).Contents (Elt F) → (⟨S4096x4096, .f32⟩ : BufTy).Contents (Elt F) → (⟨S4096x4096, .f32⟩ : BufTy).Contents (Elt F)),
    binary main_v21 main_v0 main_v22 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    TRef.nullary main_call2.cst (constant S_ .f32 0x00000000#32),
    TRef.unary main_call2.cst main_call2.v0 (broadcastInDim S4096x256 ![] bcast_S_S4096x256),
    TRef.binary (.of main_v22 : TRef sig ⟨S4096x256, .f32⟩) main_call2.v0 main_call2.v1 (cmpf .ogt),
    TRef.nullary main_call2.cst_0 (constant S_ .f32 0x00000000#32),
    TRef.unary main_call2.cst_0 main_call2.v2 (broadcastInDim S4096x256 ![] bcast_S_S4096x256),
    TRef.binary (.of main_v22 : TRef sig ⟨S4096x256, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S4096x256 ![] bcast_S_S4096x256),
    TRef.ternary main_call2.v3 main_call2.call0.v1 (.of main_v22 : TRef sig ⟨S4096x256, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S4096x256 ![] bcast_S_S4096x256),
    TRef.binary main_call2.v6 main_call2.v5 main_call2.v7 mulf,
    TRef.ternary main_call2.v1 (.of main_v22 : TRef sig ⟨S4096x256, .f32⟩) main_call2.v7 main_call2.call1.v0 select ]

/-- The second layer: `%24 … %47`. -/
abbrev ops2 : List (HloOp τ sig (Elt F)) :=
  [ binary main_v23 main_arg5 main_v24 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    binary main_v24 main_arg6 main_v25 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    binary main_v24 main_arg7 main_v26 ((fun l r => Host.dotGeneral dot_S4096x256_S256x1_S4096x1_1_0_0_1_n_n none l r) : (⟨S4096x256, .f32⟩ : BufTy).Contents (Elt F) → (⟨S256x1, .f32⟩ : BufTy).Contents (Elt F) → (⟨S4096x1, .f32⟩ : BufTy).Contents (Elt F)),
    unary main_v26 main_v27 ((transpose S1x4096 [1, 0] · transposes_S4096x1_S1x4096_1_0) : (⟨S4096x1, .f32⟩ : BufTy).Contents (Elt F) → (⟨S1x4096, .f32⟩ : BufTy).Contents (Elt F)),
    unary main_v25 main_v28 (broadcastInDim S4096x4096 ![0, 1] bcast_S4096x1_S4096x4096_0_1 : (⟨S4096x1, .f32⟩ : BufTy).Contents (Elt F) → (⟨S4096x4096, .f32⟩ : BufTy).Contents (Elt F)),
    unary main_v27 main_v29 (broadcastInDim S4096x4096 ![0, 1] bcast_S1x4096_S4096x4096_0_1 : (⟨S1x4096, .f32⟩ : BufTy).Contents (Elt F) → (⟨S4096x4096, .f32⟩ : BufTy).Contents (Elt F)),
    binary main_v28 main_v29 main_v30 (addf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x3E4CCCCD#32),
    TRef.nullary main_call3.cst (constant S_ .f32 0x00000000#32),
    TRef.unary main_call3.cst main_call3.v0 (broadcastInDim S4096x4096 ![] bcast_S_S4096x4096),
    TRef.binary (.of main_v30 : TRef sig ⟨S4096x4096, .f32⟩) main_call3.v0 main_call3.v1 (cmpf .oge),
    TRef.unary (.of main_cst_5 : TRef sig ⟨S_, .f32⟩) main_call3.v2 id,
    TRef.unary main_call3.v2 main_call3.v3 (broadcastInDim S4096x4096 ![] bcast_S_S4096x4096),
    TRef.binary main_call3.v3 (.of main_v30 : TRef sig ⟨S4096x4096, .f32⟩) main_call3.v4 mulf,
    TRef.ternary main_call3.v1 (.of main_v30 : TRef sig ⟨S4096x4096, .f32⟩) main_call3.v4 main_call3.call0.v0 select,
    nullary main_cst_6 (constant S_ .f32 0x00000000#32),
    unary main_cst_6 main_v32 (broadcastInDim S4096x4096 ![] bcast_S_S4096x4096 : (⟨S_, .f32⟩ : BufTy).Contents (Elt F) → (⟨S4096x4096, .f32⟩ : BufTy).Contents (Elt F)),
    binary main_arg1 main_v32 main_v33 (cmpf .ogt : (⟨S4096x4096, .f32⟩ : BufTy).Contents (Elt F) → (⟨S4096x4096, .f32⟩ : BufTy).Contents (Elt F) → (⟨S4096x4096, .i1⟩ : BufTy).Contents (Elt F)),
    nullary main_cst_7 (constant S_ .f32 0xCE6E6B28#32),
    TRef.unary (.of main_cst_7 : TRef sig ⟨S_, .f32⟩) main_call4.v0 (broadcastInDim S4096x4096 ![] bcast_S_S4096x4096),
    TRef.ternary (.of main_v33 : TRef sig ⟨S4096x4096, .i1⟩) (.of main_v31 : TRef sig ⟨S4096x4096, .f32⟩) main_call4.v0 main_call4.v1 select,
    nullary main_cst_8 (constant S_ .f32 0xFF800000#32),
    binary main_v34 main_cst_8 main_v35 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_9 (constant S_ .f32 0xFF800000#32),
    unary main_cst_9 main_v36 (broadcastInDim S4096 ![] bcast_S_S4096 : (⟨S_, .f32⟩ : BufTy).Contents (Elt F) → (⟨S4096, .f32⟩ : BufTy).Contents (Elt F)),
    binary main_v36 main_v35 main_v37 (maximumf : (⟨S4096, .f32⟩ : BufTy).Contents (Elt F) → (⟨S4096, .f32⟩ : BufTy).Contents (Elt F) → (⟨S4096, .f32⟩ : BufTy).Contents (Elt F)),
    unary main_v37 main_v38 (broadcastInDim S4096x1 ![0] bcast_S4096_S4096x1_0 : (⟨S4096, .f32⟩ : BufTy).Contents (Elt F) → (⟨S4096x1, .f32⟩ : BufTy).Contents (Elt F)),
    unary main_v38 main_v39 (broadcastInDim S4096x4096 ![0, 1] bcast_S4096x1_S4096x4096_0_1 : (⟨S4096x1, .f32⟩ : BufTy).Contents (Elt F) → (⟨S4096x4096, .f32⟩ : BufTy).Contents (Elt F)),
    binary main_v34 main_v39 main_v40 (subf : (⟨S4096x4096, .f32⟩ : BufTy).Contents (Elt F) → (⟨S4096x4096, .f32⟩ : BufTy).Contents (Elt F) → (⟨S4096x4096, .f32⟩ : BufTy).Contents (Elt F)),
    unary main_v40 main_v41 (Host.exp : (⟨S4096x4096, .f32⟩ : BufTy).Contents (Elt F) → (⟨S4096x4096, .f32⟩ : BufTy).Contents (Elt F)),
    nullary main_cst_10 (constant S_ .f32 0x00000000#32),
    binary main_v41 main_cst_10 main_v42 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v42 main_v43 (broadcastInDim S4096x1 ![0] bcast_S4096_S4096x1_0 : (⟨S4096, .f32⟩ : BufTy).Contents (Elt F) → (⟨S4096x1, .f32⟩ : BufTy).Contents (Elt F)),
    unary main_v43 main_v44 (broadcastInDim S4096x4096 ![0, 1] bcast_S4096x1_S4096x4096_0_1 : (⟨S4096x1, .f32⟩ : BufTy).Contents (Elt F) → (⟨S4096x4096, .f32⟩ : BufTy).Contents (Elt F)),
    binary main_v41 main_v44 main_v45 (Host.divf : (⟨S4096x4096, .f32⟩ : BufTy).Contents (Elt F) → (⟨S4096x4096, .f32⟩ : BufTy).Contents (Elt F) → (⟨S4096x4096, .f32⟩ : BufTy).Contents (Elt F)),
    binary main_v45 main_v24 main_v46 ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F)),
    TRef.nullary main_call5.cst (constant S_ .f32 0x00000000#32),
    TRef.unary main_call5.cst main_call5.v0 (broadcastInDim S4096x256 ![] bcast_S_S4096x256),
    TRef.binary (.of main_v46 : TRef sig ⟨S4096x256, .f32⟩) main_call5.v0 main_call5.v1 (cmpf .ogt),
    TRef.nullary main_call5.cst_0 (constant S_ .f32 0x00000000#32),
    TRef.unary main_call5.cst_0 main_call5.v2 (broadcastInDim S4096x256 ![] bcast_S_S4096x256),
    TRef.binary (.of main_v46 : TRef sig ⟨S4096x256, .f32⟩) main_call5.v2 main_call5.v3 (cmpf .ogt),
    TRef.nullary main_call5.cst_1 (constant S_ .f32 0x00000000#32),
    TRef.unary main_call5.cst_1 main_call5.call0.v0 id,
    TRef.unary main_call5.call0.v0 main_call5.call0.v1 (broadcastInDim S4096x256 ![] bcast_S_S4096x256),
    TRef.ternary main_call5.v3 main_call5.call0.v1 (.of main_v46 : TRef sig ⟨S4096x256, .f32⟩) main_call5.call0.v2 select,
    TRef.unary main_call5.call0.v2 main_call5.v5 Host.expm1,
    TRef.nullary main_call5.cst_2 (constant S_ .f32 0x3F800000#32),
    TRef.unary main_call5.cst_2 main_call5.v6 (broadcastInDim S4096x256 ![] bcast_S_S4096x256),
    TRef.binary main_call5.v6 main_call5.v5 main_call5.v7 mulf,
    TRef.ternary main_call5.v1 (.of main_v46 : TRef sig ⟨S4096x256, .f32⟩) main_call5.v7 main_call5.call1.v0 select ]

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨binary_bufs_sub .., binary_bufs_sub .., binary_bufs_sub .., unary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., nullary_bufs_sub .., unary_bufs_sub .., binary_bufs_sub ..,
    nullary_bufs_sub .., unary_bufs_sub .., ternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem ops2_sub : (ops2 : List (HloOp τ sig (Elt F))).Forall fun op => op.bufs ⊆ tcRefs τ sig :=
  ⟨binary_bufs_sub .., binary_bufs_sub .., binary_bufs_sub .., unary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., nullary_bufs_sub .., unary_bufs_sub .., binary_bufs_sub ..,
    nullary_bufs_sub .., unary_bufs_sub .., ternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- Every operation of a layer determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

theorem ops_sub : (ops1 ++ ops2 : List (HloOp τ sig (Elt F))).Forall fun op => op.bufs ⊆ tcRefs τ sig :=
  List.forall_iff_forall_mem.2 fun op h => (List.mem_append.1 h).elim
    (List.forall_iff_forall_mem.1 ops1_sub op) (List.forall_iff_forall_mem.1 ops2_sub op)

theorem ops_fresh : ∀ op ∈ (ops1 ++ ops2 : List (HloOp τ sig (Elt F))), op.fresh = ∅ :=
  fun op h => (List.mem_append.1 h).elim
    (List.forall_iff_forall_mem.1 ops1_fresh op) (List.forall_iff_forall_mem.1 ops2_fresh op)

-- one hundred and two binds re-associated: the rewrite under the chain recurses once per statement
set_option maxRecDepth 8192 in
set_option maxHeartbeats 4000000 in
/-- @main is that straight line: the functions' definitions unfolded at their calls and the records at their fields,
    both sides are one chain of steps once sequencing is reassociated. -/
theorem main_eq (c : Dev nD) : main (F := F) c = seq (ops1 ++ ops2) := by
  rw [seq_append]
  simp only [main, main_part0, main_part1, fn_leaky_relu.body, fn_where.body, fn_where_0.body, fn_where_1.body,
    fn_where_2.body, fn_elu.body, seq, bind_assoc, pure_bind]

/-- The fold over two lines in a row is the second's over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- The first layer's fold at its result buffer is `refLayer` of what its five operands hold. -/
theorem ops1_out (V : Valuation τ sig (Elt F)) :
    after ops1 V (Proc.devRef (τ := τ) .tc main_v23)
      = refLayer (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) := by
  after_results_simp <;> (try simp only [TRef.ofBuf, TRef.toBuf, cast_eq]) <;> rfl

set_option maxRecDepth 8192 in
set_option maxHeartbeats 4000000 in
/-- The second layer's fold at its result buffer is `refLayer` of what its five operands hold. -/
theorem ops2_out (V : Valuation τ sig (Elt F)) :
    after ops2 V (Proc.devRef (τ := τ) .tc main_v47)
      = refLayer (V (Proc.devRef (τ := τ) .tc main_v23)) (V (Proc.devRef (τ := τ) .tc main_arg1)) (V (Proc.devRef (τ := τ) .tc main_arg5)) (V (Proc.devRef (τ := τ) .tc main_arg6)) (V (Proc.devRef (τ := τ) .tc main_arg7)) := by
  after_results_simp <;> (try simp only [TRef.ofBuf, TRef.toBuf, cast_eq]) <;> rfl

/-! Neither layer writes an argument buffer. -/

theorem ops1_arg0 (V : Valuation τ sig (Elt F)) : after ops1 V (Proc.devRef (τ := τ) .tc main_arg0) = V (Proc.devRef (τ := τ) .tc main_arg0) := by
  after_results_simp
theorem ops1_arg1 (V : Valuation τ sig (Elt F)) : after ops1 V (Proc.devRef (τ := τ) .tc main_arg1) = V (Proc.devRef (τ := τ) .tc main_arg1) := by
  after_results_simp
theorem ops1_arg2 (V : Valuation τ sig (Elt F)) : after ops1 V (Proc.devRef (τ := τ) .tc main_arg2) = V (Proc.devRef (τ := τ) .tc main_arg2) := by
  after_results_simp
theorem ops1_arg3 (V : Valuation τ sig (Elt F)) : after ops1 V (Proc.devRef (τ := τ) .tc main_arg3) = V (Proc.devRef (τ := τ) .tc main_arg3) := by
  after_results_simp
theorem ops1_arg4 (V : Valuation τ sig (Elt F)) : after ops1 V (Proc.devRef (τ := τ) .tc main_arg4) = V (Proc.devRef (τ := τ) .tc main_arg4) := by
  after_results_simp
theorem ops1_arg5 (V : Valuation τ sig (Elt F)) : after ops1 V (Proc.devRef (τ := τ) .tc main_arg5) = V (Proc.devRef (τ := τ) .tc main_arg5) := by
  after_results_simp
theorem ops1_arg6 (V : Valuation τ sig (Elt F)) : after ops1 V (Proc.devRef (τ := τ) .tc main_arg6) = V (Proc.devRef (τ := τ) .tc main_arg6) := by
  after_results_simp
theorem ops1_arg7 (V : Valuation τ sig (Elt F)) : after ops1 V (Proc.devRef (τ := τ) .tc main_arg7) = V (Proc.devRef (τ := τ) .tc main_arg7) := by
  after_results_simp

theorem ops2_arg0 (V : Valuation τ sig (Elt F)) : after ops2 V (Proc.devRef (τ := τ) .tc main_arg0) = V (Proc.devRef (τ := τ) .tc main_arg0) := by
  after_results_simp
theorem ops2_arg1 (V : Valuation τ sig (Elt F)) : after ops2 V (Proc.devRef (τ := τ) .tc main_arg1) = V (Proc.devRef (τ := τ) .tc main_arg1) := by
  after_results_simp
theorem ops2_arg2 (V : Valuation τ sig (Elt F)) : after ops2 V (Proc.devRef (τ := τ) .tc main_arg2) = V (Proc.devRef (τ := τ) .tc main_arg2) := by
  after_results_simp
theorem ops2_arg3 (V : Valuation τ sig (Elt F)) : after ops2 V (Proc.devRef (τ := τ) .tc main_arg3) = V (Proc.devRef (τ := τ) .tc main_arg3) := by
  after_results_simp
theorem ops2_arg4 (V : Valuation τ sig (Elt F)) : after ops2 V (Proc.devRef (τ := τ) .tc main_arg4) = V (Proc.devRef (τ := τ) .tc main_arg4) := by
  after_results_simp
theorem ops2_arg5 (V : Valuation τ sig (Elt F)) : after ops2 V (Proc.devRef (τ := τ) .tc main_arg5) = V (Proc.devRef (τ := τ) .tc main_arg5) := by
  after_results_simp
theorem ops2_arg6 (V : Valuation τ sig (Elt F)) : after ops2 V (Proc.devRef (τ := τ) .tc main_arg6) = V (Proc.devRef (τ := τ) .tc main_arg6) := by
  after_results_simp
theorem ops2_arg7 (V : Valuation τ sig (Elt F)) : after ops2 V (Proc.devRef (τ := τ) .tc main_arg7) = V (Proc.devRef (τ := τ) .tc main_arg7) := by
  after_results_simp

/-- The whole line's fold at the result buffer: the second layer over the first's result and the untouched
    adjacency and second weights. -/
theorem net_out (V : Valuation τ sig (Elt F)) :
    after (ops1 ++ ops2) V (Proc.devRef (τ := τ) .tc main_v47)
      = refNet (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) := by
  rw [after_app, ops2_out, ops1_out, ops1_arg1, ops1_arg5, ops1_arg6, ops1_arg7]
  rfl

theorem net_arg0 (V : Valuation τ sig (Elt F)) : after (ops1 ++ ops2) V (Proc.devRef (τ := τ) .tc main_arg0) = V (Proc.devRef (τ := τ) .tc main_arg0) := by
  rw [after_app, ops2_arg0, ops1_arg0]
theorem net_arg1 (V : Valuation τ sig (Elt F)) : after (ops1 ++ ops2) V (Proc.devRef (τ := τ) .tc main_arg1) = V (Proc.devRef (τ := τ) .tc main_arg1) := by
  rw [after_app, ops2_arg1, ops1_arg1]
theorem net_arg2 (V : Valuation τ sig (Elt F)) : after (ops1 ++ ops2) V (Proc.devRef (τ := τ) .tc main_arg2) = V (Proc.devRef (τ := τ) .tc main_arg2) := by
  rw [after_app, ops2_arg2, ops1_arg2]
theorem net_arg3 (V : Valuation τ sig (Elt F)) : after (ops1 ++ ops2) V (Proc.devRef (τ := τ) .tc main_arg3) = V (Proc.devRef (τ := τ) .tc main_arg3) := by
  rw [after_app, ops2_arg3, ops1_arg3]
theorem net_arg4 (V : Valuation τ sig (Elt F)) : after (ops1 ++ ops2) V (Proc.devRef (τ := τ) .tc main_arg4) = V (Proc.devRef (τ := τ) .tc main_arg4) := by
  rw [after_app, ops2_arg4, ops1_arg4]
theorem net_arg5 (V : Valuation τ sig (Elt F)) : after (ops1 ++ ops2) V (Proc.devRef (τ := τ) .tc main_arg5) = V (Proc.devRef (τ := τ) .tc main_arg5) := by
  rw [after_app, ops2_arg5, ops1_arg5]
theorem net_arg6 (V : Valuation τ sig (Elt F)) : after (ops1 ++ ops2) V (Proc.devRef (τ := τ) .tc main_arg6) = V (Proc.devRef (τ := τ) .tc main_arg6) := by
  rw [after_app, ops2_arg6, ops1_arg6]
theorem net_arg7 (V : Valuation τ sig (Elt F)) : after (ops1 ++ ops2) V (Proc.devRef (τ := τ) .tc main_arg7) = V (Proc.devRef (τ := τ) .tc main_arg7) := by
  rw [after_app, ops2_arg7, ops1_arg7]

/-- On the device, for any float values, from any memory with zero counters: every weakly fair execution of @main
    terminates with the result buffer at `refNet` of the arguments' launch contents and the arguments unchanged. -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v47) = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v47).trans (net_out _),
      (h c main_arg0).trans (net_arg0 _),
      (h c main_arg1).trans (net_arg1 _),
      (h c main_arg2).trans (net_arg2 _),
      (h c main_arg3).trans (net_arg3 _),
      (h c main_arg4).trans (net_arg4 _),
      (h c main_arg5).trans (net_arg5 _),
      (h c main_arg6).trans (net_arg6 _),
      (h c main_arg7).trans (net_arg7 _)⟩)
    (run_seq scopedRefs_eq scopedSems_eq defs main (fun _ => ops1 ++ ops2) main_eq (fun _ => ops_sub) m ρ (fun _ => ops_fresh))

end Cert.ReferenceIdeal.Hand

end
-- ==== Proof.RefValue.lean ====
/-
  The reference network read at an index, at the ideal values: each whole-array operation of one layer is read at a
  coordinate pair, and the layer's result at (i, k) is the index-by-index graph-attention layer of the specification
  (`Cert.GatSpec.layerR`); the network is the layer twice.
-/
import proofs.«179434_g75539884802175_cont_sun_m_1234_5_alg».proof.Proof.Gen.ReferenceIdeal
import proofs.«179434_g75539884802175_cont_sun_m_1234_5_alg».proof.Proof.RefTerm
import proofs.«179434_g75539884802175_cont_sun_m_1234_5_alg».proof.Proof.Spec
import proofs.«179434_g75539884802175_cont_sun_m_1234_5_alg».proof.Proof.Arr
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.ReferenceIdeal.Hand

open Idealize.ShloMosaic Idealize.ShloMosaic.ValueIdx Cert.ReferenceIdeal Cert.GatArr
open scoped BigOperators

/-! ### The three products read at an index

Each `dot_general` contracts the left operand's axis 1 with the right operand's axis 0: at (i, k) it is the sum over
the contracted coordinate `a` of left (i, a) times right (a, k). Per product: the four coordinate facts of the two operand
indices, then the sum re-indexed through the one contracted coordinate. -/

section Dots
variable [Facts]

theorem lhs_xw_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem lhs_xw_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_xw_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_xw_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- Features times weights at (i, k). -/
theorem dot_xw_apply (x : FVec Ideal S4096x256 .f32) (W : FVec Ideal S256x256 .f32) (i : Fin 4096) (k : Fin 256) :
    Host.dotGeneral (F := Ideal) dot_S4096x256_S256x256_S4096x256_1_0_0_1_n_n none x W (ix2 i k)
      = ∑ a : Fin 256, x (ix2 i a) * W (ix2 a k) := by
  simp only [Host.dotGeneral]
  rw [Ideal.dotGeneral_apply, ← Equiv.sum_comp (contrEquiv1 dot_S4096x256_S256x256_S4096x256_1_0_0_1_n_n 256 rfl rfl).symm]
  refine Finset.sum_congr rfl fun a _ => ?_
  have hk := contrEquiv1_symm_val dot_S4096x256_S256x256_S4096x256_1_0_0_1_n_n 256 rfl rfl a
  have el : dot_S4096x256_S256x256_S4096x256_1_0_0_1_n_n.lhsIdx (ix2 i k)
      ((contrEquiv1 dot_S4096x256_S256x256_S4096x256_1_0_0_1_n_n 256 rfl rfl).symm a) = ix2 i a :=
    funext fun b => Fin.ext (by
      match b with
      | ⟨0, _⟩ => exact lhs_xw_0 _ _
      | ⟨1, _⟩ => exact (lhs_xw_1 _ _).trans hk)
  have er : dot_S4096x256_S256x256_S4096x256_1_0_0_1_n_n.rhsIdx (ix2 i k)
      ((contrEquiv1 dot_S4096x256_S256x256_S4096x256_1_0_0_1_n_n 256 rfl rfl).symm a) = ix2 a k :=
    funext fun b => Fin.ext (by
      match b with
      | ⟨0, _⟩ => exact (rhs_xw_0 _ _).trans hk
      | ⟨1, _⟩ => exact rhs_xw_1 _ _)
  rw [el, er]

theorem lhs_col_0 (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide),
    dif_pos (show (0 : Fin S4096x256.rank) ∈ dot_S4096x256_S256x1_S4096x1_1_0_0_1_n_n.lhsNonContracting by decide)]
  rfl
theorem lhs_col_1 (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q
theorem rhs_col_0 (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q
theorem rhs_col_1 (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide),
    dif_pos (show (1 : Fin S256x1.rank) ∈ dot_S4096x256_S256x1_S4096x1_1_0_0_1_n_n.rhsNonContracting by decide)]
  rfl

/-- Transformed features against a one-column attention vector at (i, 0). -/
theorem dot_col_apply (h : FVec Ideal S4096x256 .f32) (v : FVec Ideal S256x1 .f32) (i : Fin 4096) (k : Fin 1) :
    Host.dotGeneral (F := Ideal) dot_S4096x256_S256x1_S4096x1_1_0_0_1_n_n none h v (ix2 i k)
      = ∑ a : Fin 256, h (ix2 i a) * v (ix2 a k) := by
  simp only [Host.dotGeneral]
  rw [Ideal.dotGeneral_apply, ← Equiv.sum_comp (contrEquiv1 dot_S4096x256_S256x1_S4096x1_1_0_0_1_n_n 256 rfl rfl).symm]
  refine Finset.sum_congr rfl fun a _ => ?_
  have hk := contrEquiv1_symm_val dot_S4096x256_S256x1_S4096x1_1_0_0_1_n_n 256 rfl rfl a
  have el : dot_S4096x256_S256x1_S4096x1_1_0_0_1_n_n.lhsIdx (ix2 i k)
      ((contrEquiv1 dot_S4096x256_S256x1_S4096x1_1_0_0_1_n_n 256 rfl rfl).symm a) = ix2 i a :=
    funext fun b => Fin.ext (by
      match b with
      | ⟨0, _⟩ => exact lhs_col_0 _ _
      | ⟨1, _⟩ => exact (lhs_col_1 _ _).trans hk)
  have er : dot_S4096x256_S256x1_S4096x1_1_0_0_1_n_n.rhsIdx (ix2 i k)
      ((contrEquiv1 dot_S4096x256_S256x1_S4096x1_1_0_0_1_n_n 256 rfl rfl).symm a) = ix2 a k :=
    funext fun b => Fin.ext (by
      match b with
      | ⟨0, _⟩ => exact (rhs_col_0 _ _).trans hk
      | ⟨1, _⟩ => exact rhs_col_1 _ _)
  rw [el, er]

theorem lhs_agg_0 (i : S4096x256.Idx) (q : dot_S4096x4096_S4096x256_S4096x256_1_0_0_1_n_n.contr.Idx) :
    (dot_S4096x4096_S4096x256_S4096x256_1_0_0_1_n_n.lhsIdx i q 0).val = (i 0).val := by
  unfold DotDims.lhsIdx
  rw [dif_neg (show ¬(0 : Fin S4096x4096.rank) ∈ dot_S4096x4096_S4096x256_S4096x256_1_0_0_1_n_n.lhsBatch by decide),
    dif_pos (show (0 : Fin S4096x4096.rank) ∈ dot_S4096x4096_S4096x256_S4096x256_1_0_0_1_n_n.lhsNonContracting by decide)]
  rfl
theorem lhs_agg_1 (i : S4096x256.Idx) (q : dot_S4096x4096_S4096x256_S4096x256_1_0_0_1_n_n.contr.Idx) :
    (dot_S4096x4096_S4096x256_S4096x256_1_0_0_1_n_n.lhsIdx i q 1).val = (q ⟨0, by decide⟩).val :=
  dot_S4096x4096_S4096x256_S4096x256_1_0_0_1_n_n.lhsIdx_val_of_single rfl i q
theorem rhs_agg_0 (i : S4096x256.Idx) (q : dot_S4096x4096_S4096x256_S4096x256_1_0_0_1_n_n.contr.Idx) :
    (dot_S4096x4096_S4096x256_S4096x256_1_0_0_1_n_n.rhsIdx i q 0).val = (q ⟨0, by decide⟩).val :=
  dot_S4096x4096_S4096x256_S4096x256_1_0_0_1_n_n.rhsIdx_val_of_single rfl i q
theorem rhs_agg_1 (i : S4096x256.Idx) (q : dot_S4096x4096_S4096x256_S4096x256_1_0_0_1_n_n.contr.Idx) :
    (dot_S4096x4096_S4096x256_S4096x256_1_0_0_1_n_n.rhsIdx i q 1).val = (i 1).val := by
  unfold DotDims.rhsIdx
  rw [dif_neg (show ¬(1 : Fin S4096x256.rank) ∈ dot_S4096x4096_S4096x256_S4096x256_1_0_0_1_n_n.rhsBatch by decide),
    dif_pos (show (1 : Fin S4096x256.rank) ∈ dot_S4096x4096_S4096x256_S4096x256_1_0_0_1_n_n.rhsNonContracting by decide)]
  rfl

/-- Attention weights times transformed features at (i, k). -/
theorem dot_agg_apply (p : FVec Ideal S4096x4096 .f32) (h : FVec Ideal S4096x256 .f32) (i : Fin 4096) (k : Fin 256) :
    Host.dotGeneral (F := Ideal) dot_S4096x4096_S4096x256_S4096x256_1_0_0_1_n_n none p h (ix2 i k)
      = ∑ a : Fin 4096, p (ix2 i a) * h (ix2 a k) := by
  simp only [Host.dotGeneral]
  rw [Ideal.dotGeneral_apply, ← Equiv.sum_comp (contrEquiv1 dot_S4096x4096_S4096x256_S4096x256_1_0_0_1_n_n 4096 rfl rfl).symm]
  refine Finset.sum_congr rfl fun a _ => ?_
  have hk := contrEquiv1_symm_val dot_S4096x4096_S4096x256_S4096x256_1_0_0_1_n_n 4096 rfl rfl a
  have el : dot_S4096x4096_S4096x256_S4096x256_1_0_0_1_n_n.lhsIdx (ix2 i k)
      ((contrEquiv1 dot_S4096x4096_S4096x256_S4096x256_1_0_0_1_n_n 4096 rfl rfl).symm a) = ix2 i a :=
    funext fun b => Fin.ext (by
      match b with
      | ⟨0, _⟩ => exact lhs_agg_0 _ _
      | ⟨1, _⟩ => exact (lhs_agg_1 _ _).trans hk)
  have er : dot_S4096x4096_S4096x256_S4096x256_1_0_0_1_n_n.rhsIdx (ix2 i k)
      ((contrEquiv1 dot_S4096x4096_S4096x256_S4096x256_1_0_0_1_n_n 4096 rfl rfl).symm a) = ix2 a k :=
    funext fun b => Fin.ext (by
      match b with
      | ⟨0, _⟩ => exact (rhs_agg_0 _ _).trans hk
      | ⟨1, _⟩ => exact rhs_agg_1 _ _)
  rw [el, er]

end Dots

/-! ### Layout operations read at an index -/

section Layout
variable [Facts]
open Cert.ReferenceIdeal.Facts₀

/-- A column transposed to a row reads the column. -/
theorem transpose_col_apply (v : FVec Ideal S4096x1 .f32) (u : Fin 1) (j : Fin 4096) :
    transpose S1x4096 [1, 0] v transposes_S4096x1_S1x4096_1_0 (ix2 u j) = v (ix2 j u) :=
  transpose_ix2_apply v _ u j

/-- A column broadcast along the rows: entry (i, j) is the column at i. -/
theorem bcast_col_apply (v : FVec Ideal S4096x1 .f32) (i j : Fin 4096) :
    broadcastInDim S4096x4096 ![0, 1] bcast_S4096x1_S4096x4096_0_1 v (ix2 i j) = v (ix2 i (0 : Fin 1)) :=
  broadcastInDim_apply _ _ v _ _ fun a => match a with | ⟨0, _⟩ => rfl | ⟨1, _⟩ => rfl

/-- A row broadcast down the columns: entry (i, j) is the row at j. -/
theorem bcast_row_apply (v : FVec Ideal S1x4096 .f32) (i j : Fin 4096) :
    broadcastInDim S4096x4096 ![0, 1] bcast_S1x4096_S4096x4096_0_1 v (ix2 i j) = v (ix2 (0 : Fin 1) j) :=
  broadcastInDim_apply _ _ v _ _ fun a => match a with | ⟨0, _⟩ => rfl | ⟨1, _⟩ => rfl

/-- A vector as a one-column array. -/
theorem bcast_vec_apply (v : FVec Ideal S4096 .f32) (i : Fin 4096) (u : Fin 1) :
    broadcastInDim S4096x1 ![0] bcast_S4096_S4096x1_0 v (ix2 i u) = v (ix1 i) :=
  broadcastInDim_apply _ _ v _ _ fun a => match a with | ⟨0, _⟩ => rfl

end Layout

/-! ### The two row reductions -/

section Reductions
variable [Facts]
open Cert.ReferenceIdeal.Facts₀

/-- The word of minus infinity is the bottom element. -/
theorem ofBits_neg_inf : Ideal.ofBits .f32 0xFF800000#32 = (⊥ : EReal) := by simp [Ideal.ofBits, Ideal.ieee]

/-- The index over row `i` with column `j` inserted is (i, j). -/
theorem lift_row (h : S4096x4096.Reduces [1] S4096) (i j : Fin 4096) : h.lift (ix1 i) j = ix2 i j :=
  funext fun c => Fin.ext (by
    match c with
    | ⟨0, _⟩ => rfl
    | ⟨1, _⟩ => rfl)

/-- The reduction by maximum over axis 1 from minus infinity is the row's maximum. -/
theorem rowmax_apply (g : FVec Ideal S4096x4096 .f32) (i : Fin 4096) :
    Host.reduce FloatOps.maximumf g (constant (F := Ideal) S_ .f32 0xFF800000#32) reducesTo_S4096x4096_S4096_d1 h_S_ (ix1 i)
      = Cert.GatSpec.rowMax (fun j => g (ix2 i j)) := by
  have h : S4096x4096.Reduces [1] S4096 := by decide
  refine (Host.reduce_eq_fold_single FloatOps.maximumf g _ reducesTo_S4096x4096_S4096_d1 h h_S_ (ix1 i)).trans ?_
  have hf : (fun j : Fin 4096 => g (h.lift (ix1 i) j)) = fun j => g (ix2 i j) :=
    funext fun j => congrArg g (lift_row h i j)
  show (Finset.univ : Finset (Fin 4096)).fold max (Ideal.ofBits .f32 0xFF800000#32) (fun j : Fin 4096 => g (h.lift (ix1 i) j)) = _
  rw [ofBits_neg_inf]
  exact congrArg (fun f => Finset.fold max (⊥ : EReal) f (Finset.univ : Finset (Fin 4096))) hf

/-- The sum over axis 1 from zero is the row's sum. -/
theorem rowsum_apply (p : FVec Ideal S4096x4096 .f32) (i : Fin 4096) :
    Host.reduceAdd (F := Ideal) p (constant (F := Ideal) S_ .f32 0x00000000#32) reducesTo_S4096x4096_S4096_d1 h_S_ (ix1 i)
      = ∑ j : Fin 4096, p (ix2 i j) := by
  have h : S4096x4096.Reduces [1] S4096 := by decide
  rw [hostReduceAdd_apply]
  refine (Ideal.hostReduceAdd_single reducesTo_S4096x4096_S4096_d1 h p _ (ix1 i)).trans ?_
  show Ideal.ofBits .f32 0x00000000#32 + ∑ j : Fin 4096, p (h.lift (ix1 i) j) = _
  rw [Ideal.ofBits_zero_f32, zero_add]
  exact Finset.sum_congr rfl fun j _ => congrArg p (lift_row h i j)

end Reductions

/-! ### A select on a comparison with a threshold is the `if` -/

theorem select_oge (e z a b : EReal) : Scalar.select (Ideal.cmp .oge e z) a b = if z ≤ e then a else b := by
  unfold Scalar.select Ideal.cmp
  by_cases h : z ≤ e <;> simp [h]

theorem select_ogt (e z a b : EReal) : Scalar.select (Ideal.cmp .ogt e z) a b = if z < e then a else b := by
  unfold Scalar.select Ideal.cmp
  by_cases h : z < e <;> simp [h]

/-! ### The host's exponentials read at an index -/

theorem hostExp_apply {s : Shape} {φ : FTy} (x : FVec Ideal s φ) (i : s.Idx) : Host.exp x i = Ideal.exp (x i) := rfl

theorem hostExpm1_apply {s : Shape} {φ : FTy} (x : FVec Ideal s φ) (i : s.Idx) : Host.expm1 x i = Ideal.exp (x i) - 1 := rfl

/-! ### The layer in four stages

The layer's whole-array term is cut where its mathematics is: the score sum of the transformed features, the leaky
rectification under the adjacency mask, the row softmax, and the exponential linear unit. Each stage is a function of
the array it starts from, and is read at an index on its own. -/

section Stages
variable [Facts]
open Cert.ReferenceIdeal.Facts₀

/-- The score sum `(h asrc) i + (h adst) j` as an array over (i, j). -/
def scoreArr (h : FVec Ideal S4096x256 .f32) (asrc adst : FVec Ideal S256x1 .f32) : FVec Ideal S4096x4096 .f32 :=
  addf
    (broadcastInDim S4096x4096 ![0, 1] bcast_S4096x1_S4096x4096_0_1
      (Host.dotGeneral dot_S4096x256_S256x1_S4096x1_1_0_0_1_n_n none h asrc))
    (broadcastInDim S4096x4096 ![0, 1] bcast_S1x4096_S4096x4096_0_1
      (transpose S1x4096 [1, 0] (Host.dotGeneral dot_S4096x256_S256x1_S4096x1_1_0_0_1_n_n none h adst)
        transposes_S4096x1_S1x4096_1_0))

theorem scoreArr_apply (h : FVec Ideal S4096x256 .f32) (asrc adst : FVec Ideal S256x1 .f32) (i j : Fin 4096) :
    scoreArr h asrc adst (ix2 i j)
      = Cert.GatSpec.srcScore (m2 h) (col asrc) i + Cert.GatSpec.dstScoreR (m2 h) (col adst) j := by
  unfold scoreArr
  rw [addf_apply, bcast_col_apply, bcast_row_apply, transpose_col_apply, dot_col_apply, dot_col_apply]
  rfl

/-- Leaky rectification of the scores, kept on the edges of the adjacency and replaced by the mask constant off them. -/
def maskedArr (e adj : FVec Ideal S4096x4096 .f32) : FVec Ideal S4096x4096 .f32 :=
  select (cmpf .ogt adj (broadcastInDim S4096x4096 ![] bcast_S_S4096x4096 (constant (F := Ideal) S_ .f32 0x00000000#32)))
    (select (cmpf .oge e (broadcastInDim S4096x4096 ![] bcast_S_S4096x4096 (constant (F := Ideal) S_ .f32 0x00000000#32)))
      e
      (mulf (broadcastInDim S4096x4096 ![] bcast_S_S4096x4096 (id (constant (F := Ideal) S_ .f32 0x3E4CCCCD#32))) e))
    (broadcastInDim S4096x4096 ![] bcast_S_S4096x4096 (constant (F := Ideal) S_ .f32 0xCE6E6B28#32))

theorem maskedArr_apply (e adj : FVec Ideal S4096x4096 .f32) (i j : Fin 4096) :
    maskedArr e adj (ix2 i j) = Cert.GatSpec.masked cneg (adj (ix2 i j)) (Cert.GatSpec.leaky c02 (e (ix2 i j))) := by
  unfold maskedArr Cert.GatSpec.masked Cert.GatSpec.leaky
  simp only [select_apply, cmpf_apply, mulf_apply, Ideal.cmpf_def]
  rw [broadcastInDim_scalar_apply, broadcastInDim_scalar_apply, broadcastInDim_scalar_apply]
  simp only [constant_apply, id, select_oge, select_ogt, Ideal.ofBits_zero_f32]

/-- The exponential of a row's entries less the row's maximum. -/
def shiftExpArr (g : FVec Ideal S4096x4096 .f32) : FVec Ideal S4096x4096 .f32 :=
  Host.exp (subf g
    (broadcastInDim S4096x4096 ![0, 1] bcast_S4096x1_S4096x4096_0_1
      (broadcastInDim S4096x1 ![0] bcast_S4096_S4096x1_0
        (maximumf (broadcastInDim S4096 ![] bcast_S_S4096 (constant (F := Ideal) S_ .f32 0xFF800000#32))
          (Host.reduce FloatOps.maximumf g (constant (F := Ideal) S_ .f32 0xFF800000#32)
            reducesTo_S4096x4096_S4096_d1 h_S_)))))

theorem shiftExpArr_apply (g : FVec Ideal S4096x4096 .f32) (i j : Fin 4096) :
    shiftExpArr g (ix2 i j) = Cert.GatSpec.weight (fun b => g (ix2 i b)) j := by
  unfold shiftExpArr Cert.GatSpec.weight
  rw [hostExp_apply, subf_apply, bcast_col_apply, bcast_vec_apply, maximumf_apply, broadcastInDim_scalar_apply,
    constant_apply, rowmax_apply, ofBits_neg_inf, max_bot_left]

/-- The row softmax: each shifted exponential over its row's sum. -/
def softmaxArr (g : FVec Ideal S4096x4096 .f32) : FVec Ideal S4096x4096 .f32 :=
  Host.divf (shiftExpArr g)
    (broadcastInDim S4096x4096 ![0, 1] bcast_S4096x1_S4096x4096_0_1
      (broadcastInDim S4096x1 ![0] bcast_S4096_S4096x1_0
        (Host.reduceAdd (shiftExpArr g) (constant (F := Ideal) S_ .f32 0x00000000#32)
          reducesTo_S4096x4096_S4096_d1 h_S_)))

theorem softmaxArr_apply (g : FVec Ideal S4096x4096 .f32) (i j : Fin 4096) :
    softmaxArr g (ix2 i j)
      = Ideal.div (Cert.GatSpec.weight (fun b => g (ix2 i b)) j) (Cert.GatSpec.norm (fun b => g (ix2 i b))) := by
  unfold softmaxArr Cert.GatSpec.norm
  rw [hostDivf_apply, bcast_col_apply, bcast_vec_apply, rowsum_apply, shiftExpArr_apply]
  exact congrArg (Ideal.div _) (Finset.sum_congr rfl fun b _ => shiftExpArr_apply g i b)

/-- The exponential linear unit as the reference spells it: a guarded argument and a unit factor. -/
def eluArr (a : FVec Ideal S4096x256 .f32) : FVec Ideal S4096x256 .f32 :=
  select (cmpf .ogt a (broadcastInDim S4096x256 ![] bcast_S_S4096x256 (constant (F := Ideal) S_ .f32 0x00000000#32)))
    a
    (mulf (broadcastInDim S4096x256 ![] bcast_S_S4096x256 (constant (F := Ideal) S_ .f32 0x3F800000#32))
      (Host.expm1
        (select (cmpf .ogt a (broadcastInDim S4096x256 ![] bcast_S_S4096x256 (constant (F := Ideal) S_ .f32 0x00000000#32)))
          (broadcastInDim S4096x256 ![] bcast_S_S4096x256 (id (constant (F := Ideal) S_ .f32 0x00000000#32)))
          a)))

theorem eluArr_apply (a : FVec Ideal S4096x256 .f32) (i : Fin 4096) (k : Fin 256) :
    eluArr a (ix2 i k) = Cert.GatSpec.eluR (a (ix2 i k)) := by
  unfold eluArr Cert.GatSpec.eluR
  simp only [select_apply, cmpf_apply, mulf_apply, hostExpm1_apply, Ideal.cmpf_def]
  rw [broadcastInDim_scalar_apply, broadcastInDim_scalar_apply, broadcastInDim_scalar_apply]
  simp only [constant_apply, id, select_ogt, Ideal.ofBits_zero_f32, Ideal.ofBits_one_f32]

/-- The layer's term is the four stages composed around the two products with the features. -/
theorem refLayer_eq (x : FVec Ideal S4096x256 .f32) (adj : FVec Ideal S4096x4096 .f32) (W : FVec Ideal S256x256 .f32)
    (asrc adst : FVec Ideal S256x1 .f32) :
    refLayer (F := Ideal) x adj W asrc adst
      = eluArr (Host.dotGeneral dot_S4096x4096_S4096x256_S4096x256_1_0_0_1_n_n none
          (softmaxArr (maskedArr (scoreArr (Host.dotGeneral dot_S4096x256_S256x256_S4096x256_1_0_0_1_n_n none x W) asrc adst) adj))
          (Host.dotGeneral dot_S4096x256_S256x256_S4096x256_1_0_0_1_n_n none x W)) := rfl

end Stages

/-! ### The layer and the network at an index -/

theorem refLayer_apply (x : FVec Ideal S4096x256 .f32) (adj : FVec Ideal S4096x4096 .f32) (W : FVec Ideal S256x256 .f32) (asrc adst : FVec Ideal S256x1 .f32) (i : Fin 4096) (k : Fin 256) :
    refLayer (F := Ideal) x adj W asrc adst (ix2 i k) = Cert.GatSpec.layerR c02 cneg (m2 x) (m2 adj) (m2 W) (col asrc) (col adst) i k := by
  have hH : ∀ a b, Host.dotGeneral (F := Ideal) dot_S4096x256_S256x256_S4096x256_1_0_0_1_n_n none x W (ix2 a b)
      = Cert.GatSpec.feat (m2 x) (m2 W) a b := fun a b => dot_xw_apply x W a b
  have hG : ∀ a b, maskedArr (scoreArr (Host.dotGeneral (F := Ideal) dot_S4096x256_S256x256_S4096x256_1_0_0_1_n_n none x W) asrc adst) adj (ix2 a b)
      = Cert.GatSpec.logits c02 cneg (m2 adj)
          (Cert.GatSpec.srcScore (Cert.GatSpec.feat (m2 x) (m2 W)) (col asrc))
          (Cert.GatSpec.dstScoreR (Cert.GatSpec.feat (m2 x) (m2 W)) (col adst)) a b := by
    intro a b
    rw [maskedArr_apply, scoreArr_apply,
      show m2 (Host.dotGeneral (F := Ideal) dot_S4096x256_S256x256_S4096x256_1_0_0_1_n_n none x W) = Cert.GatSpec.feat (m2 x) (m2 W) from
        funext fun a => funext fun b => hH a b]
    rfl
  rw [refLayer_eq, eluArr_apply, dot_agg_apply]
  simp only [softmaxArr_apply, hG, hH]
  rfl

theorem refNet_apply (x : FVec Ideal S4096x256 .f32) (adj : FVec Ideal S4096x4096 .f32) (W1 : FVec Ideal S256x256 .f32) (s1 d1 : FVec Ideal S256x1 .f32) (W2 : FVec Ideal S256x256 .f32) (s2 d2 : FVec Ideal S256x1 .f32) (i : Fin 4096) (k : Fin 256) :
    refNet (F := Ideal) x adj W1 s1 d1 W2 s2 d2 (ix2 i k) = Cert.GatSpec.netR c02 cneg (m2 x) (m2 adj) (m2 W1) (col s1) (col d1) (m2 W2) (col s2) (col d2) i k := by
  unfold refNet Cert.GatSpec.netR
  rw [refLayer_apply,
    show m2 (refLayer (F := Ideal) x adj W1 s1 d1) = Cert.GatSpec.layerR c02 cneg (m2 x) (m2 adj) (m2 W1) (col s1) (col d1) from
      funext fun a => funext fun b => refLayer_apply x adj W1 s1 d1 a b]

end Cert.ReferenceIdeal.Hand

end
-- ==== Proof.PreFinite.lean ====
/-
  Finiteness from the precondition. The predicate asks, for each of the eight argument arrays a, that
  |a| < +∞ holds at every index (the conjunction over the array of the comparison, then the conjunction of
  the eight results). On the extended reals |x| is max x (-x) and the word 0x7F800000 is +∞, so
  |x| < +∞ excludes x = +∞ and x = -∞ (whose absolute value is +∞ as well): x is a real number. Hence
  when the predicate holds every entry of every argument is real.
-/
import proofs.«179434_g75539884802175_cont_sun_m_1234_5_alg».proof.Pre_finite_inputs
import proofs.«179434_g75539884802175_cont_sun_m_1234_5_alg».proof.Proof.Gen.Pre_finite_inputs
import proofs.«179434_g75539884802175_cont_sun_m_1234_5_alg».proof.Proof.Spec
import Idealize.ShloMosaic.Lib.ReduceAll
import Idealize.ShloMosaic.Lib.ValueIdx
import Idealize.ShloMosaic.PureOps.Ideal.Laws

noncomputable section

namespace Cert.Pre_finite_inputs.Hand

open Idealize.ShloMosaic Cert.Pre_finite_inputs

/-- The scalar shape has exactly one index. -/
instance : Subsingleton S_.Idx := ⟨fun a b => funext fun d => d.elim0⟩

/-- The single-precision word 0x7F800000 (sign 0, exponent all ones, fraction 0) denotes +∞. -/
theorem inf_bits : Ideal.ofBits .f32 0x7F800000#32 = (⊤ : EReal) := by
  simp [Ideal.ofBits, Ideal.ieee]

/-- An extended real whose absolute value max x (-x) lies strictly below +∞ is a real number:
    at x = -∞ the maximum is -(-∞) = +∞, at x = +∞ it is +∞ itself. -/
theorem isReal_of_abs_lt_top (x : EReal) (h : max x (-x) < ⊤) : Cert.GatSpec.IsReal x := by
  induction x using EReal.rec with
  | bot => simp at h
  | coe r => exact ⟨r, rfl⟩
  | top => simp at h

/-- An ordered less-than comparison whose one-bit result is 1 says that the strict inequality holds. -/
theorem lt_of_cmp_olt (x y : EReal) (h : Ideal.cmp .olt x y = 1#1) : x < y := by
  unfold Ideal.cmp at h
  by_contra hn
  simp [hn] at h

/-- One array: if the conjunction over all indices of |a| < +∞ is 1, every entry of a is real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ValueIdx.ix0 = 1#1) :
    ∀ i, Cert.GatSpec.IsReal (a i) := by
  intro i
  have h1 := Host.reduce_andi_all _ _ hr hu ValueIdx.ix0 e i
  have h2 : Ideal.cmp .olt (max (a i) (-(a i))) (Ideal.ofBits .f32 0x7F800000#32) = 1#1 := h1
  rw [inf_bits] at h2
  exact isReal_of_abs_lt_top _ (lt_of_cmp_olt _ _ h2)

/-- The predicate holding means every entry of each of the eight arguments is a real number. -/
theorem real_of_pre (a0 : FVec Ideal S4096x256 .f32) (a1 : FVec Ideal S4096x4096 .f32) (a2 : FVec Ideal S256x256 .f32) (a3 a4 : FVec Ideal S256x1 .f32) (a5 : FVec Ideal S256x256 .f32) (a6 a7 : FVec Ideal S256x1 .f32)
    (h : Cert.Pre_finite_inputs.fn (F := Ideal) a0 a1 a2 a3 a4 a5 a6 a7 = fun _ => 1#1) :
    (∀ i, Cert.GatSpec.IsReal (a0 i)) ∧ (∀ i, Cert.GatSpec.IsReal (a1 i)) ∧ (∀ i, Cert.GatSpec.IsReal (a2 i)) ∧ (∀ i, Cert.GatSpec.IsReal (a3 i)) ∧ (∀ i, Cert.GatSpec.IsReal (a4 i)) ∧ (∀ i, Cert.GatSpec.IsReal (a5 i)) ∧ (∀ i, Cert.GatSpec.IsReal (a6 i)) ∧ (∀ i, Cert.GatSpec.IsReal (a7 i)) := by
  have h0 := congrFun h ValueIdx.ix0
  dsimp only [fn, fn_part1, fn_part2, andi] at h0
  -- the eight results are joined left to right: ((((((r0 ∧ r1) ∧ r2) ∧ r3) ∧ r4) ∧ r5) ∧ r6) ∧ r7
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7⟩

end Cert.Pre_finite_inputs.Hand

end
-- ==== Proof.lean ====
/-
  Two stacked dense graph-attention layers: the Pallas kernel (one launch per layer, a grid of sixteen blocks of 256
  destination rows) against the plain jnp reference, at the ideal instance.

  Per layer, with h = x W, s = h asrc, d = h adst and e i j = s i + d j, leaky-rectified and masked by the adjacency
  to a large negative constant off the edges: the reference takes the row softmax alpha = p / z, p = exp (e - max e),
  z = sum p, and aggregates alpha h; the kernel aggregates p h and divides by z once. On finite inputs z is a positive
  real, division by it distributes over the finite sum, and the two are one function; elu written with expm1 of a
  guarded argument and a unit factor is elu written with exp - 1. The first layer's result is finite again, so the
  second layer agrees too (Proof/Spec.lean). The kernel keeps h (f32 and bf16: the same extended reals) and the row of
  source scores in scratch arrays filled at the first grid point; its output array is the fold of the sixteen stored
  blocks (Proof/Body*, Reg*, Launch, KerArr, KerValue). The reference's run ends at the composed term of its host
  operations (Proof/RefRun, RefTerm), read index by index in Proof/RefValue. Finiteness of the eight inputs is the
  precondition (Proof/PreFinite). The ideal pass rewrote nothing, so `preserves` is trivial.
-/
import proofs.«179434_g75539884802175_cont_sun_m_1234_5_alg».proof.Defs
import proofs.«179434_g75539884802175_cont_sun_m_1234_5_alg».proof.Proof.Gen.Kernel
import proofs.«179434_g75539884802175_cont_sun_m_1234_5_alg».proof.Proof.Gen.KernelIdeal
import proofs.«179434_g75539884802175_cont_sun_m_1234_5_alg».proof.Proof.Gen.ReferenceIdeal
import proofs.«179434_g75539884802175_cont_sun_m_1234_5_alg».proof.Proof.Gen.Pre_finite_inputs
import proofs.«179434_g75539884802175_cont_sun_m_1234_5_alg».proof.Proof.Launch
import proofs.«179434_g75539884802175_cont_sun_m_1234_5_alg».proof.Proof.K.Launch
import proofs.«179434_g75539884802175_cont_sun_m_1234_5_alg».proof.Proof.KerArr
import proofs.«179434_g75539884802175_cont_sun_m_1234_5_alg».proof.Proof.RefRun
import proofs.«179434_g75539884802175_cont_sun_m_1234_5_alg».proof.Proof.RefValue
import proofs.«179434_g75539884802175_cont_sun_m_1234_5_alg».proof.Proof.PreFinite
import proofs.«179434_g75539884802175_cont_sun_m_1234_5_alg».proof.Proof.Spec
import proofs.«179434_g75539884802175_cont_sun_m_1234_5_alg».proof.Proof.Arr
import Idealize.ShloMosaic.Adequacy
import Idealize.ShloMosaic.Init

noncomputable section

namespace Cert.Proof

open Idealize.ShloMosaic Idealize.ShloMosaic.TcCoe Idealize.ShloMosaic.ValueIdx Idealize.SL.Sem Cert.GatArr Cert.GatSpec

/-- The three frames: each program's run with the result dropped. -/
theorem frame_k : Cert.frame_Kernel := fun m ρ _ =>
  (θ_run Cert.Kernel.defs _ _).mono (fun _ h c => (h c).2) (Cert.Kernel.Hand.run_main (F := Bits) m ρ)
theorem frame_ki : Cert.frame_KernelIdeal := fun m ρ _ =>
  (θ_run Cert.KernelIdeal.defs _ _).mono (fun _ h c => (h c).2) (Cert.KernelIdeal.Hand.run_main (F := Ideal) m ρ)
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- The kernel's result array: the second layer over the first layer's result, aggregate-then-divide. -/
theorem kernel_value (m : (ℓ : Loc Cert.KernelIdeal.nD Cert.KernelIdeal.τ Cert.KernelIdeal.sig) → Buf (Elt Ideal) ℓ) (c : Dev Cert.KernelIdeal.nD) :
    (Cert.KernelIdeal.Hand.dat1 (F := Ideal) (Cert.KernelIdeal.Hand.V1 m) c).arrAt 5 Cert.KernelIdeal.cfg1.N
      = fun idx => netK c02 cneg (m2 (m ((c.tc : Thread Cert.KernelIdeal.nD Cert.KernelIdeal.τ).loc Cert.KernelIdeal.main_arg0))) (m2 (m ((c.tc : Thread Cert.KernelIdeal.nD Cert.KernelIdeal.τ).loc Cert.KernelIdeal.main_arg1))) (m2 (m ((c.tc : Thread Cert.KernelIdeal.nD Cert.KernelIdeal.τ).loc Cert.KernelIdeal.main_arg2))) (col (m ((c.tc : Thread Cert.KernelIdeal.nD Cert.KernelIdeal.τ).loc Cert.KernelIdeal.main_arg3))) (col (m ((c.tc : Thread Cert.KernelIdeal.nD Cert.KernelIdeal.τ).loc Cert.KernelIdeal.main_arg4))) (m2 (m ((c.tc : Thread Cert.KernelIdeal.nD Cert.KernelIdeal.τ).loc Cert.KernelIdeal.main_arg5))) (col (m ((c.tc : Thread Cert.KernelIdeal.nD Cert.KernelIdeal.τ).loc Cert.KernelIdeal.main_arg6))) (col (m ((c.tc : Thread Cert.KernelIdeal.nD Cert.KernelIdeal.τ).loc Cert.KernelIdeal.main_arg7))) (idx 0) (idx 1) := by
  rw [Cert.KernelIdeal.Hand.final1 (Cert.KernelIdeal.Hand.V1 m) c, Cert.KernelIdeal.Hand.V1_main_call0_v0,
    Cert.KernelIdeal.Hand.final0 (Cert.KernelIdeal.Hand.V0 m) c, Cert.KernelIdeal.Hand.V1_main_arg1,
    Cert.KernelIdeal.Hand.V1_main_arg5, Cert.KernelIdeal.Hand.V1_main_arg6, Cert.KernelIdeal.Hand.V1_main_arg7]
  rfl

/-- The two idealized programs end with equal results: the kernel's array is `netK` of the arguments, the reference's
    composed term read at an index is `netR` of them, and on finite arguments the two are one function. -/
theorem algebraic : Cert.algebraic_KernelIdeal_ReferenceIdeal := by
  intro m ρ m' ρ' hpre hagree
  refine ⟨fun c idx => netK c02 cneg (m2 (m ((c.tc : Thread Cert.KernelIdeal.nD Cert.KernelIdeal.τ).loc Cert.KernelIdeal.main_arg0))) (m2 (m ((c.tc : Thread Cert.KernelIdeal.nD Cert.KernelIdeal.τ).loc Cert.KernelIdeal.main_arg1))) (m2 (m ((c.tc : Thread Cert.KernelIdeal.nD Cert.KernelIdeal.τ).loc Cert.KernelIdeal.main_arg2))) (col (m ((c.tc : Thread Cert.KernelIdeal.nD Cert.KernelIdeal.τ).loc Cert.KernelIdeal.main_arg3))) (col (m ((c.tc : Thread Cert.KernelIdeal.nD Cert.KernelIdeal.τ).loc Cert.KernelIdeal.main_arg4))) (m2 (m ((c.tc : Thread Cert.KernelIdeal.nD Cert.KernelIdeal.τ).loc Cert.KernelIdeal.main_arg5))) (col (m ((c.tc : Thread Cert.KernelIdeal.nD Cert.KernelIdeal.τ).loc Cert.KernelIdeal.main_arg6))) (col (m ((c.tc : Thread Cert.KernelIdeal.nD Cert.KernelIdeal.τ).loc Cert.KernelIdeal.main_arg7))) (idx 0) (idx 1), ?_, ?_⟩
  · exact (θ_run Cert.KernelIdeal.defs _ _).mono (fun _ h c => ⟨(h c).1.trans (kernel_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Hand.run (F := Ideal) m' ρ')
    obtain ⟨h0, h1, h2, h3, h4, h5, h6, h7⟩ := hagree c
    rw [h0, h1, h2, h3, h4, h5, h6, h7]
    obtain ⟨r0, r1, r2, r3, r4, r5, r6, r7⟩ := Cert.Pre_finite_inputs.Hand.real_of_pre _ _ _ _ _ _ _ _ (hpre c)
    funext idx
    obtain ⟨i, k, rfl⟩ : ∃ (i : Fin 4096) (k : Fin 256), idx = ix2 i k := ⟨idx 0, idx 1, eq_ix2 idx⟩
    rw [Cert.ReferenceIdeal.Hand.refNet_apply,
      netR_eq_netK c02 cneg c02_real cneg_real _ _ _ _ _ _ _ _ (fun i a => r0 _) (fun a k => r2 _) (fun k => r3 _) (fun k => r4 _)
        (fun a k => r5 _) (fun k => r6 _) (fun k => r7 _)]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
